-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  main_v53

def fn_part2 {F : FTy → Type} [FloatOps F] (main_arg9 : FVec F S128x128 .f32) (main_arg10 : FVec F S128 .f32) (main_arg11 : FVec F S128x10 .f32) (main_arg12 : FVec F S10 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x10 .f32 := Host.absf main_arg11
  let main_cst_16 : FVec F S_ .f32 := constant S_ .f32 0x7F800000#32
  let main_v45 : FVec F S128x10 .f32 := broadcastInDim S128x10 ![] bcast_S_S128x10 main_cst_16
  let main_v46 : IVec S128x10 1 := cmpf .olt main_v44 main_v45
  let main_c_17 : IVec S_ 1 := constantI S_ 1 1#1
  let main_v47 : IVec S_ 1 := (fun x v => Host.reduce IntOp.andi x v reducesTo_S128x10_S_d0_1 h_S_) main_v46 main_c_17
  let main_v48 : IVec S_ 1 := andi main_v43 main_v47
  let main_v49 : FVec F S10 .f32 := Host.absf main_arg12
  let main_cst_18 : FVec F S_ .f32 := constant S_ .f32 0x7F800000#32
  let main_v50 : FVec F S10 .f32 := broadcastInDim S10 ![] bcast_S_S10 main_cst_18
  fn_part3 (F := F) main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128x10 .f32) (main_arg12 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x10 .f32) (main_arg12 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S2000x128 : Shape := ⟨2, ![2000, 128]⟩
abbrev S50000x1 : Shape := ⟨2, ![50000, 1]⟩
abbrev S1x10 : Shape := ⟨2, ![1, 10]⟩
abbrev S64x10 : Shape := ⟨2, ![64, 10]⟩
abbrev S2000x1 : Shape := ⟨2, ![2000, 1]⟩
abbrev S64x128 : Shape := ⟨2, ![64, 128]⟩
abbrev S2000x64 : Shape := ⟨2, ![2000, 64]⟩

abbrev nBuf : Space → Nat
  | .hbm => 52
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x10, .f32⟩
  | .hbm, ⟨12, _⟩ => ⟨S10, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S1x128, .f32⟩
  | .hbm, ⟨31, _⟩ => ⟨S1x128, .f32⟩
  | .hbm, ⟨32, _⟩ => ⟨S50000x128, .bf16⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x128, .bf16⟩
  | .hbm, ⟨42, _⟩ => ⟨S800000x128, .f32⟩
  | .hbm, ⟨43, _⟩ => ⟨S_, .f32⟩
  | .hbm, ⟨44, _⟩ => ⟨S50000x128, .f32⟩
  | .hbm, ⟨45, _⟩ => ⟨S800000x1, .i32⟩
  | .hbm, ⟨46, _⟩ => ⟨S50000x128, .f32⟩
  | .hbm, ⟨47, _⟩ => ⟨S50000x1, .i32⟩
  | .hbm, ⟨48, _⟩ => ⟨S1x128, .f32⟩
  | .hbm, ⟨49, _⟩ => ⟨S1x128, .f32⟩
  | .hbm, ⟨50, _⟩ => ⟨S1x10, .f32⟩
  | .hbm, ⟨51, _⟩ => ⟨S64x10, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S2000x128, .bf16⟩
  | .local _ .vmem, ⟨9, _⟩ => ⟨S2000x128, .bf16⟩
  | .local _ .vmem, ⟨10, _⟩ => ⟨S2000x128, .bf16⟩
  | .local _ .vmem, ⟨11, _⟩ => ⟨S2000x128, .bf16⟩
  | .local _ .vmem, ⟨12, _⟩ => ⟨S2000x128, .f32⟩
  | .local _ .vmem, ⟨13, _⟩ => ⟨S2000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S2000x1, .i32⟩
  | .local _ .vmem, ⟨19, _⟩ => ⟨S2000x1, .i32⟩
  | .local _ .vmem, ⟨20, _⟩ => ⟨S128x10, .f32⟩
  | .local _ .vmem, ⟨21, _⟩ => ⟨S1x10, .f32⟩
  | .local _ .vmem, ⟨22, _⟩ => ⟨S64x10, .f32⟩
  | .local _ .vmem, ⟨23, _⟩ => ⟨S64x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_1 : Ref sig .tc := ⟨.hbm, 33, rfl⟩
abbrev main_v17 : Ref sig .tc := ⟨.hbm, 34, rfl⟩
abbrev main_v18 : Ref sig .tc := ⟨.hbm, 35, rfl⟩
abbrev main_c_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc1_sem7_0 : DmaSem sig := 20
abbrev cc1_sem8_0 : DmaSem sig := 21
abbrev cc1_sem9_0 : DmaSem sig := 22

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def k1_cond2 (i : grid1.Coords) : BitVec 1 :=
  let arg0 : BitVec 32 := BitVec.ofNat 32 (i 0).val
  let c24_i32 : BitVec 32 := 24#32
  let v44 : BitVec 1 := Scalar.cmpi .eq arg0 c24_i32
  let v45 : BitVec 32 := Scalar.extui v44
  let c0_i32_22 : BitVec 32 := 0#32
  let v46 : BitVec 1 := Scalar.cmpi .ne v45 c0_i32_22
  v46

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x1 .i32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S128x10 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x10 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64x10 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  packedbf16_S2000x128_S2000x128_0_0 : (Rect.unit (s := S2000x128) ![0, 0] S2000x128.size inb_S2000x128_S2000x128_0_0).PackedRows (EltTy.packing .bf16)
  shapeCasts_S50000_S50000x1 : S50000.ShapeCasts S50000x1
  shapeCasts_S10_S1x10 : S10.ShapeCasts S1x10
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x64_d1_w32 : S2000x64.Iotas .tc 32 [1]
  broadcasts_S2000x1_S2000x64 : S2000x1.Broadcasts S2000x64
  natLt_1_32 : 1 < 32
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S64x10 : S1x10.Broadcasts S64x10
  inb_S64x10_S64x10_0_0 : ∀ a, (![0, 0] : Fin 2 → Nat) a + S64x10.size a ≤ S64x10.size a
  h_S64x10 : 0 < S64x10.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x64_S2000x128_S64x128_0_0_1_1_n_n_wf : DotDims.WF S2000x64 S2000x128 S64x128 [0] [0] [1] [1] [] []
  dot_S64x128_S128x10_S64x10_1_0_0_1_n_n_wf : DotDims.WF S64x128 S128x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .bf16 = 32 ∨ (Rect.block (s := S50000x128) S2000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .bf16 = 32 ∨ (Rect.block (s := S50000x128) S2000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x1.size a ≤ S50000x1.size a
  hwx1_6 : ∀ i : grid1.Coords, EltTy.bits .i32 = 32 ∨ (Rect.block (s := S50000x1) S2000x1.size (cc1_transform_6 i) (hinb1_6 i)).WholeWords (EltTy.packing .i32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x10.size a ≤ S128x10.size a
  hwx1_7 : ∀ i : grid1.Coords, EltTy.bits .f32 = 32 ∨ (Rect.block (s := S128x10) S128x10.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x10.size a ≤ S1x10.size a
  hwx1_8 : ∀ i : grid1.Coords, EltTy.bits .f32 = 32 ∨ (Rect.block (s := S1x10) S1x10.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S64x10.size a ≤ S64x10.size a
  hwx1_9 : ∀ i : grid1.Coords, EltTy.bits .f32 = 32 ∨ (Rect.block (s := S64x10) S64x10.size (cc1_transform_9 i) (hinb1_9 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x64_S2000x128_S64x128_0_0_1_1_n_n : DotDims S2000x64 S2000x128 S64x128 where
  lhsContracting := [0]
  rhsContracting := [0]
  lhsNonContracting := [1]
  rhsNonContracting := [1]
  lhsBatch := []
  rhsBatch := []
  wf := dot_S2000x64_S2000x128_S64x128_0_0_1_1_n_n_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v28) S2000x1.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_arg11) S128x10.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v31) S1x10.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v32) S64x10.size cc1_transform_9 reads1_9 true true 1 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev idle1 : Fin 10 → grid1.Coords → Bool := fun | 0 => fun _ => false | 1 => fun _ => false | 2 => fun _ => false | 3 => fun _ => false | 4 => fun _ => false | 5 => fun _ => false | 6 => fun _ => false | 7 => fun _ => false | 8 => fun _ => false | 9 => fun i => !(k1_cond2 i == 1#1) | ⟨_ + 10, h⟩ => absurd h (Nat.not_lt.2 (Nat.le_add_left _ _))

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S64x128 : Shape := ⟨2, ![64, 128]⟩
abbrev S50000x1 : Shape := ⟨2, ![50000, 1]⟩
abbrev S64x10 : Shape := ⟨2, ![64, 10]⟩
abbrev S1x10 : Shape := ⟨2, ![1, 10]⟩

abbrev nBuf : Space → Nat
  | .hbm => 81
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x10, .f32⟩
  | .hbm, ⟨12, _⟩ => ⟨S10, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S50000x128, .f32⟩
  | .hbm, ⟨31, _⟩ => ⟨S50000x128, .f32⟩
  | .hbm, ⟨32, _⟩ => ⟨S1x128, .f32⟩
  | .hbm, ⟨33, _⟩ => ⟨S50000x128, .f32⟩
  | .hbm, ⟨34, _⟩ => ⟨S50000x128, .f32⟩
  | .hbm, ⟨35, _⟩ => ⟨S_, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S1x128, .f32⟩
  | .hbm, ⟨40, _⟩ => ⟨S50000x128, .f32⟩
  | .hbm, ⟨41, _⟩ => ⟨S50000x128, .f32⟩
  | .hbm, ⟨42, _⟩ => ⟨S_, .f32⟩
  | .hbm, ⟨43, _⟩ => ⟨S50000x128, .f32⟩
  | .hbm, ⟨44, _⟩ => ⟨S50000x128, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x128, .f32⟩
  | .hbm, ⟨54, _⟩ => ⟨S_, .f32⟩
  | .hbm, ⟨55, _⟩ => ⟨S50000x128, .f32⟩
  | .hbm, ⟨56, _⟩ => ⟨S800000x1, .i32⟩
  | .hbm, ⟨57, _⟩ => ⟨S50000x128, .f32⟩
  | .hbm, ⟨58, _⟩ => ⟨S50000x128, .f32⟩
  | .hbm, ⟨59, _⟩ => ⟨S50000x128, .f32⟩
  | .hbm, ⟨60, _⟩ => ⟨S1x128, .f32⟩
  | .hbm, ⟨61, _⟩ => ⟨S50000x128, .f32⟩
  | .hbm, ⟨62, _⟩ => ⟨S50000x128, .f32⟩
  | .hbm, ⟨63, _⟩ => ⟨S_, .f32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S1x128, .f32⟩
  | .hbm, ⟨68, _⟩ => ⟨S50000x128, .f32⟩
  | .hbm, ⟨69, _⟩ => ⟨S50000x128, .f32⟩
  | .hbm, ⟨70, _⟩ => ⟨S_, .f32⟩
  | .hbm, ⟨71, _⟩ => ⟨S50000x128, .f32⟩
  | .hbm, ⟨72, _⟩ => ⟨S50000x128, .f32⟩
  | .hbm, ⟨73, _⟩ => ⟨S_, .f32⟩
  | .hbm, ⟨74, _⟩ => ⟨S64x128, .f32⟩
  | .hbm, ⟨75, _⟩ => ⟨S50000x1, .i32⟩
  | .hbm, ⟨76, _⟩ => ⟨S64x128, .f32⟩
  | .hbm, ⟨77, _⟩ => ⟨S64x10, .f32⟩
  | .hbm, ⟨78, _⟩ => ⟨S1x10, .f32⟩
  | .hbm, ⟨79, _⟩ => ⟨S64x10, .f32⟩
  | .hbm, ⟨80, _⟩ => ⟨S64x10, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_1 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_v26 : Ref sig .tc := ⟨.hbm, 44, rfl⟩
abbrev main_c_3 : Ref sig .tc := ⟨.hbm, 45, rfl⟩
abbrev main_v27 : Ref sig .tc := ⟨.hbm, 46, rfl⟩
abbrev main_v28 : Ref sig .tc := ⟨.hbm, 47, rfl⟩
abbrev main_c_4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_6 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_7 : Ref sig .tc := ⟨.hbm, 70, rfl⟩
abbrev main_v48 : Ref sig .tc := ⟨.hbm, 71, rfl⟩
abbrev main_v49 : Ref sig .tc := ⟨.hbm, 72, rfl⟩
abbrev main_cst_8 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S50000_S50000x1_0 : S50000.BroadcastsInDim S50000x1 (![0] : Fin 1 → Fin S50000x1.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S64x128_S50000x1_S50000x128_1_0_0_1_wf : ScatterDims.WF S64x128 S50000x1 S50000x128 [1] [0] [0] 1
  dot_S64x128_S128x10_S64x10_1_0_0_1_n_n_wf : DotDims.WF S64x128 S128x10 S64x10 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

class Facts : Prop extends Facts₀ where

variable [Facts]
-- ==== Proof.K.R0.lean ====
import proofs.«400679_j13889924235785_2_alg».proof.Proof.Gen.Kernel.Launch
import proofs.«400679_j13889924235785_2_alg».proof.Proof.Gen.Kernel.Skeleton
import proofs.«400679_j13889924235785_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! Region 0 of the program: the two-layer perceptron kernel over 25 row blocks.

Everything here is stated at a parameter `V`, the contents of the core's buffers when the region is entered,
and at any float instance. Per grid point the six input windows hold their blocks of `V`'s arrays; the body
reads them whole and overwrites the output block with one payload. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 holds its block of `V`'s array at every point, whether the point fetched it or the block
    index stood still since the last fetch; for any proof data with `V`'s array there whose body keeps the block. -/
theorem before0_0_of {c : Dev nD} (dat : Dat τ (Elt F) Unit ℕ (UR sig nD τ) ℕ cfg0 c)
    (hA : dat.A 0 = V c (Pipeline.arrRef spec0 0)) (hafter : ∀ t, dat.after 0 t = iblk0 V c 0 t)
    (t : Fin cfg0.N) (d) : dat.before 0 t d = iblk0 V c 0 t := by
  have hkeep : ∀ t, (cfg0.win 0).cut (cfg0.grid.coords t) (dat.after 0 t) = dat.blockOf 0 t := fun t => by
    rw [hafter]; unfold Dat.blockOf iblk0; rw [hA]; try rfl
  refine (dat.before_in_eq_fetched 0 rfl (fun _ => rfl) (fun _ _ _ => rfl) hkeep t d).trans ?_
  unfold Dat.fetched Dat.blockOf iblk0; rw [hA]; try rfl

/-- Input window 1 holds its block of `V`'s array at every point, whether the point fetched it or the block
    index stood still since the last fetch; for any proof data with `V`'s array there whose body keeps the block. -/
theorem before0_1_of {c : Dev nD} (dat : Dat τ (Elt F) Unit ℕ (UR sig nD τ) ℕ cfg0 c)
    (hA : dat.A 1 = V c (Pipeline.arrRef spec0 1)) (hafter : ∀ t, dat.after 1 t = iblk0 V c 1 t)
    (t : Fin cfg0.N) (d) : dat.before 1 t d = iblk0 V c 1 t := by
  have hkeep : ∀ t, (cfg0.win 1).cut (cfg0.grid.coords t) (dat.after 1 t) = dat.blockOf 1 t := fun t => by
    rw [hafter]; unfold Dat.blockOf iblk0; rw [hA]; try rfl
  refine (dat.before_in_eq_fetched 1 rfl (fun _ => rfl) (fun _ _ _ => rfl) hkeep t d).trans ?_
  unfold Dat.fetched Dat.blockOf iblk0; rw [hA]; try rfl

/-- Input window 2 holds its block of `V`'s array at every point, whether the point fetched it or the block
    index stood still since the last fetch; for any proof data with `V`'s array there whose body keeps the block. -/
theorem before0_2_of {c : Dev nD} (dat : Dat τ (Elt F) Unit ℕ (UR sig nD τ) ℕ cfg0 c)
    (hA : dat.A 2 = V c (Pipeline.arrRef spec0 2)) (hafter : ∀ t, dat.after 2 t = iblk0 V c 2 t)
    (t : Fin cfg0.N) (d) : dat.before 2 t d = iblk0 V c 2 t := by
  have hkeep : ∀ t, (cfg0.win 2).cut (cfg0.grid.coords t) (dat.after 2 t) = dat.blockOf 2 t := fun t => by
    rw [hafter]; unfold Dat.blockOf iblk0; rw [hA]; try rfl
  refine (dat.before_in_eq_fetched 2 rfl (fun _ => rfl) (fun _ _ _ => rfl) hkeep t d).trans ?_
  unfold Dat.fetched Dat.blockOf iblk0; rw [hA]; try rfl

/-- Input window 3 holds its block of `V`'s array at every point, whether the point fetched it or the block
    index stood still since the last fetch; for any proof data with `V`'s array there whose body keeps the block. -/
theorem before0_3_of {c : Dev nD} (dat : Dat τ (Elt F) Unit ℕ (UR sig nD τ) ℕ cfg0 c)
    (hA : dat.A 3 = V c (Pipeline.arrRef spec0 3)) (hafter : ∀ t, dat.after 3 t = iblk0 V c 3 t)
    (t : Fin cfg0.N) (d) : dat.before 3 t d = iblk0 V c 3 t := by
  have hkeep : ∀ t, (cfg0.win 3).cut (cfg0.grid.coords t) (dat.after 3 t) = dat.blockOf 3 t := fun t => by
    rw [hafter]; unfold Dat.blockOf iblk0; rw [hA]; try rfl
  refine (dat.before_in_eq_fetched 3 rfl (fun _ => rfl) (fun _ _ _ => rfl) hkeep t d).trans ?_
  unfold Dat.fetched Dat.blockOf iblk0; rw [hA]; try rfl

/-- Input window 4 holds its block of `V`'s array at every point, whether the point fetched it or the block
    index stood still since the last fetch; for any proof data with `V`'s array there whose body keeps the block. -/
theorem before0_4_of {c : Dev nD} (dat : Dat τ (Elt F) Unit ℕ (UR sig nD τ) ℕ cfg0 c)
    (hA : dat.A 4 = V c (Pipeline.arrRef spec0 4)) (hafter : ∀ t, dat.after 4 t = iblk0 V c 4 t)
    (t : Fin cfg0.N) (d) : dat.before 4 t d = iblk0 V c 4 t := by
  have hkeep : ∀ t, (cfg0.win 4).cut (cfg0.grid.coords t) (dat.after 4 t) = dat.blockOf 4 t := fun t => by
    rw [hafter]; unfold Dat.blockOf iblk0; rw [hA]; try rfl
  refine (dat.before_in_eq_fetched 4 rfl (fun _ => rfl) (fun _ _ _ => rfl) hkeep t d).trans ?_
  unfold Dat.fetched Dat.blockOf iblk0; rw [hA]; try rfl

/-- Input window 5 holds its block of `V`'s array at every point, whether the point fetched it or the block
    index stood still since the last fetch; for any proof data with `V`'s array there whose body keeps the block. -/
theorem before0_5_of {c : Dev nD} (dat : Dat τ (Elt F) Unit ℕ (UR sig nD τ) ℕ cfg0 c)
    (hA : dat.A 5 = V c (Pipeline.arrRef spec0 5)) (hafter : ∀ t, dat.after 5 t = iblk0 V c 5 t)
    (t : Fin cfg0.N) (d) : dat.before 5 t d = iblk0 V c 5 t := by
  have hkeep : ∀ t, (cfg0.win 5).cut (cfg0.grid.coords t) (dat.after 5 t) = dat.blockOf 5 t := fun t => by
    rw [hafter]; unfold Dat.blockOf iblk0; rw [hA]; try rfl
  refine (dat.before_in_eq_fetched 5 rfl (fun _ => rfl) (fun _ _ _ => rfl) hkeep t d).trans ?_
  unfold Dat.fetched Dat.blockOf iblk0; rw [hA]; try rfl

/-! ## The body's accesses

Every load and the one store of the body go through the rectangle that is the whole of its block: offsets zero,
the block's own sizes, unit strides. One such rectangle per block shape. -/

/-- the whole of a 2000x128 input block (the node features, the aggregated messages) -/
abbrev r0_a : Rect S2000x128 := Rect.unit (s := S2000x128) ![0, 0] S2000x128.size inb_S2000x128_S2000x128_0_0
/-- the whole of a 128x128 weight matrix -/
abbrev r0_w : Rect S128x128 := Rect.unit (s := S128x128) ![0, 0] S128x128.size inb_S128x128_S128x128_0_0
/-- the whole of a 1x128 bias row -/
abbrev r0_b : Rect S1x128 := Rect.unit (s := S1x128) ![0, 0] S1x128.size inb_S1x128_S1x128_0_0
/-- the whole of the 2000x128 output block -/
abbrev r0_out : Rect S2000x128 := Rect.unit (s := S2000x128) ![0, 0] S2000x128.size inb_S2000x128_S2000x128_0_0

/-- The offsets of those rectangles are zero on both axes. -/
theorem zeros2 : (![0, 0] : Fin 2 → Nat) = fun _ => 0 := funext fun a => by fin_cases a <;> rfl

/-! ## What the body leaves in the output block -/

/-- what the body leaves in the output block: its one store, as the canon of one whole-block piece -/
def out0_6 (x0 x1 : Vec F S2000x128 .f32) (x2 : Vec F S128x128 .f32) (x3 : Vec F S1x128 .f32) (x4 : Vec F S128x128 .f32) (x5 : Vec F S1x128 .f32) : Vec F S2000x128 .bf16 :=
  View.canon [⟨r0_out, k0_pay1 (View.ld x0 r0_a) (View.ld x1 r0_a) (View.ld x2 r0_w) (View.ld x4 r0_w) (View.ld x3 r0_b) (View.ld x5 r0_b)⟩]

/-- The one piece is the whole block, so every index of the block lies under it. -/
theorem cover0_6 (p : Vec F S2000x128 .bf16) (y : S2000x128.Idx) :
    ∃ pc ∈ ([⟨r0_out, p⟩] : List (View.Piece (Elt F) S2000x128 .bf16)), y ∈ pc.1.set :=
  ⟨_, List.mem_singleton_self _, View.mem_set_unit_zero (S := S2000x128) zeros2 inb_S2000x128_S2000x128_0_0 y⟩

/-- the one piece covers the block, so the canon is the payload -/
theorem out0_6_eq (x0 x1 : Vec F S2000x128 .f32) (x2 : Vec F S128x128 .f32) (x3 : Vec F S1x128 .f32) (x4 : Vec F S128x128 .f32) (x5 : Vec F S1x128 .f32) :
    out0_6 x0 x1 x2 x3 x4 x5 = k0_pay1 (View.ld x0 r0_a) (View.ld x1 r0_a) (View.ld x2 r0_w) (View.ld x4 r0_w) (View.ld x3 r0_b) (View.ld x5 r0_b) := by
  unfold out0_6
  exact View.canon_unit_zero (S := S2000x128) zeros2 inb_S2000x128_S2000x128_0_0 _

/-- and a load through the whole of a block reads the block, so the payload is over the blocks themselves -/
theorem out0_6_eq' (x0 x1 : Vec F S2000x128 .f32) (x2 : Vec F S128x128 .f32) (x3 : Vec F S1x128 .f32) (x4 : Vec F S128x128 .f32) (x5 : Vec F S1x128 .f32) :
    out0_6 x0 x1 x2 x3 x4 x5 = k0_pay1 x0 x1 x2 x4 x3 x5 := by
  rw [out0_6_eq]
  rw [show View.ld x0 r0_a = x0 from View.ld_unit_zero (S := S2000x128) zeros2 inb_S2000x128_S2000x128_0_0 x0,
    show View.ld x1 r0_a = x1 from View.ld_unit_zero (S := S2000x128) zeros2 inb_S2000x128_S2000x128_0_0 x1,
    show View.ld x2 r0_w = x2 from View.ld_unit_zero (S := S128x128) zeros2 inb_S128x128_S128x128_0_0 x2,
    show View.ld x4 r0_w = x4 from View.ld_unit_zero (S := S128x128) zeros2 inb_S128x128_S128x128_0_0 x4,
    show View.ld x3 r0_b = x3 from View.ld_unit_zero (S := S1x128) zeros2 inb_S1x128_S1x128_0_0 x3,
    show View.ld x5 r0_b = x5 from View.ld_unit_zero (S := S1x128) zeros2 inb_S1x128_S1x128_0_0 x5]

/-! ## The body's triple -/

set_option maxHeartbeats 1000000 in
/-- The body on whole staging memrefs — the six inputs' holding `x0 … x5`, the output's holding anything — runs to
    its continuation with the inputs' as they were and the output's holding `out0_6` of them: six whole-block
    loads, one more of the output block whose value is dropped, one whole-block store. -/
theorem sound_kernel0 (c : Dev nD) (E : Set ℕ) (i : grid0.Coords)
    (arg1 : Memref sig .tc .vmem S2000x128 .f32) (harg1 : arg1.IsWhole)
    (arg2 : Memref sig .tc .vmem S2000x128 .f32) (harg2 : arg2.IsWhole)
    (arg3 : Memref sig .tc .vmem S128x128 .f32) (harg3 : arg3.IsWhole)
    (arg4 : Memref sig .tc .vmem S1x128 .f32) (harg4 : arg4.IsWhole)
    (arg5 : Memref sig .tc .vmem S128x128 .f32) (harg5 : arg5.IsWhole)
    (arg6 : Memref sig .tc .vmem S1x128 .f32) (harg6 : arg6.IsWhole)
    (arg7 : Memref sig .tc .vmem S2000x128 .bf16) (harg7 : arg7.IsWhole)
    (x0 x1 : Vec F S2000x128 .f32) (x2 : Vec F S128x128 .f32) (x3 : Vec F S1x128 .f32) (x4 : Vec F S128x128 .f32) (x5 : Vec F S1x128 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ (∃ d, owns (c : Thread nD τ) arg7 fullShare d)
        ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E (cc0__mlp_kernel i arg1 harg1 arg2 harg2 arg3 harg3 arg4 harg4 arg5 harg5 arg6 harg6 arg7 harg7) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  iexists _; isplitr
  swap
  · iexact H6
  ipureintro
  exact View.read_writes_eq_canon _ _ _ (cover0_6 _)

/-! ## The pipeline's proof data -/

/-- The proof data of the pipeline on core `c`: the arrays as the region finds them; after the body at point
    `t` every input's buffer still at its block and the output's at `out0_6` of the six blocks; the invariant that
    the core's other scoped buffers and its generator register are left alone; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) :
    (dat0 V c).after 6 t = out0_6 (iblk0 V c 0 t) (iblk0 V c 1 t) (iblk0 V c 2 t) (iblk0 V c 3 t) (iblk0 V c 4 t) (iblk0 V c 5 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`: the invariant, what the core owes, and the seven windows'
    current staging buffers one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the six inputs' memrefs hold their blocks, so the body's triple applies at those
    blocks; the invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1Runs.lean ====
import proofs.«400679_j13889924235785_2_alg».proof.Proof.Gen.Kernel.Launch
import proofs.«400679_j13889924235785_2_alg».proof.Proof.Gen.Kernel.Skeleton
import proofs.«400679_j13889924235785_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered: the parameter the region's half is stated at
variable (V : (c : Dev nD) → (b : Ref sig .tc) → Buf (Elt F) ((c : Thread nD τ).loc b))

/-! # The second region of @main: the pooling kernel (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: an input
    whose body leaves the block in place holds what a fetch would put there (unfetched, the block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: an input
    whose body leaves the block in place holds what a fetch would put there (unfetched, the block index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: an input
    whose body leaves the block in place holds what a fetch would put there (unfetched, the block index has not moved). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: an input
    whose body leaves the block in place holds what a fetch would put there (unfetched, the block index has not moved). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not: an input
    whose body leaves the block in place holds what a fetch would put there (unfetched, the block index has not moved). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not: an input
    whose body leaves the block in place holds what a fetch would put there (unfetched, the block index has not moved). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not: an input
    whose body leaves the block in place holds what a fetch would put there (unfetched, the block index has not moved). -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not: an input
    whose body leaves the block in place holds what a fetch would put there (unfetched, the block index has not moved). -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, fetched there or not: an input
    whose body leaves the block in place holds what a fetch would put there (unfetched, the block index has not moved). -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first conditional (is this the first grid point?), from the grid coordinates. -/
abbrev cond1_0 (i : grid1.Coords) : Prop := (Scalar.cmpi .ne (Scalar.extui (Scalar.cmpi .eq (BitVec.ofNat 32 (i 0).val) 0#32)) 0#32) = 1#1
/-- It holds at the first point only: decided over the grid. -/
theorem hcond1_0 : ∀ t : Fin cfg1.N, cond1_0 (grid1.coords t) ↔ t.val % 25 = 0 :=
  (by decide +kernel : ∀ t : Fin grid1.N, cond1_0 (grid1.coords t) ↔ t.val % 25 = 0)

/-- The condition of the body's second conditional (is this the last grid point?), from the grid coordinates. -/
abbrev cond1_1 (i : grid1.Coords) : Prop := k1_cond2 i = 1#1
/-- It holds at the last point only: decided over the grid. -/
theorem hcond1_1 : ∀ t : Fin cfg1.N, cond1_1 (grid1.coords t) ↔ t.val % 25 = 24 :=
  (by decide +kernel : ∀ t : Fin grid1.N, cond1_1 (grid1.coords t) ↔ t.val % 25 = 24)

/-! ## Where the windows are idle -/

/-- Window 0 is never idle (an input). -/
theorem liveAt1_0 : ∀ t : Fin cfg1.N, cfg1.idle 0 (grid1.coords t) = false := by decide +kernel
/-- Window 1 is never idle (an input). -/
theorem liveAt1_1 : ∀ t : Fin cfg1.N, cfg1.idle 1 (grid1.coords t) = false := by decide +kernel
/-- Window 2 is never idle (an input). -/
theorem liveAt1_2 : ∀ t : Fin cfg1.N, cfg1.idle 2 (grid1.coords t) = false := by decide +kernel
/-- Window 3 is never idle (an input). -/
theorem liveAt1_3 : ∀ t : Fin cfg1.N, cfg1.idle 3 (grid1.coords t) = false := by decide +kernel
/-- Window 4 is never idle (an input). -/
theorem liveAt1_4 : ∀ t : Fin cfg1.N, cfg1.idle 4 (grid1.coords t) = false := by decide +kernel
/-- Window 5 is never idle (an input). -/
theorem liveAt1_5 : ∀ t : Fin cfg1.N, cfg1.idle 5 (grid1.coords t) = false := by decide +kernel
/-- Window 6 is never idle (an input). -/
theorem liveAt1_6 : ∀ t : Fin cfg1.N, cfg1.idle 6 (grid1.coords t) = false := by decide +kernel
/-- Window 7 is never idle (an input). -/
theorem liveAt1_7 : ∀ t : Fin cfg1.N, cfg1.idle 7 (grid1.coords t) = false := by decide +kernel
/-- Window 8 is never idle (an input). -/
theorem liveAt1_8 : ∀ t : Fin cfg1.N, cfg1.idle 8 (grid1.coords t) = false := by decide +kernel
/-- At the first point the output window is idle: the body stores nothing into it. -/
theorem idleAt1_9_A : ∀ t : Fin cfg1.N, cond1_0 (grid1.coords t) → ¬cond1_1 (grid1.coords t) → cfg1.idle 9 (grid1.coords t) = true := by decide +kernel
/-- At the first point the pipeline does not write the output's block back. -/
theorem noFlush1_9_A : ∀ t : Fin cfg1.N, cond1_0 (grid1.coords t) → ¬cond1_1 (grid1.coords t) → (cfg1.win 9).flush t = false := by decide +kernel
/-- At the middle points the output window is idle: the body stores nothing into it. -/
theorem idleAt1_9_B : ∀ t : Fin cfg1.N, ¬cond1_0 (grid1.coords t) → ¬cond1_1 (grid1.coords t) → cfg1.idle 9 (grid1.coords t) = true := by decide +kernel
/-- At the middle points the pipeline does not write the output's block back. -/
theorem noFlush1_9_B : ∀ t : Fin cfg1.N, ¬cond1_0 (grid1.coords t) → ¬cond1_1 (grid1.coords t) → (cfg1.win 9).flush t = false := by decide +kernel
/-- At the last point the output window is live: the body stores into it. -/
theorem liveAt1_9_C : ∀ t : Fin cfg1.N, ¬cond1_0 (grid1.coords t) → cond1_1 (grid1.coords t) → cfg1.idle 9 (grid1.coords t) = false := by decide +kernel

/-! ## The staging memrefs and the scratch -/

/-- One staging buffer of the output window, through which its contents are stated (the choice does not matter). -/
abbrev VO1_9 : View sig .tc .vmem S64x10 .f32 := (Memref.whole cc1_stg9_0 : Memref sig .tc .vmem S64x10 .f32).view
abbrev ms1_0 (t : Fin cfg1.N) : Memref sig .tc .vmem S2000x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2000x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S2000x1 .i32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S128x10 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x10 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S64x10 .f32 := win1_9.stage (cfg1.slots t 9)
abbrev hs1_9 (t : Fin cfg1.N) : (ms1_9 t).IsWhole := hstage1_9 ((cfg1.slots t 9).cast nbuf1_9)
/-- The scratch operand: a whole scoped buffer of the kernel's own, passed beside the windows. -/
abbrev scM1_0 : Memref sig .tc .vmem S64x128 .f32 := Memref.whole cc1_scratch0
/-- The scratch the kernel carries between points, as a view: what it holds is stated through it. -/
abbrev VS1_0 : View sig .tc .vmem S64x128 .f32 := scM1_0.view

/-- The region's invariant with the scratch operand as a memref owned at some contents: the other region's staging
    buffers at anything, the scratch, the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ d, owns (c : Thread nD τ) scM1_0 fullShare d)) ∗ (∃ r, prngReg c r)) := by
  unfold Pipeline.ΦA; rw [scopedRest1_eq]; simp only [scM1_0, owns_whole]; try rfl

end Region1

end Cert.Kernel.Hand

end
-- ==== Proof.K.R1RunA.lean ====
import proofs.«400679_j13889924235785_2_alg».proof.Proof.K.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the FIRST grid point (the first conditional taken, the second not), on whole staging memrefs: the inputs' at
    their contents `x·`, the output's (idle here: nothing is stored into it) at contents `xi9` handed back untouched, the
    scratch at anything. The body runs to the continuation holding the inputs' as they were, the output's untouched, and the
    scratch with its stores written as pieces (last first): the zero fill, then the accumulated sum. The pieces are the body's stores, last first. -/
noncomputable def kernelRun1_A (c : Dev nD) (i : grid1.Coords) (arg1 : Memref sig .tc .vmem S2000x128 .bf16) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x1 .i32) (harg7 : arg7.IsWhole) (arg8 : Memref sig .tc .vmem S128x10 .f32) (harg8 : arg8.IsWhole) (arg9 : Memref sig .tc .vmem S1x10 .f32) (harg9 : arg9.IsWhole) (arg10 : Memref sig .tc .vmem S64x10 .f32) (harg10 : arg10.IsWhole) (arg11 : Memref sig .tc .vmem S64x128 .f32) (harg11 : arg11.IsWhole) (hc0 : cond1_0 i) (hc1 : ¬cond1_1 i)
    (x0 : Vec F S2000x128 .bf16) (x1 : Vec F S2000x128 .f32) (x2 : Vec F S128x128 .f32) (x3 : Vec F S1x128 .f32) (x4 : Vec F S128x128 .f32) (x5 : Vec F S1x128 .f32) (x6 : Vec F S2000x1 .i32) (x7 : Vec F S128x10 .f32) (x8 : Vec F S1x10 .f32) :
    Σ' (L9 : List (View.Piece (Elt F) S64x10 .f32)), { LS0 : List (View.Piece (Elt F) S64x128 .f32) //
      ∀ (xi9 : Vec F S64x10 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ (∃ f, arg11.view.loc (c : Thread nD τ) ↦[arg11.view.set]{fullShare} arg11.view.writes (Elt F) f LS0)) -∗ K ⟨⟩))
          ⊢ wp frame (wpE (defs₀ (F := F)) Variants.none c none) E (cc1__conv2_pool_kernel i arg1 harg1 arg2 harg2 arg3 harg3 arg4 harg4 arg5 harg5 arg6 harg6 arg7 harg7 arg8 harg8 arg9 harg9 arg10 harg10 arg11 harg11) K } := by
  refine ⟨[], ?_, fun xi9 E K => ?run⟩
  case run =>
    simp only [cc1__conv2_pool_kernel_eq_skeleton]; unfold cc1__conv2_pool_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    iexists _; iexact HS0

end Cert.Kernel.Hand

end
-- ==== Proof.K.R1RunB.lean ====
import proofs.«400679_j13889924235785_2_alg».proof.Proof.K.R1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a MIDDLE grid point (neither conditional taken), on whole staging memrefs: the inputs' at their contents
    `x·`, the output's (idle here) at contents `xi9` handed back untouched, the scratch at what the point before left
    (`xs0`). The body runs to the continuation holding the inputs' as they were, the output's untouched, and the scratch
    with its one store (the accumulated sum) written as a piece. The pieces are the body's stores, last first. -/
noncomputable def kernelRun1_B (c : Dev nD) (i : grid1.Coords) (arg1 : Memref sig .tc .vmem S2000x128 .bf16) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x1 .i32) (harg7 : arg7.IsWhole) (arg8 : Memref sig .tc .vmem S128x10 .f32) (harg8 : arg8.IsWhole) (arg9 : Memref sig .tc .vmem S1x10 .f32) (harg9 : arg9.IsWhole) (arg10 : Memref sig .tc .vmem S64x10 .f32) (harg10 : arg10.IsWhole) (arg11 : Memref sig .tc .vmem S64x128 .f32) (harg11 : arg11.IsWhole) (hc0 : ¬cond1_0 i) (hc1 : ¬cond1_1 i)
    (x0 : Vec F S2000x128 .bf16) (x1 : Vec F S2000x128 .f32) (x2 : Vec F S128x128 .f32) (x3 : Vec F S1x128 .f32) (x4 : Vec F S128x128 .f32) (x5 : Vec F S1x128 .f32) (x6 : Vec F S2000x1 .i32) (x7 : Vec F S128x10 .f32) (x8 : Vec F S1x10 .f32) (xs0 : Vec F S64x128 .f32) :
    Σ' (L9 : List (View.Piece (Elt F) S64x10 .f32)), { LS0 : List (View.Piece (Elt F) S64x128 .f32) //
      ∀ (xi9 : Vec F S64x10 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ owns (c : Thread nD τ) arg11 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ (∃ f, arg11.view.loc (c : Thread nD τ) ↦[arg11.view.set]{fullShare} arg11.view.writes (Elt F) f LS0)) -∗ K ⟨⟩))
          ⊢ wp frame (wpE (defs₀ (F := F)) Variants.none c none) E (cc1__conv2_pool_kernel i arg1 harg1 arg2 harg2 arg3 harg3 arg4 harg4 arg5 harg5 arg6 harg6 arg7 harg7 arg8 harg8 arg9 harg9 arg10 harg10 arg11 harg11) K } := by
  refine ⟨[], ?_, fun xi9 E K => ?run⟩
  case run =>
    simp only [cc1__conv2_pool_kernel_eq_skeleton]; unfold cc1__conv2_pool_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    iexists _; iexact HS0

end Cert.Kernel.Hand

end
-- ==== Proof.K.R1RunC.lean ====
import proofs.«400679_j13889924235785_2_alg».proof.Proof.K.R1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the LAST grid point (the second conditional taken, the first not), on whole staging memrefs: the inputs'
    at their contents `x·`, the output's at anything, the scratch at what the point before left (`xs0`). The body runs to
    the continuation holding the inputs' as they were, the output's with its store (the classifier applied to the scratch)
    written as a piece, and the scratch with its store (the accumulated sum) written as a piece. The pieces are the body's stores, last first. -/
noncomputable def kernelRun1_C (c : Dev nD) (i : grid1.Coords) (arg1 : Memref sig .tc .vmem S2000x128 .bf16) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x1 .i32) (harg7 : arg7.IsWhole) (arg8 : Memref sig .tc .vmem S128x10 .f32) (harg8 : arg8.IsWhole) (arg9 : Memref sig .tc .vmem S1x10 .f32) (harg9 : arg9.IsWhole) (arg10 : Memref sig .tc .vmem S64x10 .f32) (harg10 : arg10.IsWhole) (arg11 : Memref sig .tc .vmem S64x128 .f32) (harg11 : arg11.IsWhole) (hc0 : ¬cond1_0 i) (hc1 : cond1_1 i)
    (x0 : Vec F S2000x128 .bf16) (x1 : Vec F S2000x128 .f32) (x2 : Vec F S128x128 .f32) (x3 : Vec F S1x128 .f32) (x4 : Vec F S128x128 .f32) (x5 : Vec F S1x128 .f32) (x6 : Vec F S2000x1 .i32) (x7 : Vec F S128x10 .f32) (x8 : Vec F S1x10 .f32) (xs0 : Vec F S64x128 .f32) :
    Σ' (L9 : List (View.Piece (Elt F) S64x10 .f32)), { LS0 : List (View.Piece (Elt F) S64x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f LS0)) -∗ K ⟨⟩))
          ⊢ wp frame (wpE (defs₀ (F := F)) Variants.none c none) E (cc1__conv2_pool_kernel i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc1__conv2_pool_kernel_eq_skeleton]; unfold cc1__conv2_pool_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    iexists _; iexact HS0

end Cert.Kernel.Hand

end
-- ==== Proof.K.R1.lean ====
import proofs.«400679_j13889924235785_2_alg».proof.Proof.K.R1RunC
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-! ## What each case leaves in the output window and in the scratch -/

/-- At the first point the body stores nothing into the output window (it is idle there and not written back):
    a placeholder (junk read back) that nothing consults. -/
def out1_A_9 (c : Dev nD) (i : grid1.Coords) (arg1 : Memref sig .tc .vmem S2000x128 .bf16) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x1 .i32) (harg7 : arg7.IsWhole) (arg8 : Memref sig .tc .vmem S128x10 .f32) (harg8 : arg8.IsWhole) (arg9 : Memref sig .tc .vmem S1x10 .f32) (harg9 : arg9.IsWhole) (arg10 : Memref sig .tc .vmem S64x10 .f32) (harg10 : arg10.IsWhole) (arg11 : Memref sig .tc .vmem S64x128 .f32) (harg11 : arg11.IsWhole) (hc0 : cond1_0 i) (hc1 : ¬cond1_1 i)
    (x0 : Vec F S2000x128 .bf16) (x1 : Vec F S2000x128 .f32) (x2 : Vec F S128x128 .f32) (x3 : Vec F S1x128 .f32) (x4 : Vec F S128x128 .f32) (x5 : Vec F S1x128 .f32) (x6 : Vec F S2000x1 .i32) (x7 : Vec F S128x10 .f32) (x8 : Vec F S1x10 .f32) : Vec F S64x10 .f32 :=
  VO1_9.read (Elt F) (VO1_9.writes (Elt F) VO1_9.junk (kernelRun1_A c i arg1 harg1 arg2 harg2 arg3 harg3 arg4 harg4 arg5 harg5 arg6 harg6 arg7 harg7 arg8 harg8 arg9 harg9 arg10 harg10 arg11 harg11 hc0 hc1 x0 x1 x2 x3 x4 x5 x6 x7 x8).1)

/-- The stores of the first point into the scratch the kernel carries between points cover it. -/
theorem scover1_A_0 (c : Dev nD) (i : grid1.Coords) (arg1 : Memref sig .tc .vmem S2000x128 .bf16) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x1 .i32) (harg7 : arg7.IsWhole) (arg8 : Memref sig .tc .vmem S128x10 .f32) (harg8 : arg8.IsWhole) (arg9 : Memref sig .tc .vmem S1x10 .f32) (harg9 : arg9.IsWhole) (arg10 : Memref sig .tc .vmem S64x10 .f32) (harg10 : arg10.IsWhole) (arg11 : Memref sig .tc .vmem S64x128 .f32) (harg11 : arg11.IsWhole) (hc0 : cond1_0 i) (hc1 : ¬cond1_1 i)
    (x0 : Vec F S2000x128 .bf16) (x1 : Vec F S2000x128 .f32) (x2 : Vec F S128x128 .f32) (x3 : Vec F S1x128 .f32) (x4 : Vec F S128x128 .f32) (x5 : Vec F S1x128 .f32) (x6 : Vec F S2000x1 .i32) (x7 : Vec F S128x10 .f32) (x8 : Vec F S1x10 .f32) (y : S64x128.Idx) :
    ∃ pc ∈ (kernelRun1_A c i arg1 harg1 arg2 harg2 arg3 harg3 arg4 harg4 arg5 harg5 arg6 harg6 arg7 harg7 arg8 harg8 arg9 harg9 arg10 harg10 arg11 harg11 hc0 hc1 x0 x1 x2 x3 x4 x5 x6 x7 x8).2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 hc0 hc1 x0 x1 x2 x3 x4 x5 x6 x7 x8).2.1 S64x128.size (by sl_kernel_rfl) y

/-- What the first point leaves in the carried scratch: its pieces read back over junk. -/
def sout1_A_0 (c : Dev nD) (i : grid1.Coords) (arg1 : Memref sig .tc .vmem S2000x128 .bf16) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x1 .i32) (harg7 : arg7.IsWhole) (arg8 : Memref sig .tc .vmem S128x10 .f32) (harg8 : arg8.IsWhole) (arg9 : Memref sig .tc .vmem S1x10 .f32) (harg9 : arg9.IsWhole) (arg10 : Memref sig .tc .vmem S64x10 .f32) (harg10 : arg10.IsWhole) (arg11 : Memref sig .tc .vmem S64x128 .f32) (harg11 : arg11.IsWhole) (hc0 : cond1_0 i) (hc1 : ¬cond1_1 i)
    (x0 : Vec F S2000x128 .bf16) (x1 : Vec F S2000x128 .f32) (x2 : Vec F S128x128 .f32) (x3 : Vec F S1x128 .f32) (x4 : Vec F S128x128 .f32) (x5 : Vec F S1x128 .f32) (x6 : Vec F S2000x1 .i32) (x7 : Vec F S128x10 .f32) (x8 : Vec F S1x10 .f32) : Vec F S64x128 .f32 :=
  VS1_0.read (Elt F) (VS1_0.writes (Elt F) VS1_0.junk (kernelRun1_A c i arg1 harg1 arg2 harg2 arg3 harg3 arg4 harg4 arg5 harg5 arg6 harg6 arg7 harg7 arg8 harg8 arg9 harg9 arg10 harg10 arg11 harg11 hc0 hc1 x0 x1 x2 x3 x4 x5 x6 x7 x8).2.1)

/-- At a middle point the body stores nothing into the output window (it is idle there and not written back):
    a placeholder (junk read back) that nothing consults. -/
def out1_B_9 (c : Dev nD) (i : grid1.Coords) (arg1 : Memref sig .tc .vmem S2000x128 .bf16) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x1 .i32) (harg7 : arg7.IsWhole) (arg8 : Memref sig .tc .vmem S128x10 .f32) (harg8 : arg8.IsWhole) (arg9 : Memref sig .tc .vmem S1x10 .f32) (harg9 : arg9.IsWhole) (arg10 : Memref sig .tc .vmem S64x10 .f32) (harg10 : arg10.IsWhole) (arg11 : Memref sig .tc .vmem S64x128 .f32) (harg11 : arg11.IsWhole) (hc0 : ¬cond1_0 i) (hc1 : ¬cond1_1 i)
    (x0 : Vec F S2000x128 .bf16) (x1 : Vec F S2000x128 .f32) (x2 : Vec F S128x128 .f32) (x3 : Vec F S1x128 .f32) (x4 : Vec F S128x128 .f32) (x5 : Vec F S1x128 .f32) (x6 : Vec F S2000x1 .i32) (x7 : Vec F S128x10 .f32) (x8 : Vec F S1x10 .f32) (xs0 : Vec F S64x128 .f32) : Vec F S64x10 .f32 :=
  VO1_9.read (Elt F) (VO1_9.writes (Elt F) VO1_9.junk (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0).1)

/-- The stores of a middle point into the scratch the kernel carries between points cover it. -/
theorem scover1_B_0 (c : Dev nD) (i : grid1.Coords) (arg1 : Memref sig .tc .vmem S2000x128 .bf16) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x1 .i32) (harg7 : arg7.IsWhole) (arg8 : Memref sig .tc .vmem S128x10 .f32) (harg8 : arg8.IsWhole) (arg9 : Memref sig .tc .vmem S1x10 .f32) (harg9 : arg9.IsWhole) (arg10 : Memref sig .tc .vmem S64x10 .f32) (harg10 : arg10.IsWhole) (arg11 : Memref sig .tc .vmem S64x128 .f32) (harg11 : arg11.IsWhole) (hc0 : ¬cond1_0 i) (hc1 : ¬cond1_1 i)
    (x0 : Vec F S2000x128 .bf16) (x1 : Vec F S2000x128 .f32) (x2 : Vec F S128x128 .f32) (x3 : Vec F S1x128 .f32) (x4 : Vec F S128x128 .f32) (x5 : Vec F S1x128 .f32) (x6 : Vec F S2000x1 .i32) (x7 : Vec F S128x10 .f32) (x8 : Vec F S1x10 .f32) (xs0 : Vec F S64x128 .f32) (y : S64x128.Idx) :
    ∃ pc ∈ (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0).2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0).2.1 S64x128.size (by sl_kernel_rfl) y

/-- What a middle point leaves in the carried scratch: its pieces read back over junk. -/
def sout1_B_0 (c : Dev nD) (i : grid1.Coords) (arg1 : Memref sig .tc .vmem S2000x128 .bf16) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x1 .i32) (harg7 : arg7.IsWhole) (arg8 : Memref sig .tc .vmem S128x10 .f32) (harg8 : arg8.IsWhole) (arg9 : Memref sig .tc .vmem S1x10 .f32) (harg9 : arg9.IsWhole) (arg10 : Memref sig .tc .vmem S64x10 .f32) (harg10 : arg10.IsWhole) (arg11 : Memref sig .tc .vmem S64x128 .f32) (harg11 : arg11.IsWhole) (hc0 : ¬cond1_0 i) (hc1 : ¬cond1_1 i)
    (x0 : Vec F S2000x128 .bf16) (x1 : Vec F S2000x128 .f32) (x2 : Vec F S128x128 .f32) (x3 : Vec F S1x128 .f32) (x4 : Vec F S128x128 .f32) (x5 : Vec F S1x128 .f32) (x6 : Vec F S2000x1 .i32) (x7 : Vec F S128x10 .f32) (x8 : Vec F S1x10 .f32) (xs0 : Vec F S64x128 .f32) : Vec F S64x128 .f32 :=
  VS1_0.read (Elt F) (VS1_0.writes (Elt F) VS1_0.junk (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0).2.1)

/-- At the last point the body's one store into the output window covers its block. -/
theorem cover1_C_9 (c : Dev nD) (i : grid1.Coords) (arg1 : Memref sig .tc .vmem S2000x128 .bf16) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x1 .i32) (harg7 : arg7.IsWhole) (arg8 : Memref sig .tc .vmem S128x10 .f32) (harg8 : arg8.IsWhole) (arg9 : Memref sig .tc .vmem S1x10 .f32) (harg9 : arg9.IsWhole) (arg10 : Memref sig .tc .vmem S64x10 .f32) (harg10 : arg10.IsWhole) (arg11 : Memref sig .tc .vmem S64x128 .f32) (harg11 : arg11.IsWhole) (hc0 : ¬cond1_0 i) (hc1 : cond1_1 i)
    (x0 : Vec F S2000x128 .bf16) (x1 : Vec F S2000x128 .f32) (x2 : Vec F S128x128 .f32) (x3 : Vec F S1x128 .f32) (x4 : Vec F S128x128 .f32) (x5 : Vec F S1x128 .f32) (x6 : Vec F S2000x1 .i32) (x7 : Vec F S128x10 .f32) (x8 : Vec F S1x10 .f32) (xs0 : Vec F S64x128 .f32) (y : S64x10.Idx) :
    ∃ pc ∈ (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0).1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0).1 S64x10.size (by sl_kernel_rfl) y

/-- What the last point leaves in the output window's staging buffer: its pieces read back over junk. -/
def out1_C_9 (c : Dev nD) (i : grid1.Coords) (arg1 : Memref sig .tc .vmem S2000x128 .bf16) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x1 .i32) (harg7 : arg7.IsWhole) (arg8 : Memref sig .tc .vmem S128x10 .f32) (harg8 : arg8.IsWhole) (arg9 : Memref sig .tc .vmem S1x10 .f32) (harg9 : arg9.IsWhole) (arg10 : Memref sig .tc .vmem S64x10 .f32) (harg10 : arg10.IsWhole) (arg11 : Memref sig .tc .vmem S64x128 .f32) (harg11 : arg11.IsWhole) (hc0 : ¬cond1_0 i) (hc1 : cond1_1 i)
    (x0 : Vec F S2000x128 .bf16) (x1 : Vec F S2000x128 .f32) (x2 : Vec F S128x128 .f32) (x3 : Vec F S1x128 .f32) (x4 : Vec F S128x128 .f32) (x5 : Vec F S1x128 .f32) (x6 : Vec F S2000x1 .i32) (x7 : Vec F S128x10 .f32) (x8 : Vec F S1x10 .f32) (xs0 : Vec F S64x128 .f32) : Vec F S64x10 .f32 :=
  VO1_9.read (Elt F) (VO1_9.writes (Elt F) VO1_9.junk (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0).1)

/-- The stores of the last point into the scratch the kernel carries between points cover it. -/
theorem scover1_C_0 (c : Dev nD) (i : grid1.Coords) (arg1 : Memref sig .tc .vmem S2000x128 .bf16) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x1 .i32) (harg7 : arg7.IsWhole) (arg8 : Memref sig .tc .vmem S128x10 .f32) (harg8 : arg8.IsWhole) (arg9 : Memref sig .tc .vmem S1x10 .f32) (harg9 : arg9.IsWhole) (arg10 : Memref sig .tc .vmem S64x10 .f32) (harg10 : arg10.IsWhole) (arg11 : Memref sig .tc .vmem S64x128 .f32) (harg11 : arg11.IsWhole) (hc0 : ¬cond1_0 i) (hc1 : cond1_1 i)
    (x0 : Vec F S2000x128 .bf16) (x1 : Vec F S2000x128 .f32) (x2 : Vec F S128x128 .f32) (x3 : Vec F S1x128 .f32) (x4 : Vec F S128x128 .f32) (x5 : Vec F S1x128 .f32) (x6 : Vec F S2000x1 .i32) (x7 : Vec F S128x10 .f32) (x8 : Vec F S1x10 .f32) (xs0 : Vec F S64x128 .f32) (y : S64x128.Idx) :
    ∃ pc ∈ (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0).2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0).2.1 S64x128.size (by sl_kernel_rfl) y

/-- What the last point leaves in the carried scratch: its pieces read back over junk. -/
def sout1_C_0 (c : Dev nD) (i : grid1.Coords) (arg1 : Memref sig .tc .vmem S2000x128 .bf16) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x1 .i32) (harg7 : arg7.IsWhole) (arg8 : Memref sig .tc .vmem S128x10 .f32) (harg8 : arg8.IsWhole) (arg9 : Memref sig .tc .vmem S1x10 .f32) (harg9 : arg9.IsWhole) (arg10 : Memref sig .tc .vmem S64x10 .f32) (harg10 : arg10.IsWhole) (arg11 : Memref sig .tc .vmem S64x128 .f32) (harg11 : arg11.IsWhole) (hc0 : ¬cond1_0 i) (hc1 : cond1_1 i)
    (x0 : Vec F S2000x128 .bf16) (x1 : Vec F S2000x128 .f32) (x2 : Vec F S128x128 .f32) (x3 : Vec F S1x128 .f32) (x4 : Vec F S128x128 .f32) (x5 : Vec F S1x128 .f32) (x6 : Vec F S2000x1 .i32) (x7 : Vec F S128x10 .f32) (x8 : Vec F S1x10 .f32) (xs0 : Vec F S64x128 .f32) : Vec F S64x128 .f32 :=
  VS1_0.read (Elt F) (VS1_0.writes (Elt F) VS1_0.junk (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0).2.1)

/-! ## What the output window and the scratch hold after each point -/

/-- THE ACCUMULATION. What the output window's staging buffer and the carried scratch hold after the body at position `n`
    (a pair: the output, then the scratch): the case the closed forms select at `n`, run at the point's memrefs and input
    blocks, the scratch read at what the position before left. -/
def outsAt1 (c : Dev nD) : (n : ℕ) → n < cfg1.N → Vec F S64x10 .f32 × Vec F S64x128 .f32
  | 0, hn => (out1_A_9 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩))
  | n + 1, hn =>
    if h0 : (n + 1) % 25 = 0 then
      if h1 : (n + 1) % 25 = 24 then
        False.elim (by omega)
      else
        (out1_A_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩))
    else
      if h1 : (n + 1) % 25 = 24 then
        (out1_C_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2)
      else
        (out1_B_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2)

/-- `outsAt1` at the first point: that case's contents. -/
theorem outsAt1_A (c : Dev nD) (t : Fin cfg1.N) (h0 : t.val % 25 = 0) (h1 : ¬t.val % 25 = 24) :
    outsAt1 V c t.val t.isLt = (out1_A_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t)) := by
  obtain ⟨n, hn⟩ := t
  cases n with
  | zero => exact rfl
  | succ n => exact (dif_pos h0).trans ((dif_neg h1).trans rfl)

/-- `outsAt1` at a middle point: that case's contents, over what the point before left. -/
theorem outsAt1_B (c : Dev nD) (t : Fin cfg1.N) (h0 : ¬t.val % 25 = 0) (h1 : ¬t.val % 25 = 24) :
    outsAt1 V c t.val t.isLt = (out1_B_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at the last point: that case's contents, over what the point before left. -/
theorem outsAt1_C (c : Dev nD) (t : Fin cfg1.N) (h0 : ¬t.val % 25 = 0) (h1 : t.val % 25 = 24) :
    outsAt1 V c t.val t.isLt = (out1_C_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer that is no
    staging buffer of this region at anything, the generator register at some state); afterwards the same with the carried
    scratch at what the point before left in it. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the carried scratch at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1_0 fullShare ((outsAt1 V c n hn).2)) ∗ (∃ r, prngReg c r)) := rfl

/-- Before a point that is not the first: the carried scratch at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of the pipeline on core `c`: the arrays as the region finds them (`V`); after the body at point `t`
    each input's buffer at its block and the output's at `outsAt1`'s first component; the invariant `PhiS1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t)

set_option maxHeartbeats 8000000 in
/-- The body at any point: the inputs' memrefs hold their blocks; the closed forms say which case the point is in; so that
    case's run applies; the invariant hands the body the carried scratch at what the point before left (at anything at the
    first point) together with the other scoped buffers and the generator register, and takes the scratch back at this
    point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).owesAt () t.succ = (dat1 V c).owesAt () t.castSucc from rfl]
  rw [show (dat1 V c).Φ t.succ = PhiS1 V c (t.val + 1) t.isLt from rfl, PhiS1_succ]
  have hN : t.val < 25 := lt_of_lt_of_eq t.isLt (show cfg1.N = 25 from N_1)
  by_cases h0 : t.val % 25 = 0
  · by_cases h1 : t.val % 25 = 24
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [show (dat1 V c).leavesExact 8 t = owns (c : Thread nD τ) (ms1_8 t) fullShare ((dat1 V c).after 8 t) from by
        unfold Dat.leavesExact; rw [liveAt1_8 t], after1_8]
      rw [Dat.leavesExact_idle (dat1 V c) 9 t (idleAt1_9_A t ((hcond1_0 t).mpr h0) (fun h => h1 ((hcond1_1 t).mp h))) (noFlush1_9_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HR0, HR1, HR2, HR3, HR4, HR5, HR6, HR7, HR8, HR9, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun1_A c (grid1.coords t) _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexact HS0
        iintro ⟨H0, H1, H2, H3, H4, H5, H6, H7, H8, H9, ⟨%es0, HS0⟩⟩
        isplitl [HR0 HR1 HR2 HR3 HR4 HR5 HR6 HR7 HR8 HR9 HS0 Hg]
        · isplitl [HR0 HR1 HR2 HR3 HR4 HR5 HR6 HR7 HR8 HR9 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexists _; iexact H9
      · exfalso; omega
  · by_cases h1 : t.val % 25 = 24
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [show (dat1 V c).leavesExact 8 t = owns (c : Thread nD τ) (ms1_8 t) fullShare ((dat1 V c).after 8 t) from by
        unfold Dat.leavesExact; rw [liveAt1_8 t], after1_8]
      rw [show (dat1 V c).leavesExact 9 t = owns (c : Thread nD τ) (ms1_9 t) fullShare ((dat1 V c).after 9 t) from by
        unfold Dat.leavesExact; rw [liveAt1_9_C t (fun h => h0 ((hcond1_0 t).mp h)) ((hcond1_1 t).mpr h1)], after1_9]
      rw [outsAt1_C V c t h0 h1]
      unfold out1_C_9 sout1_C_0; (try dsimp only)
      by_cases hz : t.val = 0
      · exfalso; omega
      · rw [PhiS1_castSucc V c t, PhiS1_pos V c _ _ hz]
        iintro ⟨⟨⟨HR0, HR1, HR2, HR3, HR4, HR5, HR6, HR7, HR8, HR9, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun1_C c (grid1.coords t) _ _ _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [HS0]; · iexact HS0
        iintro ⟨H0, H1, H2, H3, H4, H5, H6, H7, H8, ⟨%e9, H9⟩, ⟨%es0, HS0⟩⟩
        isplitl [HR0 HR1 HR2 HR3 HR4 HR5 HR6 HR7 HR8 HR9 HS0 Hg]
        · isplitl [HR0 HR1 HR2 HR3 HR4 HR5 HR6 HR7 HR8 HR9 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            unfold owns; iexists _; isplitr
            swap; · iexact HS0
            ipureintro; exact View.read_writes_of_cover _ _ _ _ _ (scover1_C_0 c _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        unfold owns; iexists _; isplitr
        swap; · iexact H9
        ipureintro; exact View.read_writes_of_cover _ _ _ _ _ (cover1_C_9 c _ _ _ _ _ _ _ _ _ _ _ _ _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [show (dat1 V c).leavesExact 8 t = owns (c : Thread nD τ) (ms1_8 t) fullShare ((dat1 V c).after 8 t) from by
        unfold Dat.leavesExact; rw [liveAt1_8 t], after1_8]
      rw [Dat.leavesExact_idle (dat1 V c) 9 t (idleAt1_9_B t (fun h => h0 ((hcond1_0 t).mp h)) (fun h => h1 ((hcond1_1 t).mp h))) (noFlush1_9_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HR0, HR1, HR2, HR3, HR4, HR5, HR6, HR7, HR8, HR9, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun1_B c (grid1.coords t) _ _ _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexact HS0
        iintro ⟨H0, H1, H2, H3, H4, H5, H6, H7, H8, H9, ⟨%es0, HS0⟩⟩
        isplitl [HR0 HR1 HR2 HR3 HR4 HR5 HR6 HR7 HR8 HR9 HS0 Hg]
        · isplitl [HR0 HR1 HR2 HR3 HR4 HR5 HR6 HR7 HR8 HR9 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            unfold owns; iexists _; isplitr
            swap; · iexact HS0
            ipureintro; exact View.read_writes_of_cover _ _ _ _ _ (scover1_B_0 c _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexists _; iexact H9

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the carried scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR0, HR1, HR2, HR3, HR4, HR5, HR6, HR7, HR8, HR9, HS0⟩, Hg⟩
  isplitl [HR0 HR1 HR2 HR3 HR4 HR5 HR6 HR7 HR8 HR9 HS0]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 25 := N_1; omega)

/-! ## What each case's pieces read as: the payloads of the body's covering stores -/

/-- The zero offsets of a whole-buffer access, however spelt, are the constant zero. -/
theorem hz2 : (![0, 0] : Fin 2 → Nat) = fun _ => 0 := funext fun a => by fin_cases a <;> rfl

/-- At the first point the scratch ends at the pooled block added to the zero fill: of its two stores the later one
    covers, and its read-back of the scratch reads the zero fill. -/
theorem sout1_A_0_eq (c : Dev nD) (i : grid1.Coords) (arg1 : Memref sig .tc .vmem S2000x128 .bf16) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x1 .i32) (harg7 : arg7.IsWhole) (arg8 : Memref sig .tc .vmem S128x10 .f32) (harg8 : arg8.IsWhole) (arg9 : Memref sig .tc .vmem S1x10 .f32) (harg9 : arg9.IsWhole) (arg10 : Memref sig .tc .vmem S64x10 .f32) (harg10 : arg10.IsWhole) (arg11 : Memref sig .tc .vmem S64x128 .f32) (harg11 : arg11.IsWhole) (hc0 : cond1_0 i) (hc1 : ¬cond1_1 i)
    (x0 : Vec F S2000x128 .bf16) (x1 : Vec F S2000x128 .f32) (x2 : Vec F S128x128 .f32) (x3 : Vec F S1x128 .f32) (x4 : Vec F S128x128 .f32) (x5 : Vec F S1x128 .f32) (x6 : Vec F S2000x1 .i32) (x7 : Vec F S128x10 .f32) (x8 : Vec F S1x10 .f32) :
    sout1_A_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 = k1_pay1 (k1_pay4 x6) (k1_pay5 x0 x1 x2 x4 x3 x5) (k1_pay3 (F := F)) := by
  unfold sout1_A_0
  rw [View.read_writes_eq_canon _ _ _ (scover1_A_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8)]
  unfold kernelRun1_A
  dsimp only
  sl_unfold_words
  rw [View.canon_cons_unit_zero (S := S64x128) hz2, View.readCov_unit_zero (S := S64x128) _ hz2]
  simp only [View.readAt_eq_ld, harg1.read_unread, harg2.read_unread, harg3.read_unread, harg4.read_unread, harg5.read_unread, harg6.read_unread, harg7.read_unread, View.ld_unit_zero (S := S2000x128) hz2, View.ld_unit_zero (S := S128x128) hz2, View.ld_unit_zero (S := S1x128) hz2, View.ld_unit_zero (S := S2000x1) hz2]

/-- At a middle point the scratch ends at the pooled block added to what the point before left: one covering store. -/
theorem sout1_B_0_eq (c : Dev nD) (i : grid1.Coords) (arg1 : Memref sig .tc .vmem S2000x128 .bf16) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x1 .i32) (harg7 : arg7.IsWhole) (arg8 : Memref sig .tc .vmem S128x10 .f32) (harg8 : arg8.IsWhole) (arg9 : Memref sig .tc .vmem S1x10 .f32) (harg9 : arg9.IsWhole) (arg10 : Memref sig .tc .vmem S64x10 .f32) (harg10 : arg10.IsWhole) (arg11 : Memref sig .tc .vmem S64x128 .f32) (harg11 : arg11.IsWhole) (hc0 : ¬cond1_0 i) (hc1 : ¬cond1_1 i)
    (x0 : Vec F S2000x128 .bf16) (x1 : Vec F S2000x128 .f32) (x2 : Vec F S128x128 .f32) (x3 : Vec F S1x128 .f32) (x4 : Vec F S128x128 .f32) (x5 : Vec F S1x128 .f32) (x6 : Vec F S2000x1 .i32) (x7 : Vec F S128x10 .f32) (x8 : Vec F S1x10 .f32) (xs0 : Vec F S64x128 .f32) :
    sout1_B_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0 = k1_pay1 (k1_pay4 x6) (k1_pay5 x0 x1 x2 x4 x3 x5) xs0 := by
  unfold sout1_B_0
  rw [View.read_writes_eq_canon _ _ _ (scover1_B_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0)]
  unfold kernelRun1_B
  dsimp only
  (try sl_unfold_words)
  rw [View.canon_unit_zero hz2]
  simp only [View.readAt_eq_ld, harg1.read_unread, harg2.read_unread, harg3.read_unread, harg4.read_unread, harg5.read_unread, harg6.read_unread, harg7.read_unread, View.ld_unit_zero (S := S2000x128) hz2, View.ld_unit_zero (S := S128x128) hz2, View.ld_unit_zero (S := S1x128) hz2, View.ld_unit_zero (S := S2000x1) hz2, harg11.read_unread, View.ld_unit_zero (S := S64x128) hz2]

/-- At the last point the scratch ends the same way: one covering store. -/
theorem sout1_C_0_eq (c : Dev nD) (i : grid1.Coords) (arg1 : Memref sig .tc .vmem S2000x128 .bf16) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x1 .i32) (harg7 : arg7.IsWhole) (arg8 : Memref sig .tc .vmem S128x10 .f32) (harg8 : arg8.IsWhole) (arg9 : Memref sig .tc .vmem S1x10 .f32) (harg9 : arg9.IsWhole) (arg10 : Memref sig .tc .vmem S64x10 .f32) (harg10 : arg10.IsWhole) (arg11 : Memref sig .tc .vmem S64x128 .f32) (harg11 : arg11.IsWhole) (hc0 : ¬cond1_0 i) (hc1 : cond1_1 i)
    (x0 : Vec F S2000x128 .bf16) (x1 : Vec F S2000x128 .f32) (x2 : Vec F S128x128 .f32) (x3 : Vec F S1x128 .f32) (x4 : Vec F S128x128 .f32) (x5 : Vec F S1x128 .f32) (x6 : Vec F S2000x1 .i32) (x7 : Vec F S128x10 .f32) (x8 : Vec F S1x10 .f32) (xs0 : Vec F S64x128 .f32) :
    sout1_C_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0 = k1_pay1 (k1_pay4 x6) (k1_pay5 x0 x1 x2 x4 x3 x5) xs0 := by
  unfold sout1_C_0
  rw [View.read_writes_eq_canon _ _ _ (scover1_C_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0)]
  unfold kernelRun1_C
  dsimp only
  (try sl_unfold_words)
  rw [View.canon_unit_zero hz2]
  simp only [View.readAt_eq_ld, harg1.read_unread, harg2.read_unread, harg3.read_unread, harg4.read_unread, harg5.read_unread, harg6.read_unread, harg7.read_unread, View.ld_unit_zero (S := S2000x128) hz2, View.ld_unit_zero (S := S128x128) hz2, View.ld_unit_zero (S := S1x128) hz2, View.ld_unit_zero (S := S2000x1) hz2, harg11.read_unread, View.ld_unit_zero (S := S64x128) hz2]

/-- At the last point the output block is the classifier applied to the scratch as that point leaves it: the body
    reads the scratch back after its store (a covered load: the store's payload). -/
theorem out1_C_9_eq (c : Dev nD) (i : grid1.Coords) (arg1 : Memref sig .tc .vmem S2000x128 .bf16) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x1 .i32) (harg7 : arg7.IsWhole) (arg8 : Memref sig .tc .vmem S128x10 .f32) (harg8 : arg8.IsWhole) (arg9 : Memref sig .tc .vmem S1x10 .f32) (harg9 : arg9.IsWhole) (arg10 : Memref sig .tc .vmem S64x10 .f32) (harg10 : arg10.IsWhole) (arg11 : Memref sig .tc .vmem S64x128 .f32) (harg11 : arg11.IsWhole) (hc0 : ¬cond1_0 i) (hc1 : cond1_1 i)
    (x0 : Vec F S2000x128 .bf16) (x1 : Vec F S2000x128 .f32) (x2 : Vec F S128x128 .f32) (x3 : Vec F S1x128 .f32) (x4 : Vec F S128x128 .f32) (x5 : Vec F S1x128 .f32) (x6 : Vec F S2000x1 .i32) (x7 : Vec F S128x10 .f32) (x8 : Vec F S1x10 .f32) (xs0 : Vec F S64x128 .f32) :
    out1_C_9 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0 = k1_pay2 (k1_pay1 (k1_pay4 x6) (k1_pay5 x0 x1 x2 x4 x3 x5) xs0) x7 x8 := by
  unfold out1_C_9
  rw [View.read_writes_eq_canon _ _ _ (cover1_C_9 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0)]
  unfold kernelRun1_C
  dsimp only
  (try sl_unfold_words)
  rw [View.canon_unit_zero hz2, View.readCov_unit_zero (S := S64x128) _ hz2]
  simp only [View.readAt_eq_ld, harg1.read_unread, harg2.read_unread, harg3.read_unread, harg4.read_unread, harg5.read_unread, harg6.read_unread, harg7.read_unread, View.ld_unit_zero (S := S2000x128) hz2, View.ld_unit_zero (S := S128x128) hz2, View.ld_unit_zero (S := S1x128) hz2, View.ld_unit_zero (S := S2000x1) hz2, harg8.read_unread, harg9.read_unread, harg11.read_unread, View.ld_unit_zero (S := S64x128) hz2, View.ld_unit_zero (S := S128x10) hz2, View.ld_unit_zero (S := S1x10) hz2]

/-! ## The scratch and the output after a point, as payloads of the blocks -/

/-- After the first point the scratch holds the first block's pooled sum over the zero fill. -/
theorem outsAt1_scratch_zero (c : Dev nD) (h0 : 0 < cfg1.N) :
    (outsAt1 V c 0 h0).2 = k1_pay1 (k1_pay4 (iblk1 V c 6 ⟨0, h0⟩)) (k1_pay5 (iblk1 V c 0 ⟨0, h0⟩) (iblk1 V c 1 ⟨0, h0⟩) (iblk1 V c 2 ⟨0, h0⟩) (iblk1 V c 4 ⟨0, h0⟩) (iblk1 V c 3 ⟨0, h0⟩) (iblk1 V c 5 ⟨0, h0⟩)) (k1_pay3 (F := F)) := by
  have h1 : ¬(⟨0, h0⟩ : Fin cfg1.N).val % 25 = 24 := by dsimp only; omega
  rw [outsAt1_A V c ⟨0, h0⟩ (Nat.zero_mod _) h1]
  dsimp only
  exact sout1_A_0_eq (F := F) c _ _ _ _ _ _ _ _ _ _ _ _ _ _ _ _ _ _ _ _ _ _ _ _ _ _ _ _ _ _ _ _ _ _

/-- After each later point it holds that point's pooled sum added to what the point before left. -/
theorem outsAt1_scratch_succ (c : Dev nD) (n : ℕ) (hn : n + 1 < cfg1.N) :
    (outsAt1 V c (n + 1) hn).2 = k1_pay1 (k1_pay4 (iblk1 V c 6 ⟨n + 1, hn⟩)) (k1_pay5 (iblk1 V c 0 ⟨n + 1, hn⟩) (iblk1 V c 1 ⟨n + 1, hn⟩) (iblk1 V c 2 ⟨n + 1, hn⟩) (iblk1 V c 4 ⟨n + 1, hn⟩) (iblk1 V c 3 ⟨n + 1, hn⟩) (iblk1 V c 5 ⟨n + 1, hn⟩)) (outsAt1 V c n (Nat.lt_of_succ_lt hn)).2 := by
  have hN : n + 1 < 25 := lt_of_lt_of_eq hn (show cfg1.N = 25 from N_1)
  have h0 : ¬(⟨n + 1, hn⟩ : Fin cfg1.N).val % 25 = 0 := by dsimp only; omega
  by_cases h1 : (⟨n + 1, hn⟩ : Fin cfg1.N).val % 25 = 24
  · rw [outsAt1_C V c ⟨n + 1, hn⟩ h0 h1]
    dsimp only
    exact sout1_C_0_eq (F := F) c _ _ _ _ _ _ _ _ _ _ _ _ _ _ _ _ _ _ _ _ _ _ _ _ _ _ _ _ _ _ _ _ _ _ _
  · rw [outsAt1_B V c ⟨n + 1, hn⟩ h0 h1]
    dsimp only
    exact sout1_B_0_eq (F := F) c _ _ _ _ _ _ _ _ _ _ _ _ _ _ _ _ _ _ _ _ _ _ _ _ _ _ _ _ _ _ _ _ _ _ _

/-- After the last point the output block is the classifier applied to the scratch as the last point leaves it. -/
theorem outsAt1_out_last (c : Dev nD) (h : 24 < cfg1.N) :
    (outsAt1 V c 24 h).1 = k1_pay2 (outsAt1 V c 24 h).2 (iblk1 V c 7 ⟨24, h⟩) (iblk1 V c 8 ⟨24, h⟩) := by
  have h0 : ¬(⟨24, h⟩ : Fin cfg1.N).val % 25 = 0 := by dsimp only; omega
  have h1 : (⟨24, h⟩ : Fin cfg1.N).val % 25 = 24 := rfl
  rw [outsAt1_C V c ⟨24, h⟩ h0 h1]
  dsimp only
  rw [out1_C_9_eq, sout1_C_0_eq]

end Region1

end Cert.Kernel.Hand

end
-- ==== Proof.K.Run.lean ====
/-
  The program's run as four items: a stretch of host operations, the first kernel region (the perceptron of layer one, tile
  by tile), a second stretch of host operations, the second kernel region (layer two, pooled tile by tile into running sums,
  then classified). Between two items every buffer the TensorCore shares with the host is held whole at a named valuation;
  beside them rides the generator register at some state and the fact that the core owes nothing. A region takes its
  windows' arrays out of that valuation, runs its pipeline on them, and puts them back at what the pipeline's write-backs
  leave: the inputs as they were, the one output array as written. Nothing here depends on the float instance.
-/
import proofs.«400679_j13889924235785_2_alg».proof.Proof.K.R0
import proofs.«400679_j13889924235785_2_alg».proof.Proof.K.R1
import proofs.«400679_j13889924235785_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffers' contents at the two regions -/

/-- The buffers as the first region finds them, read at the TensorCore's references. -/
abbrev E1 : (c : Dev nD) → (b : Ref sig .tc) → Buf (Elt F) ((c : Thread nD τ).loc b) := fun c b => V1 m c b

/-- What the first region leaves: its arrays after the write-backs of all its points, every other buffer as entered. -/
def X2 (c : Dev nD) : Valuation τ sig (Elt F) :=
  Pipeline.withArrays spec0 c (V1 m c) fun w => (dat0 (E1 m) c).arrAt w cfg0.N

/-- The first region's result as the later items read it. -/
def outsA : Outs (F := F) := fun _ r c => X2 m c (Proc.devRef .tc r)

/-- The buffers as the second region finds them. -/
abbrev E3 : (c : Dev nD) → (b : Ref sig .tc) → Buf (Elt F) ((c : Thread nD τ).loc b) := fun c b => V3 m (outsA m) c b

/-- What the second region leaves. -/
def X4 (c : Dev nD) : Valuation τ sig (Elt F) :=
  Pipeline.withArrays spec1 c (V3 m (outsA m) c) fun w => (dat1 (E3 m) c).arrAt w cfg1.N

/-- What the two regions leave in the buffers they may change: after the second region its result, before it the first's. -/
def outs : Outs (F := F) := fun n r c => if n = 4 then X4 m c (Proc.devRef .tc r) else X2 m c (Proc.devRef .tc r)

theorem outs_two (r : Ref sig .tc) (c : Dev nD) : outs m 2 r c = X2 m c (Proc.devRef .tc r) := if_neg (by decide)
theorem outs_four (r : Ref sig .tc) (c : Dev nD) : outs m 4 r c = X4 m c (Proc.devRef .tc r) := if_pos rfl

theorem X2_arr (c : Dev nD) (w : Fin cfg0.W) :
    X2 m c (Proc.devRef .tc (Pipeline.arrRef spec0 w)) = (dat0 (E1 m) c).arrAt w cfg0.N := by
  unfold X2; exact Pipeline.withArrays_arr spec0 launch0.win.arr_inj c _ _ w
theorem X4_arr (c : Dev nD) (w : Fin cfg1.W) :
    X4 m c (Proc.devRef .tc (Pipeline.arrRef spec1 w)) = (dat1 (E3 m) c).arrAt w cfg1.N := by
  unfold X4; exact Pipeline.withArrays_arr spec1 launch1.win.arr_inj c _ _ w

/-- The valuation after the first region does not depend on what the second leaves. -/
theorem V2_outs (c : Dev nD) : V2 m (outs m) c = V2 m (outsA m) c := by
  show Function.update (V1 m c) _ (outs m 2 main_v16 c) = Function.update (V1 m c) _ (outsA m 2 main_v16 c)
  rw [outs_two]; rfl
theorem V3_outs (c : Dev nD) : V3 m (outs m) c = V3 m (outsA m) c :=
  congrArg (StableHlo.after hostOps1) (V2_outs m c)

/-! ## The proof data of the two pipelines -/

/-- Each pipeline's proof data at its region's entry contents. -/
def pdats : (p : Fin 2) → (c : Dev nD) → Dat τ (Elt F) Unit ℕ (UR sig nD τ) ℕ (cfgs p) c
  | ⟨0, _⟩ => fun c => dat0 (E1 m) c
  | ⟨1, _⟩ => fun c => dat1 (E3 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers between items: the generator register at some state, and nothing owed. -/
abbrev R (c : Dev nD) : sProp 𝕄 := iprop((∃ r, prngReg c r) ∗ ∃ W, owes (c : Thread nD τ) (0 : CellTallies nD τ sig Unit) W)

/-! ## Each region's arrays at its exit -/

/-- After the first region each of its arrays holds what the pipeline leaves: an input what it held, the output what was written. -/
theorem hF0 (c : Dev nD) : ∀ w : Fin cfg0.W, (pdats m 0 c).arrAt w cfg0.N = V2 m (outs m) c (Pipeline.arrRef spec0 w)
  | ⟨0, _⟩ => ((dat0 (E1 m) c).arrAt_in 0 rfl _).trans ((A_eq0 (E1 m) c 0).trans (V2_of m (outs m) c _ (by decide)).symm)
  | ⟨1, _⟩ => ((dat0 (E1 m) c).arrAt_in 1 rfl _).trans ((A_eq0 (E1 m) c 1).trans (V2_of m (outs m) c _ (by decide)).symm)
  | ⟨2, _⟩ => ((dat0 (E1 m) c).arrAt_in 2 rfl _).trans ((A_eq0 (E1 m) c 2).trans (V2_of m (outs m) c _ (by decide)).symm)
  | ⟨3, _⟩ => ((dat0 (E1 m) c).arrAt_in 3 rfl _).trans ((A_eq0 (E1 m) c 3).trans (V2_of m (outs m) c _ (by decide)).symm)
  | ⟨4, _⟩ => ((dat0 (E1 m) c).arrAt_in 4 rfl _).trans ((A_eq0 (E1 m) c 4).trans (V2_of m (outs m) c _ (by decide)).symm)
  | ⟨5, _⟩ => ((dat0 (E1 m) c).arrAt_in 5 rfl _).trans ((A_eq0 (E1 m) c 5).trans (V2_of m (outs m) c _ (by decide)).symm)
  | ⟨6, _⟩ => by
    show _ = V2 m (outs m) c main_v16
    simp only [V2, Function.update_self, outs_two]
    exact (X2_arr m c 6).symm
  | ⟨_ + 7, h⟩ => absurd h (Nat.not_lt.2 (Nat.le_add_left _ _))
theorem hrest0 (c : Dev nD) : ∀ b, b ∉ Finset.univ.image (Pipeline.arrRef spec0) → V2 m (outs m) c b = V1 m c b :=
  fun b hb => V2_of m (outs m) c b fun h => hb (by
    rw [List.mem_singleton] at h; subst h
    exact Finset.mem_image.mpr ⟨6, Finset.mem_univ _, rfl⟩)

/-- The valuation after the second region, over the second region's own entry contents. -/
abbrev V4' (c : Dev nD) : Valuation τ sig (Elt F) := Function.update (V3 m (outsA m) c) main_v32 (X4 m c (Proc.devRef .tc main_v32))
theorem V4_outs (c : Dev nD) : V4 m (outs m) c = V4' m c := by
  show Function.update (V3 m (outs m) c) _ (outs m 4 main_v32 c) = _
  rw [V3_outs, outs_four]
theorem V4'_of (c : Dev nD) (r : Ref sig .tc) (h : r ∉ ([main_v32] : List (Ref sig .tc))) : V4' m c r = V3 m (outsA m) c r := by
  simp only [V4', Function.update_of_ne (StableHlo.devRef_ne_of_ne (List.ne_of_not_mem_cons h) : (Proc.devRef .tc r : DevRef τ sig) ≠ Proc.devRef .tc main_v32)]

set_option maxHeartbeats 2000000 in
theorem hF1 (c : Dev nD) : ∀ w : Fin cfg1.W, (pdats m 1 c).arrAt w cfg1.N = V4' m c (Pipeline.arrRef spec1 w)
  | ⟨0, _⟩ => ((dat1 (E3 m) c).arrAt_in 0 rfl _).trans ((A_eq1 (E3 m) c 0).trans (V4'_of m c _ (by decide)).symm)
  | ⟨1, _⟩ => ((dat1 (E3 m) c).arrAt_in 1 rfl _).trans ((A_eq1 (E3 m) c 1).trans (V4'_of m c _ (by decide)).symm)
  | ⟨2, _⟩ => ((dat1 (E3 m) c).arrAt_in 2 rfl _).trans ((A_eq1 (E3 m) c 2).trans (V4'_of m c _ (by decide)).symm)
  | ⟨3, _⟩ => ((dat1 (E3 m) c).arrAt_in 3 rfl _).trans ((A_eq1 (E3 m) c 3).trans (V4'_of m c _ (by decide)).symm)
  | ⟨4, _⟩ => ((dat1 (E3 m) c).arrAt_in 4 rfl _).trans ((A_eq1 (E3 m) c 4).trans (V4'_of m c _ (by decide)).symm)
  | ⟨5, _⟩ => ((dat1 (E3 m) c).arrAt_in 5 rfl _).trans ((A_eq1 (E3 m) c 5).trans (V4'_of m c _ (by decide)).symm)
  | ⟨6, _⟩ => ((dat1 (E3 m) c).arrAt_in 6 rfl _).trans ((A_eq1 (E3 m) c 6).trans (V4'_of m c _ (by decide)).symm)
  | ⟨7, _⟩ => ((dat1 (E3 m) c).arrAt_in 7 rfl _).trans ((A_eq1 (E3 m) c 7).trans (V4'_of m c _ (by decide)).symm)
  | ⟨8, _⟩ => ((dat1 (E3 m) c).arrAt_in 8 rfl _).trans ((A_eq1 (E3 m) c 8).trans (V4'_of m c _ (by decide)).symm)
  | ⟨9, _⟩ => by
    show _ = V4' m c main_v32
    simp only [V4', Function.update_self]
    exact (X4_arr m c 9).symm
  | ⟨_ + 10, h⟩ => absurd h (Nat.not_lt.2 (Nat.le_add_left _ _))
theorem hrest1 (c : Dev nD) : ∀ b, b ∉ Finset.univ.image (Pipeline.arrRef spec1) → V4' m c b = V3 m (outsA m) c b :=
  fun b hb => V4'_of m c b fun h => hb (by
    rw [List.mem_singleton] at h; subst h
    exact Finset.mem_image.mpr ⟨9, Finset.mem_univ _, rfl⟩)

/-! ## The regions as items of the run -/

set_option backward.isDefEq.respectTransparency.types false in
/-- The first region: entered with every shared buffer at the valuation after the first host stretch, left at that valuation
    updated at the output array. Its arrays are split out of the shared buffers and put back; the generator register goes
    into the pipeline's invariant and comes out; nothing is owed; the kernel has no semaphore of its own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (fun b => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region, in the same way: entered at the valuation after the second host stretch, left at it updated at the
    result array. Its invariant starts as the plain one and ends by giving the plain one back: the running sums kept in the
    kernel's scratch are named between the points and forgotten at the end. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (V3 m (outsA m) c) ∗ R c)
  post c := iprop(StableHlo.held (c : Thread nD τ) (Pipeline.ucRefs τ sig) (V4' m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E3 m) c)
    unfold Pipeline.ΦA
    iintro ⟨Hp, -, Hr⟩
    isplitl [Hr]; · iexact Hr
    iexact Hp
  hout c := by
    refine BIBase.Entails.trans (hout1 (E3 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (fun b => V4' m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## What the launch hands the first item, and what the last item ends with -/

/-- The launch element of the library yields itself and nothing else. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- On every core the launch's generator register and its empty debt are what rides beside the buffers. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

theorem hE2 (c : Dev nD) : R (F := F) c ⊢ (iprop(∃ W, owes (c : Thread nD τ) (0 : CellTallies nD τ sig Unit) W) : sProp 𝕄) := by
  iintro ⟨-, HO⟩; iexact HO

/-! ## The frame -/

set_option backward.isDefEq.respectTransparency.types false in
/-- Every weakly fair execution from a memory with zero counters terminates without a fault, and every argument array ends
    as launched: no host operation writes one and no region's write-backs touch one. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_cond m emb₁ () 𝒱₀ L lv (fun _ _ => rfl) ρ (outs m) (pdats m) 0 (fun _ => (BI.emp : sProp 𝕄))
    (initOf (Pipeline.cells cfgs cellOf_inj) (Pipeline.launchToks cfgs cellOf_inj)) hu₀ (fun _ c => R c) (hE0 ρ) (fun c => hE2 c)
    (reg0 m) (fun _ => .rfl) (fun _ => .rfl)
    (reg1 m) (fun c => by rw [V3_outs]; exact .rfl) (fun c => by rw [V4_outs]; exact .rfl)

end Cert.Kernel.Hand

end
-- ==== Proof.KI.R0.lean ====
import proofs.«400679_j13889924235785_2_alg».proof.Proof.Gen.KernelIdeal.Launch
import proofs.«400679_j13889924235785_2_alg».proof.Proof.Gen.KernelIdeal.Skeleton
import proofs.«400679_j13889924235785_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! Region 0 of the program: the two-layer perceptron kernel over 25 row blocks.

Everything here is stated at a parameter `V`, the contents of the core's buffers when the region is entered,
and at any float instance. Per grid point the six input windows hold their blocks of `V`'s arrays; the body
reads them whole and overwrites the output block with one payload. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 holds its block of `V`'s array at every point, whether the point fetched it or the block
    index stood still since the last fetch; for any proof data with `V`'s array there whose body keeps the block. -/
theorem before0_0_of {c : Dev nD} (dat : Dat τ (Elt F) Unit ℕ (UR sig nD τ) ℕ cfg0 c)
    (hA : dat.A 0 = V c (Pipeline.arrRef spec0 0)) (hafter : ∀ t, dat.after 0 t = iblk0 V c 0 t)
    (t : Fin cfg0.N) (d) : dat.before 0 t d = iblk0 V c 0 t := by
  have hkeep : ∀ t, (cfg0.win 0).cut (cfg0.grid.coords t) (dat.after 0 t) = dat.blockOf 0 t := fun t => by
    rw [hafter]; unfold Dat.blockOf iblk0; rw [hA]; try rfl
  refine (dat.before_in_eq_fetched 0 rfl (fun _ => rfl) (fun _ _ _ => rfl) hkeep t d).trans ?_
  unfold Dat.fetched Dat.blockOf iblk0; rw [hA]; try rfl

/-- Input window 1 holds its block of `V`'s array at every point, whether the point fetched it or the block
    index stood still since the last fetch; for any proof data with `V`'s array there whose body keeps the block. -/
theorem before0_1_of {c : Dev nD} (dat : Dat τ (Elt F) Unit ℕ (UR sig nD τ) ℕ cfg0 c)
    (hA : dat.A 1 = V c (Pipeline.arrRef spec0 1)) (hafter : ∀ t, dat.after 1 t = iblk0 V c 1 t)
    (t : Fin cfg0.N) (d) : dat.before 1 t d = iblk0 V c 1 t := by
  have hkeep : ∀ t, (cfg0.win 1).cut (cfg0.grid.coords t) (dat.after 1 t) = dat.blockOf 1 t := fun t => by
    rw [hafter]; unfold Dat.blockOf iblk0; rw [hA]; try rfl
  refine (dat.before_in_eq_fetched 1 rfl (fun _ => rfl) (fun _ _ _ => rfl) hkeep t d).trans ?_
  unfold Dat.fetched Dat.blockOf iblk0; rw [hA]; try rfl

/-- Input window 2 holds its block of `V`'s array at every point, whether the point fetched it or the block
    index stood still since the last fetch; for any proof data with `V`'s array there whose body keeps the block. -/
theorem before0_2_of {c : Dev nD} (dat : Dat τ (Elt F) Unit ℕ (UR sig nD τ) ℕ cfg0 c)
    (hA : dat.A 2 = V c (Pipeline.arrRef spec0 2)) (hafter : ∀ t, dat.after 2 t = iblk0 V c 2 t)
    (t : Fin cfg0.N) (d) : dat.before 2 t d = iblk0 V c 2 t := by
  have hkeep : ∀ t, (cfg0.win 2).cut (cfg0.grid.coords t) (dat.after 2 t) = dat.blockOf 2 t := fun t => by
    rw [hafter]; unfold Dat.blockOf iblk0; rw [hA]; try rfl
  refine (dat.before_in_eq_fetched 2 rfl (fun _ => rfl) (fun _ _ _ => rfl) hkeep t d).trans ?_
  unfold Dat.fetched Dat.blockOf iblk0; rw [hA]; try rfl

/-- Input window 3 holds its block of `V`'s array at every point, whether the point fetched it or the block
    index stood still since the last fetch; for any proof data with `V`'s array there whose body keeps the block. -/
theorem before0_3_of {c : Dev nD} (dat : Dat τ (Elt F) Unit ℕ (UR sig nD τ) ℕ cfg0 c)
    (hA : dat.A 3 = V c (Pipeline.arrRef spec0 3)) (hafter : ∀ t, dat.after 3 t = iblk0 V c 3 t)
    (t : Fin cfg0.N) (d) : dat.before 3 t d = iblk0 V c 3 t := by
  have hkeep : ∀ t, (cfg0.win 3).cut (cfg0.grid.coords t) (dat.after 3 t) = dat.blockOf 3 t := fun t => by
    rw [hafter]; unfold Dat.blockOf iblk0; rw [hA]; try rfl
  refine (dat.before_in_eq_fetched 3 rfl (fun _ => rfl) (fun _ _ _ => rfl) hkeep t d).trans ?_
  unfold Dat.fetched Dat.blockOf iblk0; rw [hA]; try rfl

/-- Input window 4 holds its block of `V`'s array at every point, whether the point fetched it or the block
    index stood still since the last fetch; for any proof data with `V`'s array there whose body keeps the block. -/
theorem before0_4_of {c : Dev nD} (dat : Dat τ (Elt F) Unit ℕ (UR sig nD τ) ℕ cfg0 c)
    (hA : dat.A 4 = V c (Pipeline.arrRef spec0 4)) (hafter : ∀ t, dat.after 4 t = iblk0 V c 4 t)
    (t : Fin cfg0.N) (d) : dat.before 4 t d = iblk0 V c 4 t := by
  have hkeep : ∀ t, (cfg0.win 4).cut (cfg0.grid.coords t) (dat.after 4 t) = dat.blockOf 4 t := fun t => by
    rw [hafter]; unfold Dat.blockOf iblk0; rw [hA]; try rfl
  refine (dat.before_in_eq_fetched 4 rfl (fun _ => rfl) (fun _ _ _ => rfl) hkeep t d).trans ?_
  unfold Dat.fetched Dat.blockOf iblk0; rw [hA]; try rfl

/-- Input window 5 holds its block of `V`'s array at every point, whether the point fetched it or the block
    index stood still since the last fetch; for any proof data with `V`'s array there whose body keeps the block. -/
theorem before0_5_of {c : Dev nD} (dat : Dat τ (Elt F) Unit ℕ (UR sig nD τ) ℕ cfg0 c)
    (hA : dat.A 5 = V c (Pipeline.arrRef spec0 5)) (hafter : ∀ t, dat.after 5 t = iblk0 V c 5 t)
    (t : Fin cfg0.N) (d) : dat.before 5 t d = iblk0 V c 5 t := by
  have hkeep : ∀ t, (cfg0.win 5).cut (cfg0.grid.coords t) (dat.after 5 t) = dat.blockOf 5 t := fun t => by
    rw [hafter]; unfold Dat.blockOf iblk0; rw [hA]; try rfl
  refine (dat.before_in_eq_fetched 5 rfl (fun _ => rfl) (fun _ _ _ => rfl) hkeep t d).trans ?_
  unfold Dat.fetched Dat.blockOf iblk0; rw [hA]; try rfl

/-! ## The body's accesses

Every load and the one store of the body go through the rectangle that is the whole of its block: offsets zero,
the block's own sizes, unit strides. One such rectangle per block shape. -/

/-- the whole of a 2000x128 input block (the node features, the aggregated messages) -/
abbrev r0_a : Rect S2000x128 := Rect.unit (s := S2000x128) ![0, 0] S2000x128.size inb_S2000x128_S2000x128_0_0
/-- the whole of a 128x128 weight matrix -/
abbrev r0_w : Rect S128x128 := Rect.unit (s := S128x128) ![0, 0] S128x128.size inb_S128x128_S128x128_0_0
/-- the whole of a 1x128 bias row -/
abbrev r0_b : Rect S1x128 := Rect.unit (s := S1x128) ![0, 0] S1x128.size inb_S1x128_S1x128_0_0
/-- the whole of the 2000x128 output block -/
abbrev r0_out : Rect S2000x128 := Rect.unit (s := S2000x128) ![0, 0] S2000x128.size inb_S2000x128_S2000x128_0_0

/-- The offsets of those rectangles are zero on both axes. -/
theorem zeros2 : (![0, 0] : Fin 2 → Nat) = fun _ => 0 := funext fun a => by fin_cases a <;> rfl

/-! ## What the body leaves in the output block -/

/-- what the body leaves in the output block: its one store, as the canon of one whole-block piece -/
def out0_6 (x0 x1 : Vec F S2000x128 .f32) (x2 : Vec F S128x128 .f32) (x3 : Vec F S1x128 .f32) (x4 : Vec F S128x128 .f32) (x5 : Vec F S1x128 .f32) : Vec F S2000x128 .bf16 :=
  View.canon [⟨r0_out, k0_pay1 (View.ld x0 r0_a) (View.ld x1 r0_a) (View.ld x2 r0_w) (View.ld x4 r0_w) (View.ld x3 r0_b) (View.ld x5 r0_b)⟩]

/-- The one piece is the whole block, so every index of the block lies under it. -/
theorem cover0_6 (p : Vec F S2000x128 .bf16) (y : S2000x128.Idx) :
    ∃ pc ∈ ([⟨r0_out, p⟩] : List (View.Piece (Elt F) S2000x128 .bf16)), y ∈ pc.1.set :=
  ⟨_, List.mem_singleton_self _, View.mem_set_unit_zero (S := S2000x128) zeros2 inb_S2000x128_S2000x128_0_0 y⟩

/-- the one piece covers the block, so the canon is the payload -/
theorem out0_6_eq (x0 x1 : Vec F S2000x128 .f32) (x2 : Vec F S128x128 .f32) (x3 : Vec F S1x128 .f32) (x4 : Vec F S128x128 .f32) (x5 : Vec F S1x128 .f32) :
    out0_6 x0 x1 x2 x3 x4 x5 = k0_pay1 (View.ld x0 r0_a) (View.ld x1 r0_a) (View.ld x2 r0_w) (View.ld x4 r0_w) (View.ld x3 r0_b) (View.ld x5 r0_b) := by
  unfold out0_6
  exact View.canon_unit_zero (S := S2000x128) zeros2 inb_S2000x128_S2000x128_0_0 _

/-- and a load through the whole of a block reads the block, so the payload is over the blocks themselves -/
theorem out0_6_eq' (x0 x1 : Vec F S2000x128 .f32) (x2 : Vec F S128x128 .f32) (x3 : Vec F S1x128 .f32) (x4 : Vec F S128x128 .f32) (x5 : Vec F S1x128 .f32) :
    out0_6 x0 x1 x2 x3 x4 x5 = k0_pay1 x0 x1 x2 x4 x3 x5 := by
  rw [out0_6_eq]
  rw [show View.ld x0 r0_a = x0 from View.ld_unit_zero (S := S2000x128) zeros2 inb_S2000x128_S2000x128_0_0 x0,
    show View.ld x1 r0_a = x1 from View.ld_unit_zero (S := S2000x128) zeros2 inb_S2000x128_S2000x128_0_0 x1,
    show View.ld x2 r0_w = x2 from View.ld_unit_zero (S := S128x128) zeros2 inb_S128x128_S128x128_0_0 x2,
    show View.ld x4 r0_w = x4 from View.ld_unit_zero (S := S128x128) zeros2 inb_S128x128_S128x128_0_0 x4,
    show View.ld x3 r0_b = x3 from View.ld_unit_zero (S := S1x128) zeros2 inb_S1x128_S1x128_0_0 x3,
    show View.ld x5 r0_b = x5 from View.ld_unit_zero (S := S1x128) zeros2 inb_S1x128_S1x128_0_0 x5]

/-! ## The body's triple -/

set_option maxHeartbeats 1000000 in
/-- The body on whole staging memrefs — the six inputs' holding `x0 … x5`, the output's holding anything — runs to
    its continuation with the inputs' as they were and the output's holding `out0_6` of them: six whole-block
    loads, one more of the output block whose value is dropped, one whole-block store. -/
theorem sound_kernel0 (c : Dev nD) (E : Set ℕ) (i : grid0.Coords)
    (arg1 : Memref sig .tc .vmem S2000x128 .f32) (harg1 : arg1.IsWhole)
    (arg2 : Memref sig .tc .vmem S2000x128 .f32) (harg2 : arg2.IsWhole)
    (arg3 : Memref sig .tc .vmem S128x128 .f32) (harg3 : arg3.IsWhole)
    (arg4 : Memref sig .tc .vmem S1x128 .f32) (harg4 : arg4.IsWhole)
    (arg5 : Memref sig .tc .vmem S128x128 .f32) (harg5 : arg5.IsWhole)
    (arg6 : Memref sig .tc .vmem S1x128 .f32) (harg6 : arg6.IsWhole)
    (arg7 : Memref sig .tc .vmem S2000x128 .bf16) (harg7 : arg7.IsWhole)
    (x0 x1 : Vec F S2000x128 .f32) (x2 : Vec F S128x128 .f32) (x3 : Vec F S1x128 .f32) (x4 : Vec F S128x128 .f32) (x5 : Vec F S1x128 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ (∃ d, owns (c : Thread nD τ) arg7 fullShare d)
        ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E (cc0__mlp_kernel i arg1 harg1 arg2 harg2 arg3 harg3 arg4 harg4 arg5 harg5 arg6 harg6 arg7 harg7) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  iexists _; isplitr
  swap
  · iexact H6
  ipureintro
  exact View.read_writes_eq_canon _ _ _ (cover0_6 _)

/-! ## The pipeline's proof data -/

/-- The proof data of the pipeline on core `c`: the arrays as the region finds them; after the body at point
    `t` every input's buffer still at its block and the output's at `out0_6` of the six blocks; the invariant that
    the core's other scoped buffers and its generator register are left alone; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) :
    (dat0 V c).after 6 t = out0_6 (iblk0 V c 0 t) (iblk0 V c 1 t) (iblk0 V c 2 t) (iblk0 V c 3 t) (iblk0 V c 4 t) (iblk0 V c 5 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`: the invariant, what the core owes, and the seven windows'
    current staging buffers one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the six inputs' memrefs hold their blocks, so the body's triple applies at those
    blocks; the invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1Runs.lean ====
import proofs.«400679_j13889924235785_2_alg».proof.Proof.Gen.KernelIdeal.Launch
import proofs.«400679_j13889924235785_2_alg».proof.Proof.Gen.KernelIdeal.Skeleton
import proofs.«400679_j13889924235785_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered: the parameter the region's half is stated at
variable (V : (c : Dev nD) → (b : Ref sig .tc) → Buf (Elt F) ((c : Thread nD τ).loc b))

/-! # The second region of @main: the pooling kernel (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: an input
    whose body leaves the block in place holds what a fetch would put there (unfetched, the block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: an input
    whose body leaves the block in place holds what a fetch would put there (unfetched, the block index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: an input
    whose body leaves the block in place holds what a fetch would put there (unfetched, the block index has not moved). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: an input
    whose body leaves the block in place holds what a fetch would put there (unfetched, the block index has not moved). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not: an input
    whose body leaves the block in place holds what a fetch would put there (unfetched, the block index has not moved). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not: an input
    whose body leaves the block in place holds what a fetch would put there (unfetched, the block index has not moved). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not: an input
    whose body leaves the block in place holds what a fetch would put there (unfetched, the block index has not moved). -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not: an input
    whose body leaves the block in place holds what a fetch would put there (unfetched, the block index has not moved). -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, fetched there or not: an input
    whose body leaves the block in place holds what a fetch would put there (unfetched, the block index has not moved). -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first conditional (is this the first grid point?), from the grid coordinates. -/
abbrev cond1_0 (i : grid1.Coords) : Prop := (Scalar.cmpi .ne (Scalar.extui (Scalar.cmpi .eq (BitVec.ofNat 32 (i 0).val) 0#32)) 0#32) = 1#1
/-- It holds at the first point only: decided over the grid. -/
theorem hcond1_0 : ∀ t : Fin cfg1.N, cond1_0 (grid1.coords t) ↔ t.val % 25 = 0 :=
  (by decide +kernel : ∀ t : Fin grid1.N, cond1_0 (grid1.coords t) ↔ t.val % 25 = 0)

/-- The condition of the body's second conditional (is this the last grid point?), from the grid coordinates. -/
abbrev cond1_1 (i : grid1.Coords) : Prop := k1_cond2 i = 1#1
/-- It holds at the last point only: decided over the grid. -/
theorem hcond1_1 : ∀ t : Fin cfg1.N, cond1_1 (grid1.coords t) ↔ t.val % 25 = 24 :=
  (by decide +kernel : ∀ t : Fin grid1.N, cond1_1 (grid1.coords t) ↔ t.val % 25 = 24)

/-! ## Where the windows are idle -/

/-- Window 0 is never idle (an input). -/
theorem liveAt1_0 : ∀ t : Fin cfg1.N, cfg1.idle 0 (grid1.coords t) = false := by decide +kernel
/-- Window 1 is never idle (an input). -/
theorem liveAt1_1 : ∀ t : Fin cfg1.N, cfg1.idle 1 (grid1.coords t) = false := by decide +kernel
/-- Window 2 is never idle (an input). -/
theorem liveAt1_2 : ∀ t : Fin cfg1.N, cfg1.idle 2 (grid1.coords t) = false := by decide +kernel
/-- Window 3 is never idle (an input). -/
theorem liveAt1_3 : ∀ t : Fin cfg1.N, cfg1.idle 3 (grid1.coords t) = false := by decide +kernel
/-- Window 4 is never idle (an input). -/
theorem liveAt1_4 : ∀ t : Fin cfg1.N, cfg1.idle 4 (grid1.coords t) = false := by decide +kernel
/-- Window 5 is never idle (an input). -/
theorem liveAt1_5 : ∀ t : Fin cfg1.N, cfg1.idle 5 (grid1.coords t) = false := by decide +kernel
/-- Window 6 is never idle (an input). -/
theorem liveAt1_6 : ∀ t : Fin cfg1.N, cfg1.idle 6 (grid1.coords t) = false := by decide +kernel
/-- Window 7 is never idle (an input). -/
theorem liveAt1_7 : ∀ t : Fin cfg1.N, cfg1.idle 7 (grid1.coords t) = false := by decide +kernel
/-- Window 8 is never idle (an input). -/
theorem liveAt1_8 : ∀ t : Fin cfg1.N, cfg1.idle 8 (grid1.coords t) = false := by decide +kernel
/-- At the first point the output window is idle: the body stores nothing into it. -/
theorem idleAt1_9_A : ∀ t : Fin cfg1.N, cond1_0 (grid1.coords t) → ¬cond1_1 (grid1.coords t) → cfg1.idle 9 (grid1.coords t) = true := by decide +kernel
/-- At the first point the pipeline does not write the output's block back. -/
theorem noFlush1_9_A : ∀ t : Fin cfg1.N, cond1_0 (grid1.coords t) → ¬cond1_1 (grid1.coords t) → (cfg1.win 9).flush t = false := by decide +kernel
/-- At the middle points the output window is idle: the body stores nothing into it. -/
theorem idleAt1_9_B : ∀ t : Fin cfg1.N, ¬cond1_0 (grid1.coords t) → ¬cond1_1 (grid1.coords t) → cfg1.idle 9 (grid1.coords t) = true := by decide +kernel
/-- At the middle points the pipeline does not write the output's block back. -/
theorem noFlush1_9_B : ∀ t : Fin cfg1.N, ¬cond1_0 (grid1.coords t) → ¬cond1_1 (grid1.coords t) → (cfg1.win 9).flush t = false := by decide +kernel
/-- At the last point the output window is live: the body stores into it. -/
theorem liveAt1_9_C : ∀ t : Fin cfg1.N, ¬cond1_0 (grid1.coords t) → cond1_1 (grid1.coords t) → cfg1.idle 9 (grid1.coords t) = false := by decide +kernel

/-! ## The staging memrefs and the scratch -/

/-- One staging buffer of the output window, through which its contents are stated (the choice does not matter). -/
abbrev VO1_9 : View sig .tc .vmem S64x10 .f32 := (Memref.whole cc1_stg9_0 : Memref sig .tc .vmem S64x10 .f32).view
abbrev ms1_0 (t : Fin cfg1.N) : Memref sig .tc .vmem S2000x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2000x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S2000x1 .i32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S128x10 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x10 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S64x10 .f32 := win1_9.stage (cfg1.slots t 9)
abbrev hs1_9 (t : Fin cfg1.N) : (ms1_9 t).IsWhole := hstage1_9 ((cfg1.slots t 9).cast nbuf1_9)
/-- The scratch operand: a whole scoped buffer of the kernel's own, passed beside the windows. -/
abbrev scM1_0 : Memref sig .tc .vmem S64x128 .f32 := Memref.whole cc1_scratch0
/-- The scratch the kernel carries between points, as a view: what it holds is stated through it. -/
abbrev VS1_0 : View sig .tc .vmem S64x128 .f32 := scM1_0.view

/-- The region's invariant with the scratch operand as a memref owned at some contents: the other region's staging
    buffers at anything, the scratch, the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ d, owns (c : Thread nD τ) scM1_0 fullShare d)) ∗ (∃ r, prngReg c r)) := by
  unfold Pipeline.ΦA; rw [scopedRest1_eq]; simp only [scM1_0, owns_whole]; try rfl

end Region1

end Cert.KernelIdeal.Hand

end
-- ==== Proof.KI.R1RunA.lean ====
import proofs.«400679_j13889924235785_2_alg».proof.Proof.KI.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the FIRST grid point (the first conditional taken, the second not), on whole staging memrefs: the inputs' at
    their contents `x·`, the output's (idle here: nothing is stored into it) at contents `xi9` handed back untouched, the
    scratch at anything. The body runs to the continuation holding the inputs' as they were, the output's untouched, and the
    scratch with its stores written as pieces (last first): the zero fill, then the accumulated sum. The pieces are the body's stores, last first. -/
noncomputable def kernelRun1_A (c : Dev nD) (i : grid1.Coords) (arg1 : Memref sig .tc .vmem S2000x128 .bf16) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x1 .i32) (harg7 : arg7.IsWhole) (arg8 : Memref sig .tc .vmem S128x10 .f32) (harg8 : arg8.IsWhole) (arg9 : Memref sig .tc .vmem S1x10 .f32) (harg9 : arg9.IsWhole) (arg10 : Memref sig .tc .vmem S64x10 .f32) (harg10 : arg10.IsWhole) (arg11 : Memref sig .tc .vmem S64x128 .f32) (harg11 : arg11.IsWhole) (hc0 : cond1_0 i) (hc1 : ¬cond1_1 i)
    (x0 : Vec F S2000x128 .bf16) (x1 : Vec F S2000x128 .f32) (x2 : Vec F S128x128 .f32) (x3 : Vec F S1x128 .f32) (x4 : Vec F S128x128 .f32) (x5 : Vec F S1x128 .f32) (x6 : Vec F S2000x1 .i32) (x7 : Vec F S128x10 .f32) (x8 : Vec F S1x10 .f32) :
    Σ' (L9 : List (View.Piece (Elt F) S64x10 .f32)), { LS0 : List (View.Piece (Elt F) S64x128 .f32) //
      ∀ (xi9 : Vec F S64x10 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ (∃ f, arg11.view.loc (c : Thread nD τ) ↦[arg11.view.set]{fullShare} arg11.view.writes (Elt F) f LS0)) -∗ K ⟨⟩))
          ⊢ wp frame (wpE (defs₀ (F := F)) Variants.none c none) E (cc1__conv2_pool_kernel i arg1 harg1 arg2 harg2 arg3 harg3 arg4 harg4 arg5 harg5 arg6 harg6 arg7 harg7 arg8 harg8 arg9 harg9 arg10 harg10 arg11 harg11) K } := by
  refine ⟨[], ?_, fun xi9 E K => ?run⟩
  case run =>
    simp only [cc1__conv2_pool_kernel_eq_skeleton]; unfold cc1__conv2_pool_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    iexists _; iexact HS0

end Cert.KernelIdeal.Hand

end
-- ==== Proof.KI.R1RunB.lean ====
import proofs.«400679_j13889924235785_2_alg».proof.Proof.KI.R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a MIDDLE grid point (neither conditional taken), on whole staging memrefs: the inputs' at their contents
    `x·`, the output's (idle here) at contents `xi9` handed back untouched, the scratch at what the point before left
    (`xs0`). The body runs to the continuation holding the inputs' as they were, the output's untouched, and the scratch
    with its one store (the accumulated sum) written as a piece. The pieces are the body's stores, last first. -/
noncomputable def kernelRun1_B (c : Dev nD) (i : grid1.Coords) (arg1 : Memref sig .tc .vmem S2000x128 .bf16) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x1 .i32) (harg7 : arg7.IsWhole) (arg8 : Memref sig .tc .vmem S128x10 .f32) (harg8 : arg8.IsWhole) (arg9 : Memref sig .tc .vmem S1x10 .f32) (harg9 : arg9.IsWhole) (arg10 : Memref sig .tc .vmem S64x10 .f32) (harg10 : arg10.IsWhole) (arg11 : Memref sig .tc .vmem S64x128 .f32) (harg11 : arg11.IsWhole) (hc0 : ¬cond1_0 i) (hc1 : ¬cond1_1 i)
    (x0 : Vec F S2000x128 .bf16) (x1 : Vec F S2000x128 .f32) (x2 : Vec F S128x128 .f32) (x3 : Vec F S1x128 .f32) (x4 : Vec F S128x128 .f32) (x5 : Vec F S1x128 .f32) (x6 : Vec F S2000x1 .i32) (x7 : Vec F S128x10 .f32) (x8 : Vec F S1x10 .f32) (xs0 : Vec F S64x128 .f32) :
    Σ' (L9 : List (View.Piece (Elt F) S64x10 .f32)), { LS0 : List (View.Piece (Elt F) S64x128 .f32) //
      ∀ (xi9 : Vec F S64x10 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ owns (c : Thread nD τ) arg11 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ (∃ f, arg11.view.loc (c : Thread nD τ) ↦[arg11.view.set]{fullShare} arg11.view.writes (Elt F) f LS0)) -∗ K ⟨⟩))
          ⊢ wp frame (wpE (defs₀ (F := F)) Variants.none c none) E (cc1__conv2_pool_kernel i arg1 harg1 arg2 harg2 arg3 harg3 arg4 harg4 arg5 harg5 arg6 harg6 arg7 harg7 arg8 harg8 arg9 harg9 arg10 harg10 arg11 harg11) K } := by
  refine ⟨[], ?_, fun xi9 E K => ?run⟩
  case run =>
    simp only [cc1__conv2_pool_kernel_eq_skeleton]; unfold cc1__conv2_pool_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    iexists _; iexact HS0

end Cert.KernelIdeal.Hand

end
-- ==== Proof.KI.R1RunC.lean ====
import proofs.«400679_j13889924235785_2_alg».proof.Proof.KI.R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the LAST grid point (the second conditional taken, the first not), on whole staging memrefs: the inputs'
    at their contents `x·`, the output's at anything, the scratch at what the point before left (`xs0`). The body runs to
    the continuation holding the inputs' as they were, the output's with its store (the classifier applied to the scratch)
    written as a piece, and the scratch with its store (the accumulated sum) written as a piece. The pieces are the body's stores, last first. -/
noncomputable def kernelRun1_C (c : Dev nD) (i : grid1.Coords) (arg1 : Memref sig .tc .vmem S2000x128 .bf16) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x1 .i32) (harg7 : arg7.IsWhole) (arg8 : Memref sig .tc .vmem S128x10 .f32) (harg8 : arg8.IsWhole) (arg9 : Memref sig .tc .vmem S1x10 .f32) (harg9 : arg9.IsWhole) (arg10 : Memref sig .tc .vmem S64x10 .f32) (harg10 : arg10.IsWhole) (arg11 : Memref sig .tc .vmem S64x128 .f32) (harg11 : arg11.IsWhole) (hc0 : ¬cond1_0 i) (hc1 : cond1_1 i)
    (x0 : Vec F S2000x128 .bf16) (x1 : Vec F S2000x128 .f32) (x2 : Vec F S128x128 .f32) (x3 : Vec F S1x128 .f32) (x4 : Vec F S128x128 .f32) (x5 : Vec F S1x128 .f32) (x6 : Vec F S2000x1 .i32) (x7 : Vec F S128x10 .f32) (x8 : Vec F S1x10 .f32) (xs0 : Vec F S64x128 .f32) :
    Σ' (L9 : List (View.Piece (Elt F) S64x10 .f32)), { LS0 : List (View.Piece (Elt F) S64x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f LS0)) -∗ K ⟨⟩))
          ⊢ wp frame (wpE (defs₀ (F := F)) Variants.none c none) E (cc1__conv2_pool_kernel i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc1__conv2_pool_kernel_eq_skeleton]; unfold cc1__conv2_pool_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    iexists _; iexact HS0

end Cert.KernelIdeal.Hand

end
-- ==== Proof.KI.R1.lean ====
import proofs.«400679_j13889924235785_2_alg».proof.Proof.KI.R1RunC
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-! ## What each case leaves in the output window and in the scratch -/

/-- At the first point the body stores nothing into the output window (it is idle there and not written back):
    a placeholder (junk read back) that nothing consults. -/
def out1_A_9 (c : Dev nD) (i : grid1.Coords) (arg1 : Memref sig .tc .vmem S2000x128 .bf16) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x1 .i32) (harg7 : arg7.IsWhole) (arg8 : Memref sig .tc .vmem S128x10 .f32) (harg8 : arg8.IsWhole) (arg9 : Memref sig .tc .vmem S1x10 .f32) (harg9 : arg9.IsWhole) (arg10 : Memref sig .tc .vmem S64x10 .f32) (harg10 : arg10.IsWhole) (arg11 : Memref sig .tc .vmem S64x128 .f32) (harg11 : arg11.IsWhole) (hc0 : cond1_0 i) (hc1 : ¬cond1_1 i)
    (x0 : Vec F S2000x128 .bf16) (x1 : Vec F S2000x128 .f32) (x2 : Vec F S128x128 .f32) (x3 : Vec F S1x128 .f32) (x4 : Vec F S128x128 .f32) (x5 : Vec F S1x128 .f32) (x6 : Vec F S2000x1 .i32) (x7 : Vec F S128x10 .f32) (x8 : Vec F S1x10 .f32) : Vec F S64x10 .f32 :=
  VO1_9.read (Elt F) (VO1_9.writes (Elt F) VO1_9.junk (kernelRun1_A c i arg1 harg1 arg2 harg2 arg3 harg3 arg4 harg4 arg5 harg5 arg6 harg6 arg7 harg7 arg8 harg8 arg9 harg9 arg10 harg10 arg11 harg11 hc0 hc1 x0 x1 x2 x3 x4 x5 x6 x7 x8).1)

/-- The stores of the first point into the scratch the kernel carries between points cover it. -/
theorem scover1_A_0 (c : Dev nD) (i : grid1.Coords) (arg1 : Memref sig .tc .vmem S2000x128 .bf16) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x1 .i32) (harg7 : arg7.IsWhole) (arg8 : Memref sig .tc .vmem S128x10 .f32) (harg8 : arg8.IsWhole) (arg9 : Memref sig .tc .vmem S1x10 .f32) (harg9 : arg9.IsWhole) (arg10 : Memref sig .tc .vmem S64x10 .f32) (harg10 : arg10.IsWhole) (arg11 : Memref sig .tc .vmem S64x128 .f32) (harg11 : arg11.IsWhole) (hc0 : cond1_0 i) (hc1 : ¬cond1_1 i)
    (x0 : Vec F S2000x128 .bf16) (x1 : Vec F S2000x128 .f32) (x2 : Vec F S128x128 .f32) (x3 : Vec F S1x128 .f32) (x4 : Vec F S128x128 .f32) (x5 : Vec F S1x128 .f32) (x6 : Vec F S2000x1 .i32) (x7 : Vec F S128x10 .f32) (x8 : Vec F S1x10 .f32) (y : S64x128.Idx) :
    ∃ pc ∈ (kernelRun1_A c i arg1 harg1 arg2 harg2 arg3 harg3 arg4 harg4 arg5 harg5 arg6 harg6 arg7 harg7 arg8 harg8 arg9 harg9 arg10 harg10 arg11 harg11 hc0 hc1 x0 x1 x2 x3 x4 x5 x6 x7 x8).2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 hc0 hc1 x0 x1 x2 x3 x4 x5 x6 x7 x8).2.1 S64x128.size (by sl_kernel_rfl) y

/-- What the first point leaves in the carried scratch: its pieces read back over junk. -/
def sout1_A_0 (c : Dev nD) (i : grid1.Coords) (arg1 : Memref sig .tc .vmem S2000x128 .bf16) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x1 .i32) (harg7 : arg7.IsWhole) (arg8 : Memref sig .tc .vmem S128x10 .f32) (harg8 : arg8.IsWhole) (arg9 : Memref sig .tc .vmem S1x10 .f32) (harg9 : arg9.IsWhole) (arg10 : Memref sig .tc .vmem S64x10 .f32) (harg10 : arg10.IsWhole) (arg11 : Memref sig .tc .vmem S64x128 .f32) (harg11 : arg11.IsWhole) (hc0 : cond1_0 i) (hc1 : ¬cond1_1 i)
    (x0 : Vec F S2000x128 .bf16) (x1 : Vec F S2000x128 .f32) (x2 : Vec F S128x128 .f32) (x3 : Vec F S1x128 .f32) (x4 : Vec F S128x128 .f32) (x5 : Vec F S1x128 .f32) (x6 : Vec F S2000x1 .i32) (x7 : Vec F S128x10 .f32) (x8 : Vec F S1x10 .f32) : Vec F S64x128 .f32 :=
  VS1_0.read (Elt F) (VS1_0.writes (Elt F) VS1_0.junk (kernelRun1_A c i arg1 harg1 arg2 harg2 arg3 harg3 arg4 harg4 arg5 harg5 arg6 harg6 arg7 harg7 arg8 harg8 arg9 harg9 arg10 harg10 arg11 harg11 hc0 hc1 x0 x1 x2 x3 x4 x5 x6 x7 x8).2.1)

/-- At a middle point the body stores nothing into the output window (it is idle there and not written back):
    a placeholder (junk read back) that nothing consults. -/
def out1_B_9 (c : Dev nD) (i : grid1.Coords) (arg1 : Memref sig .tc .vmem S2000x128 .bf16) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x1 .i32) (harg7 : arg7.IsWhole) (arg8 : Memref sig .tc .vmem S128x10 .f32) (harg8 : arg8.IsWhole) (arg9 : Memref sig .tc .vmem S1x10 .f32) (harg9 : arg9.IsWhole) (arg10 : Memref sig .tc .vmem S64x10 .f32) (harg10 : arg10.IsWhole) (arg11 : Memref sig .tc .vmem S64x128 .f32) (harg11 : arg11.IsWhole) (hc0 : ¬cond1_0 i) (hc1 : ¬cond1_1 i)
    (x0 : Vec F S2000x128 .bf16) (x1 : Vec F S2000x128 .f32) (x2 : Vec F S128x128 .f32) (x3 : Vec F S1x128 .f32) (x4 : Vec F S128x128 .f32) (x5 : Vec F S1x128 .f32) (x6 : Vec F S2000x1 .i32) (x7 : Vec F S128x10 .f32) (x8 : Vec F S1x10 .f32) (xs0 : Vec F S64x128 .f32) : Vec F S64x10 .f32 :=
  VO1_9.read (Elt F) (VO1_9.writes (Elt F) VO1_9.junk (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0).1)

/-- The stores of a middle point into the scratch the kernel carries between points cover it. -/
theorem scover1_B_0 (c : Dev nD) (i : grid1.Coords) (arg1 : Memref sig .tc .vmem S2000x128 .bf16) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x1 .i32) (harg7 : arg7.IsWhole) (arg8 : Memref sig .tc .vmem S128x10 .f32) (harg8 : arg8.IsWhole) (arg9 : Memref sig .tc .vmem S1x10 .f32) (harg9 : arg9.IsWhole) (arg10 : Memref sig .tc .vmem S64x10 .f32) (harg10 : arg10.IsWhole) (arg11 : Memref sig .tc .vmem S64x128 .f32) (harg11 : arg11.IsWhole) (hc0 : ¬cond1_0 i) (hc1 : ¬cond1_1 i)
    (x0 : Vec F S2000x128 .bf16) (x1 : Vec F S2000x128 .f32) (x2 : Vec F S128x128 .f32) (x3 : Vec F S1x128 .f32) (x4 : Vec F S128x128 .f32) (x5 : Vec F S1x128 .f32) (x6 : Vec F S2000x1 .i32) (x7 : Vec F S128x10 .f32) (x8 : Vec F S1x10 .f32) (xs0 : Vec F S64x128 .f32) (y : S64x128.Idx) :
    ∃ pc ∈ (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0).2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0).2.1 S64x128.size (by sl_kernel_rfl) y

/-- What a middle point leaves in the carried scratch: its pieces read back over junk. -/
def sout1_B_0 (c : Dev nD) (i : grid1.Coords) (arg1 : Memref sig .tc .vmem S2000x128 .bf16) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x1 .i32) (harg7 : arg7.IsWhole) (arg8 : Memref sig .tc .vmem S128x10 .f32) (harg8 : arg8.IsWhole) (arg9 : Memref sig .tc .vmem S1x10 .f32) (harg9 : arg9.IsWhole) (arg10 : Memref sig .tc .vmem S64x10 .f32) (harg10 : arg10.IsWhole) (arg11 : Memref sig .tc .vmem S64x128 .f32) (harg11 : arg11.IsWhole) (hc0 : ¬cond1_0 i) (hc1 : ¬cond1_1 i)
    (x0 : Vec F S2000x128 .bf16) (x1 : Vec F S2000x128 .f32) (x2 : Vec F S128x128 .f32) (x3 : Vec F S1x128 .f32) (x4 : Vec F S128x128 .f32) (x5 : Vec F S1x128 .f32) (x6 : Vec F S2000x1 .i32) (x7 : Vec F S128x10 .f32) (x8 : Vec F S1x10 .f32) (xs0 : Vec F S64x128 .f32) : Vec F S64x128 .f32 :=
  VS1_0.read (Elt F) (VS1_0.writes (Elt F) VS1_0.junk (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0).2.1)

/-- At the last point the body's one store into the output window covers its block. -/
theorem cover1_C_9 (c : Dev nD) (i : grid1.Coords) (arg1 : Memref sig .tc .vmem S2000x128 .bf16) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x1 .i32) (harg7 : arg7.IsWhole) (arg8 : Memref sig .tc .vmem S128x10 .f32) (harg8 : arg8.IsWhole) (arg9 : Memref sig .tc .vmem S1x10 .f32) (harg9 : arg9.IsWhole) (arg10 : Memref sig .tc .vmem S64x10 .f32) (harg10 : arg10.IsWhole) (arg11 : Memref sig .tc .vmem S64x128 .f32) (harg11 : arg11.IsWhole) (hc0 : ¬cond1_0 i) (hc1 : cond1_1 i)
    (x0 : Vec F S2000x128 .bf16) (x1 : Vec F S2000x128 .f32) (x2 : Vec F S128x128 .f32) (x3 : Vec F S1x128 .f32) (x4 : Vec F S128x128 .f32) (x5 : Vec F S1x128 .f32) (x6 : Vec F S2000x1 .i32) (x7 : Vec F S128x10 .f32) (x8 : Vec F S1x10 .f32) (xs0 : Vec F S64x128 .f32) (y : S64x10.Idx) :
    ∃ pc ∈ (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0).1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0).1 S64x10.size (by sl_kernel_rfl) y

/-- What the last point leaves in the output window's staging buffer: its pieces read back over junk. -/
def out1_C_9 (c : Dev nD) (i : grid1.Coords) (arg1 : Memref sig .tc .vmem S2000x128 .bf16) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x1 .i32) (harg7 : arg7.IsWhole) (arg8 : Memref sig .tc .vmem S128x10 .f32) (harg8 : arg8.IsWhole) (arg9 : Memref sig .tc .vmem S1x10 .f32) (harg9 : arg9.IsWhole) (arg10 : Memref sig .tc .vmem S64x10 .f32) (harg10 : arg10.IsWhole) (arg11 : Memref sig .tc .vmem S64x128 .f32) (harg11 : arg11.IsWhole) (hc0 : ¬cond1_0 i) (hc1 : cond1_1 i)
    (x0 : Vec F S2000x128 .bf16) (x1 : Vec F S2000x128 .f32) (x2 : Vec F S128x128 .f32) (x3 : Vec F S1x128 .f32) (x4 : Vec F S128x128 .f32) (x5 : Vec F S1x128 .f32) (x6 : Vec F S2000x1 .i32) (x7 : Vec F S128x10 .f32) (x8 : Vec F S1x10 .f32) (xs0 : Vec F S64x128 .f32) : Vec F S64x10 .f32 :=
  VO1_9.read (Elt F) (VO1_9.writes (Elt F) VO1_9.junk (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0).1)

/-- The stores of the last point into the scratch the kernel carries between points cover it. -/
theorem scover1_C_0 (c : Dev nD) (i : grid1.Coords) (arg1 : Memref sig .tc .vmem S2000x128 .bf16) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x1 .i32) (harg7 : arg7.IsWhole) (arg8 : Memref sig .tc .vmem S128x10 .f32) (harg8 : arg8.IsWhole) (arg9 : Memref sig .tc .vmem S1x10 .f32) (harg9 : arg9.IsWhole) (arg10 : Memref sig .tc .vmem S64x10 .f32) (harg10 : arg10.IsWhole) (arg11 : Memref sig .tc .vmem S64x128 .f32) (harg11 : arg11.IsWhole) (hc0 : ¬cond1_0 i) (hc1 : cond1_1 i)
    (x0 : Vec F S2000x128 .bf16) (x1 : Vec F S2000x128 .f32) (x2 : Vec F S128x128 .f32) (x3 : Vec F S1x128 .f32) (x4 : Vec F S128x128 .f32) (x5 : Vec F S1x128 .f32) (x6 : Vec F S2000x1 .i32) (x7 : Vec F S128x10 .f32) (x8 : Vec F S1x10 .f32) (xs0 : Vec F S64x128 .f32) (y : S64x128.Idx) :
    ∃ pc ∈ (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0).2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0).2.1 S64x128.size (by sl_kernel_rfl) y

/-- What the last point leaves in the carried scratch: its pieces read back over junk. -/
def sout1_C_0 (c : Dev nD) (i : grid1.Coords) (arg1 : Memref sig .tc .vmem S2000x128 .bf16) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x1 .i32) (harg7 : arg7.IsWhole) (arg8 : Memref sig .tc .vmem S128x10 .f32) (harg8 : arg8.IsWhole) (arg9 : Memref sig .tc .vmem S1x10 .f32) (harg9 : arg9.IsWhole) (arg10 : Memref sig .tc .vmem S64x10 .f32) (harg10 : arg10.IsWhole) (arg11 : Memref sig .tc .vmem S64x128 .f32) (harg11 : arg11.IsWhole) (hc0 : ¬cond1_0 i) (hc1 : cond1_1 i)
    (x0 : Vec F S2000x128 .bf16) (x1 : Vec F S2000x128 .f32) (x2 : Vec F S128x128 .f32) (x3 : Vec F S1x128 .f32) (x4 : Vec F S128x128 .f32) (x5 : Vec F S1x128 .f32) (x6 : Vec F S2000x1 .i32) (x7 : Vec F S128x10 .f32) (x8 : Vec F S1x10 .f32) (xs0 : Vec F S64x128 .f32) : Vec F S64x128 .f32 :=
  VS1_0.read (Elt F) (VS1_0.writes (Elt F) VS1_0.junk (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0).2.1)

/-! ## What the output window and the scratch hold after each point -/

/-- THE ACCUMULATION. What the output window's staging buffer and the carried scratch hold after the body at position `n`
    (a pair: the output, then the scratch): the case the closed forms select at `n`, run at the point's memrefs and input
    blocks, the scratch read at what the position before left. -/
def outsAt1 (c : Dev nD) : (n : ℕ) → n < cfg1.N → Vec F S64x10 .f32 × Vec F S64x128 .f32
  | 0, hn => (out1_A_9 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩))
  | n + 1, hn =>
    if h0 : (n + 1) % 25 = 0 then
      if h1 : (n + 1) % 25 = 24 then
        False.elim (by omega)
      else
        (out1_A_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩))
    else
      if h1 : (n + 1) % 25 = 24 then
        (out1_C_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2)
      else
        (out1_B_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2)

/-- `outsAt1` at the first point: that case's contents. -/
theorem outsAt1_A (c : Dev nD) (t : Fin cfg1.N) (h0 : t.val % 25 = 0) (h1 : ¬t.val % 25 = 24) :
    outsAt1 V c t.val t.isLt = (out1_A_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t)) := by
  obtain ⟨n, hn⟩ := t
  cases n with
  | zero => exact rfl
  | succ n => exact (dif_pos h0).trans ((dif_neg h1).trans rfl)

/-- `outsAt1` at a middle point: that case's contents, over what the point before left. -/
theorem outsAt1_B (c : Dev nD) (t : Fin cfg1.N) (h0 : ¬t.val % 25 = 0) (h1 : ¬t.val % 25 = 24) :
    outsAt1 V c t.val t.isLt = (out1_B_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at the last point: that case's contents, over what the point before left. -/
theorem outsAt1_C (c : Dev nD) (t : Fin cfg1.N) (h0 : ¬t.val % 25 = 0) (h1 : t.val % 25 = 24) :
    outsAt1 V c t.val t.isLt = (out1_C_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer that is no
    staging buffer of this region at anything, the generator register at some state); afterwards the same with the carried
    scratch at what the point before left in it. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the carried scratch at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1_0 fullShare ((outsAt1 V c n hn).2)) ∗ (∃ r, prngReg c r)) := rfl

/-- Before a point that is not the first: the carried scratch at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of the pipeline on core `c`: the arrays as the region finds them (`V`); after the body at point `t`
    each input's buffer at its block and the output's at `outsAt1`'s first component; the invariant `PhiS1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t)

set_option maxHeartbeats 8000000 in
/-- The body at any point: the inputs' memrefs hold their blocks; the closed forms say which case the point is in; so that
    case's run applies; the invariant hands the body the carried scratch at what the point before left (at anything at the
    first point) together with the other scoped buffers and the generator register, and takes the scratch back at this
    point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).owesAt () t.succ = (dat1 V c).owesAt () t.castSucc from rfl]
  rw [show (dat1 V c).Φ t.succ = PhiS1 V c (t.val + 1) t.isLt from rfl, PhiS1_succ]
  have hN : t.val < 25 := lt_of_lt_of_eq t.isLt (show cfg1.N = 25 from N_1)
  by_cases h0 : t.val % 25 = 0
  · by_cases h1 : t.val % 25 = 24
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [show (dat1 V c).leavesExact 8 t = owns (c : Thread nD τ) (ms1_8 t) fullShare ((dat1 V c).after 8 t) from by
        unfold Dat.leavesExact; rw [liveAt1_8 t], after1_8]
      rw [Dat.leavesExact_idle (dat1 V c) 9 t (idleAt1_9_A t ((hcond1_0 t).mpr h0) (fun h => h1 ((hcond1_1 t).mp h))) (noFlush1_9_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HR0, HR1, HR2, HR3, HR4, HR5, HR6, HR7, HR8, HR9, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun1_A c (grid1.coords t) _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexact HS0
        iintro ⟨H0, H1, H2, H3, H4, H5, H6, H7, H8, H9, ⟨%es0, HS0⟩⟩
        isplitl [HR0 HR1 HR2 HR3 HR4 HR5 HR6 HR7 HR8 HR9 HS0 Hg]
        · isplitl [HR0 HR1 HR2 HR3 HR4 HR5 HR6 HR7 HR8 HR9 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexists _; iexact H9
      · exfalso; omega
  · by_cases h1 : t.val % 25 = 24
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [show (dat1 V c).leavesExact 8 t = owns (c : Thread nD τ) (ms1_8 t) fullShare ((dat1 V c).after 8 t) from by
        unfold Dat.leavesExact; rw [liveAt1_8 t], after1_8]
      rw [show (dat1 V c).leavesExact 9 t = owns (c : Thread nD τ) (ms1_9 t) fullShare ((dat1 V c).after 9 t) from by
        unfold Dat.leavesExact; rw [liveAt1_9_C t (fun h => h0 ((hcond1_0 t).mp h)) ((hcond1_1 t).mpr h1)], after1_9]
      rw [outsAt1_C V c t h0 h1]
      unfold out1_C_9 sout1_C_0; (try dsimp only)
      by_cases hz : t.val = 0
      · exfalso; omega
      · rw [PhiS1_castSucc V c t, PhiS1_pos V c _ _ hz]
        iintro ⟨⟨⟨HR0, HR1, HR2, HR3, HR4, HR5, HR6, HR7, HR8, HR9, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun1_C c (grid1.coords t) _ _ _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [HS0]; · iexact HS0
        iintro ⟨H0, H1, H2, H3, H4, H5, H6, H7, H8, ⟨%e9, H9⟩, ⟨%es0, HS0⟩⟩
        isplitl [HR0 HR1 HR2 HR3 HR4 HR5 HR6 HR7 HR8 HR9 HS0 Hg]
        · isplitl [HR0 HR1 HR2 HR3 HR4 HR5 HR6 HR7 HR8 HR9 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            unfold owns; iexists _; isplitr
            swap; · iexact HS0
            ipureintro; exact View.read_writes_of_cover _ _ _ _ _ (scover1_C_0 c _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        unfold owns; iexists _; isplitr
        swap; · iexact H9
        ipureintro; exact View.read_writes_of_cover _ _ _ _ _ (cover1_C_9 c _ _ _ _ _ _ _ _ _ _ _ _ _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [show (dat1 V c).leavesExact 8 t = owns (c : Thread nD τ) (ms1_8 t) fullShare ((dat1 V c).after 8 t) from by
        unfold Dat.leavesExact; rw [liveAt1_8 t], after1_8]
      rw [Dat.leavesExact_idle (dat1 V c) 9 t (idleAt1_9_B t (fun h => h0 ((hcond1_0 t).mp h)) (fun h => h1 ((hcond1_1 t).mp h))) (noFlush1_9_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HR0, HR1, HR2, HR3, HR4, HR5, HR6, HR7, HR8, HR9, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun1_B c (grid1.coords t) _ _ _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexact HS0
        iintro ⟨H0, H1, H2, H3, H4, H5, H6, H7, H8, H9, ⟨%es0, HS0⟩⟩
        isplitl [HR0 HR1 HR2 HR3 HR4 HR5 HR6 HR7 HR8 HR9 HS0 Hg]
        · isplitl [HR0 HR1 HR2 HR3 HR4 HR5 HR6 HR7 HR8 HR9 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            unfold owns; iexists _; isplitr
            swap; · iexact HS0
            ipureintro; exact View.read_writes_of_cover _ _ _ _ _ (scover1_B_0 c _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexists _; iexact H9

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the carried scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR0, HR1, HR2, HR3, HR4, HR5, HR6, HR7, HR8, HR9, HS0⟩, Hg⟩
  isplitl [HR0 HR1 HR2 HR3 HR4 HR5 HR6 HR7 HR8 HR9 HS0]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 25 := N_1; omega)

/-! ## What each case's pieces read as: the payloads of the body's covering stores -/

/-- The zero offsets of a whole-buffer access, however spelt, are the constant zero. -/
theorem hz2 : (![0, 0] : Fin 2 → Nat) = fun _ => 0 := funext fun a => by fin_cases a <;> rfl

/-- At the first point the scratch ends at the pooled block added to the zero fill: of its two stores the later one
    covers, and its read-back of the scratch reads the zero fill. -/
theorem sout1_A_0_eq (c : Dev nD) (i : grid1.Coords) (arg1 : Memref sig .tc .vmem S2000x128 .bf16) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x1 .i32) (harg7 : arg7.IsWhole) (arg8 : Memref sig .tc .vmem S128x10 .f32) (harg8 : arg8.IsWhole) (arg9 : Memref sig .tc .vmem S1x10 .f32) (harg9 : arg9.IsWhole) (arg10 : Memref sig .tc .vmem S64x10 .f32) (harg10 : arg10.IsWhole) (arg11 : Memref sig .tc .vmem S64x128 .f32) (harg11 : arg11.IsWhole) (hc0 : cond1_0 i) (hc1 : ¬cond1_1 i)
    (x0 : Vec F S2000x128 .bf16) (x1 : Vec F S2000x128 .f32) (x2 : Vec F S128x128 .f32) (x3 : Vec F S1x128 .f32) (x4 : Vec F S128x128 .f32) (x5 : Vec F S1x128 .f32) (x6 : Vec F S2000x1 .i32) (x7 : Vec F S128x10 .f32) (x8 : Vec F S1x10 .f32) :
    sout1_A_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 = k1_pay1 (k1_pay4 x6) (k1_pay5 x0 x1 x2 x4 x3 x5) (k1_pay3 (F := F)) := by
  unfold sout1_A_0
  rw [View.read_writes_eq_canon _ _ _ (scover1_A_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8)]
  unfold kernelRun1_A
  dsimp only
  sl_unfold_words
  rw [View.canon_cons_unit_zero (S := S64x128) hz2, View.readCov_unit_zero (S := S64x128) _ hz2]
  simp only [View.readAt_eq_ld, harg1.read_unread, harg2.read_unread, harg3.read_unread, harg4.read_unread, harg5.read_unread, harg6.read_unread, harg7.read_unread, View.ld_unit_zero (S := S2000x128) hz2, View.ld_unit_zero (S := S128x128) hz2, View.ld_unit_zero (S := S1x128) hz2, View.ld_unit_zero (S := S2000x1) hz2]

/-- At a middle point the scratch ends at the pooled block added to what the point before left: one covering store. -/
theorem sout1_B_0_eq (c : Dev nD) (i : grid1.Coords) (arg1 : Memref sig .tc .vmem S2000x128 .bf16) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x1 .i32) (harg7 : arg7.IsWhole) (arg8 : Memref sig .tc .vmem S128x10 .f32) (harg8 : arg8.IsWhole) (arg9 : Memref sig .tc .vmem S1x10 .f32) (harg9 : arg9.IsWhole) (arg10 : Memref sig .tc .vmem S64x10 .f32) (harg10 : arg10.IsWhole) (arg11 : Memref sig .tc .vmem S64x128 .f32) (harg11 : arg11.IsWhole) (hc0 : ¬cond1_0 i) (hc1 : ¬cond1_1 i)
    (x0 : Vec F S2000x128 .bf16) (x1 : Vec F S2000x128 .f32) (x2 : Vec F S128x128 .f32) (x3 : Vec F S1x128 .f32) (x4 : Vec F S128x128 .f32) (x5 : Vec F S1x128 .f32) (x6 : Vec F S2000x1 .i32) (x7 : Vec F S128x10 .f32) (x8 : Vec F S1x10 .f32) (xs0 : Vec F S64x128 .f32) :
    sout1_B_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0 = k1_pay1 (k1_pay4 x6) (k1_pay5 x0 x1 x2 x4 x3 x5) xs0 := by
  unfold sout1_B_0
  rw [View.read_writes_eq_canon _ _ _ (scover1_B_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0)]
  unfold kernelRun1_B
  dsimp only
  (try sl_unfold_words)
  rw [View.canon_unit_zero hz2]
  simp only [View.readAt_eq_ld, harg1.read_unread, harg2.read_unread, harg3.read_unread, harg4.read_unread, harg5.read_unread, harg6.read_unread, harg7.read_unread, View.ld_unit_zero (S := S2000x128) hz2, View.ld_unit_zero (S := S128x128) hz2, View.ld_unit_zero (S := S1x128) hz2, View.ld_unit_zero (S := S2000x1) hz2, harg11.read_unread, View.ld_unit_zero (S := S64x128) hz2]

/-- At the last point the scratch ends the same way: one covering store. -/
theorem sout1_C_0_eq (c : Dev nD) (i : grid1.Coords) (arg1 : Memref sig .tc .vmem S2000x128 .bf16) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x1 .i32) (harg7 : arg7.IsWhole) (arg8 : Memref sig .tc .vmem S128x10 .f32) (harg8 : arg8.IsWhole) (arg9 : Memref sig .tc .vmem S1x10 .f32) (harg9 : arg9.IsWhole) (arg10 : Memref sig .tc .vmem S64x10 .f32) (harg10 : arg10.IsWhole) (arg11 : Memref sig .tc .vmem S64x128 .f32) (harg11 : arg11.IsWhole) (hc0 : ¬cond1_0 i) (hc1 : cond1_1 i)
    (x0 : Vec F S2000x128 .bf16) (x1 : Vec F S2000x128 .f32) (x2 : Vec F S128x128 .f32) (x3 : Vec F S1x128 .f32) (x4 : Vec F S128x128 .f32) (x5 : Vec F S1x128 .f32) (x6 : Vec F S2000x1 .i32) (x7 : Vec F S128x10 .f32) (x8 : Vec F S1x10 .f32) (xs0 : Vec F S64x128 .f32) :
    sout1_C_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0 = k1_pay1 (k1_pay4 x6) (k1_pay5 x0 x1 x2 x4 x3 x5) xs0 := by
  unfold sout1_C_0
  rw [View.read_writes_eq_canon _ _ _ (scover1_C_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0)]
  unfold kernelRun1_C
  dsimp only
  (try sl_unfold_words)
  rw [View.canon_unit_zero hz2]
  simp only [View.readAt_eq_ld, harg1.read_unread, harg2.read_unread, harg3.read_unread, harg4.read_unread, harg5.read_unread, harg6.read_unread, harg7.read_unread, View.ld_unit_zero (S := S2000x128) hz2, View.ld_unit_zero (S := S128x128) hz2, View.ld_unit_zero (S := S1x128) hz2, View.ld_unit_zero (S := S2000x1) hz2, harg11.read_unread, View.ld_unit_zero (S := S64x128) hz2]

/-- At the last point the output block is the classifier applied to the scratch as that point leaves it: the body
    reads the scratch back after its store (a covered load: the store's payload). -/
theorem out1_C_9_eq (c : Dev nD) (i : grid1.Coords) (arg1 : Memref sig .tc .vmem S2000x128 .bf16) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x1 .i32) (harg7 : arg7.IsWhole) (arg8 : Memref sig .tc .vmem S128x10 .f32) (harg8 : arg8.IsWhole) (arg9 : Memref sig .tc .vmem S1x10 .f32) (harg9 : arg9.IsWhole) (arg10 : Memref sig .tc .vmem S64x10 .f32) (harg10 : arg10.IsWhole) (arg11 : Memref sig .tc .vmem S64x128 .f32) (harg11 : arg11.IsWhole) (hc0 : ¬cond1_0 i) (hc1 : cond1_1 i)
    (x0 : Vec F S2000x128 .bf16) (x1 : Vec F S2000x128 .f32) (x2 : Vec F S128x128 .f32) (x3 : Vec F S1x128 .f32) (x4 : Vec F S128x128 .f32) (x5 : Vec F S1x128 .f32) (x6 : Vec F S2000x1 .i32) (x7 : Vec F S128x10 .f32) (x8 : Vec F S1x10 .f32) (xs0 : Vec F S64x128 .f32) :
    out1_C_9 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0 = k1_pay2 (k1_pay1 (k1_pay4 x6) (k1_pay5 x0 x1 x2 x4 x3 x5) xs0) x7 x8 := by
  unfold out1_C_9
  rw [View.read_writes_eq_canon _ _ _ (cover1_C_9 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0)]
  unfold kernelRun1_C
  dsimp only
  (try sl_unfold_words)
  rw [View.canon_unit_zero hz2, View.readCov_unit_zero (S := S64x128) _ hz2]
  simp only [View.readAt_eq_ld, harg1.read_unread, harg2.read_unread, harg3.read_unread, harg4.read_unread, harg5.read_unread, harg6.read_unread, harg7.read_unread, View.ld_unit_zero (S := S2000x128) hz2, View.ld_unit_zero (S := S128x128) hz2, View.ld_unit_zero (S := S1x128) hz2, View.ld_unit_zero (S := S2000x1) hz2, harg8.read_unread, harg9.read_unread, harg11.read_unread, View.ld_unit_zero (S := S64x128) hz2, View.ld_unit_zero (S := S128x10) hz2, View.ld_unit_zero (S := S1x10) hz2]

/-! ## The scratch and the output after a point, as payloads of the blocks -/

/-- After the first point the scratch holds the first block's pooled sum over the zero fill. -/
theorem outsAt1_scratch_zero (c : Dev nD) (h0 : 0 < cfg1.N) :
    (outsAt1 V c 0 h0).2 = k1_pay1 (k1_pay4 (iblk1 V c 6 ⟨0, h0⟩)) (k1_pay5 (iblk1 V c 0 ⟨0, h0⟩) (iblk1 V c 1 ⟨0, h0⟩) (iblk1 V c 2 ⟨0, h0⟩) (iblk1 V c 4 ⟨0, h0⟩) (iblk1 V c 3 ⟨0, h0⟩) (iblk1 V c 5 ⟨0, h0⟩)) (k1_pay3 (F := F)) := by
  have h1 : ¬(⟨0, h0⟩ : Fin cfg1.N).val % 25 = 24 := by dsimp only; omega
  rw [outsAt1_A V c ⟨0, h0⟩ (Nat.zero_mod _) h1]
  dsimp only
  exact sout1_A_0_eq (F := F) c _ _ _ _ _ _ _ _ _ _ _ _ _ _ _ _ _ _ _ _ _ _ _ _ _ _ _ _ _ _ _ _ _ _

/-- After each later point it holds that point's pooled sum added to what the point before left. -/
theorem outsAt1_scratch_succ (c : Dev nD) (n : ℕ) (hn : n + 1 < cfg1.N) :
    (outsAt1 V c (n + 1) hn).2 = k1_pay1 (k1_pay4 (iblk1 V c 6 ⟨n + 1, hn⟩)) (k1_pay5 (iblk1 V c 0 ⟨n + 1, hn⟩) (iblk1 V c 1 ⟨n + 1, hn⟩) (iblk1 V c 2 ⟨n + 1, hn⟩) (iblk1 V c 4 ⟨n + 1, hn⟩) (iblk1 V c 3 ⟨n + 1, hn⟩) (iblk1 V c 5 ⟨n + 1, hn⟩)) (outsAt1 V c n (Nat.lt_of_succ_lt hn)).2 := by
  have hN : n + 1 < 25 := lt_of_lt_of_eq hn (show cfg1.N = 25 from N_1)
  have h0 : ¬(⟨n + 1, hn⟩ : Fin cfg1.N).val % 25 = 0 := by dsimp only; omega
  by_cases h1 : (⟨n + 1, hn⟩ : Fin cfg1.N).val % 25 = 24
  · rw [outsAt1_C V c ⟨n + 1, hn⟩ h0 h1]
    dsimp only
    exact sout1_C_0_eq (F := F) c _ _ _ _ _ _ _ _ _ _ _ _ _ _ _ _ _ _ _ _ _ _ _ _ _ _ _ _ _ _ _ _ _ _ _
  · rw [outsAt1_B V c ⟨n + 1, hn⟩ h0 h1]
    dsimp only
    exact sout1_B_0_eq (F := F) c _ _ _ _ _ _ _ _ _ _ _ _ _ _ _ _ _ _ _ _ _ _ _ _ _ _ _ _ _ _ _ _ _ _ _

/-- After the last point the output block is the classifier applied to the scratch as the last point leaves it. -/
theorem outsAt1_out_last (c : Dev nD) (h : 24 < cfg1.N) :
    (outsAt1 V c 24 h).1 = k1_pay2 (outsAt1 V c 24 h).2 (iblk1 V c 7 ⟨24, h⟩) (iblk1 V c 8 ⟨24, h⟩) := by
  have h0 : ¬(⟨24, h⟩ : Fin cfg1.N).val % 25 = 0 := by dsimp only; omega
  have h1 : (⟨24, h⟩ : Fin cfg1.N).val % 25 = 24 := rfl
  rw [outsAt1_C V c ⟨24, h⟩ h0 h1]
  dsimp only
  rw [out1_C_9_eq, sout1_C_0_eq]

end Region1

end Cert.KernelIdeal.Hand

end
-- ==== Proof.KI.Run.lean ====
/-
  The program's run as four items: a stretch of host operations, the first kernel region (the perceptron of layer one, tile
  by tile), a second stretch of host operations, the second kernel region (layer two, pooled tile by tile into running sums,
  then classified). Between two items every buffer the TensorCore shares with the host is held whole at a named valuation;
  beside them rides the generator register at some state and the fact that the core owes nothing. A region takes its
  windows' arrays out of that valuation, runs its pipeline on them, and puts them back at what the pipeline's write-backs
  leave: the inputs as they were, the one output array as written. Nothing here depends on the float instance.
-/
import proofs.«400679_j13889924235785_2_alg».proof.Proof.KI.R0
import proofs.«400679_j13889924235785_2_alg».proof.Proof.KI.R1
import proofs.«400679_j13889924235785_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffers' contents at the two regions -/

/-- The buffers as the first region finds them, read at the TensorCore's references. -/
abbrev E1 : (c : Dev nD) → (b : Ref sig .tc) → Buf (Elt F) ((c : Thread nD τ).loc b) := fun c b => V1 m c b

/-- What the first region leaves: its arrays after the write-backs of all its points, every other buffer as entered. -/
def X2 (c : Dev nD) : Valuation τ sig (Elt F) :=
  Pipeline.withArrays spec0 c (V1 m c) fun w => (dat0 (E1 m) c).arrAt w cfg0.N

/-- The first region's result as the later items read it. -/
def outsA : Outs (F := F) := fun _ r c => X2 m c (Proc.devRef .tc r)

/-- The buffers as the second region finds them. -/
abbrev E3 : (c : Dev nD) → (b : Ref sig .tc) → Buf (Elt F) ((c : Thread nD τ).loc b) := fun c b => V3 m (outsA m) c b

/-- What the second region leaves. -/
def X4 (c : Dev nD) : Valuation τ sig (Elt F) :=
  Pipeline.withArrays spec1 c (V3 m (outsA m) c) fun w => (dat1 (E3 m) c).arrAt w cfg1.N

/-- What the two regions leave in the buffers they may change: after the second region its result, before it the first's. -/
def outs : Outs (F := F) := fun n r c => if n = 4 then X4 m c (Proc.devRef .tc r) else X2 m c (Proc.devRef .tc r)

theorem outs_two (r : Ref sig .tc) (c : Dev nD) : outs m 2 r c = X2 m c (Proc.devRef .tc r) := if_neg (by decide)
theorem outs_four (r : Ref sig .tc) (c : Dev nD) : outs m 4 r c = X4 m c (Proc.devRef .tc r) := if_pos rfl

theorem X2_arr (c : Dev nD) (w : Fin cfg0.W) :
    X2 m c (Proc.devRef .tc (Pipeline.arrRef spec0 w)) = (dat0 (E1 m) c).arrAt w cfg0.N := by
  unfold X2; exact Pipeline.withArrays_arr spec0 launch0.win.arr_inj c _ _ w
theorem X4_arr (c : Dev nD) (w : Fin cfg1.W) :
    X4 m c (Proc.devRef .tc (Pipeline.arrRef spec1 w)) = (dat1 (E3 m) c).arrAt w cfg1.N := by
  unfold X4; exact Pipeline.withArrays_arr spec1 launch1.win.arr_inj c _ _ w

/-- The valuation after the first region does not depend on what the second leaves. -/
theorem V2_outs (c : Dev nD) : V2 m (outs m) c = V2 m (outsA m) c := by
  show Function.update (V1 m c) _ (outs m 2 main_v16 c) = Function.update (V1 m c) _ (outsA m 2 main_v16 c)
  rw [outs_two]; rfl
theorem V3_outs (c : Dev nD) : V3 m (outs m) c = V3 m (outsA m) c :=
  congrArg (StableHlo.after hostOps1) (V2_outs m c)

/-! ## The proof data of the two pipelines -/

/-- Each pipeline's proof data at its region's entry contents. -/
def pdats : (p : Fin 2) → (c : Dev nD) → Dat τ (Elt F) Unit ℕ (UR sig nD τ) ℕ (cfgs p) c
  | ⟨0, _⟩ => fun c => dat0 (E1 m) c
  | ⟨1, _⟩ => fun c => dat1 (E3 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers between items: the generator register at some state, and nothing owed. -/
abbrev R (c : Dev nD) : sProp 𝕄 := iprop((∃ r, prngReg c r) ∗ ∃ W, owes (c : Thread nD τ) (0 : CellTallies nD τ sig Unit) W)

/-! ## Each region's arrays at its exit -/

/-- After the first region each of its arrays holds what the pipeline leaves: an input what it held, the output what was written. -/
theorem hF0 (c : Dev nD) : ∀ w : Fin cfg0.W, (pdats m 0 c).arrAt w cfg0.N = V2 m (outs m) c (Pipeline.arrRef spec0 w)
  | ⟨0, _⟩ => ((dat0 (E1 m) c).arrAt_in 0 rfl _).trans ((A_eq0 (E1 m) c 0).trans (V2_of m (outs m) c _ (by decide)).symm)
  | ⟨1, _⟩ => ((dat0 (E1 m) c).arrAt_in 1 rfl _).trans ((A_eq0 (E1 m) c 1).trans (V2_of m (outs m) c _ (by decide)).symm)
  | ⟨2, _⟩ => ((dat0 (E1 m) c).arrAt_in 2 rfl _).trans ((A_eq0 (E1 m) c 2).trans (V2_of m (outs m) c _ (by decide)).symm)
  | ⟨3, _⟩ => ((dat0 (E1 m) c).arrAt_in 3 rfl _).trans ((A_eq0 (E1 m) c 3).trans (V2_of m (outs m) c _ (by decide)).symm)
  | ⟨4, _⟩ => ((dat0 (E1 m) c).arrAt_in 4 rfl _).trans ((A_eq0 (E1 m) c 4).trans (V2_of m (outs m) c _ (by decide)).symm)
  | ⟨5, _⟩ => ((dat0 (E1 m) c).arrAt_in 5 rfl _).trans ((A_eq0 (E1 m) c 5).trans (V2_of m (outs m) c _ (by decide)).symm)
  | ⟨6, _⟩ => by
    show _ = V2 m (outs m) c main_v16
    simp only [V2, Function.update_self, outs_two]
    exact (X2_arr m c 6).symm
  | ⟨_ + 7, h⟩ => absurd h (Nat.not_lt.2 (Nat.le_add_left _ _))
theorem hrest0 (c : Dev nD) : ∀ b, b ∉ Finset.univ.image (Pipeline.arrRef spec0) → V2 m (outs m) c b = V1 m c b :=
  fun b hb => V2_of m (outs m) c b fun h => hb (by
    rw [List.mem_singleton] at h; subst h
    exact Finset.mem_image.mpr ⟨6, Finset.mem_univ _, rfl⟩)

/-- The valuation after the second region, over the second region's own entry contents. -/
abbrev V4' (c : Dev nD) : Valuation τ sig (Elt F) := Function.update (V3 m (outsA m) c) main_v32 (X4 m c (Proc.devRef .tc main_v32))
theorem V4_outs (c : Dev nD) : V4 m (outs m) c = V4' m c := by
  show Function.update (V3 m (outs m) c) _ (outs m 4 main_v32 c) = _
  rw [V3_outs, outs_four]
theorem V4'_of (c : Dev nD) (r : Ref sig .tc) (h : r ∉ ([main_v32] : List (Ref sig .tc))) : V4' m c r = V3 m (outsA m) c r := by
  simp only [V4', Function.update_of_ne (StableHlo.devRef_ne_of_ne (List.ne_of_not_mem_cons h) : (Proc.devRef .tc r : DevRef τ sig) ≠ Proc.devRef .tc main_v32)]

set_option maxHeartbeats 2000000 in
theorem hF1 (c : Dev nD) : ∀ w : Fin cfg1.W, (pdats m 1 c).arrAt w cfg1.N = V4' m c (Pipeline.arrRef spec1 w)
  | ⟨0, _⟩ => ((dat1 (E3 m) c).arrAt_in 0 rfl _).trans ((A_eq1 (E3 m) c 0).trans (V4'_of m c _ (by decide)).symm)
  | ⟨1, _⟩ => ((dat1 (E3 m) c).arrAt_in 1 rfl _).trans ((A_eq1 (E3 m) c 1).trans (V4'_of m c _ (by decide)).symm)
  | ⟨2, _⟩ => ((dat1 (E3 m) c).arrAt_in 2 rfl _).trans ((A_eq1 (E3 m) c 2).trans (V4'_of m c _ (by decide)).symm)
  | ⟨3, _⟩ => ((dat1 (E3 m) c).arrAt_in 3 rfl _).trans ((A_eq1 (E3 m) c 3).trans (V4'_of m c _ (by decide)).symm)
  | ⟨4, _⟩ => ((dat1 (E3 m) c).arrAt_in 4 rfl _).trans ((A_eq1 (E3 m) c 4).trans (V4'_of m c _ (by decide)).symm)
  | ⟨5, _⟩ => ((dat1 (E3 m) c).arrAt_in 5 rfl _).trans ((A_eq1 (E3 m) c 5).trans (V4'_of m c _ (by decide)).symm)
  | ⟨6, _⟩ => ((dat1 (E3 m) c).arrAt_in 6 rfl _).trans ((A_eq1 (E3 m) c 6).trans (V4'_of m c _ (by decide)).symm)
  | ⟨7, _⟩ => ((dat1 (E3 m) c).arrAt_in 7 rfl _).trans ((A_eq1 (E3 m) c 7).trans (V4'_of m c _ (by decide)).symm)
  | ⟨8, _⟩ => ((dat1 (E3 m) c).arrAt_in 8 rfl _).trans ((A_eq1 (E3 m) c 8).trans (V4'_of m c _ (by decide)).symm)
  | ⟨9, _⟩ => by
    show _ = V4' m c main_v32
    simp only [V4', Function.update_self]
    exact (X4_arr m c 9).symm
  | ⟨_ + 10, h⟩ => absurd h (Nat.not_lt.2 (Nat.le_add_left _ _))
theorem hrest1 (c : Dev nD) : ∀ b, b ∉ Finset.univ.image (Pipeline.arrRef spec1) → V4' m c b = V3 m (outsA m) c b :=
  fun b hb => V4'_of m c b fun h => hb (by
    rw [List.mem_singleton] at h; subst h
    exact Finset.mem_image.mpr ⟨9, Finset.mem_univ _, rfl⟩)

/-! ## The regions as items of the run -/

set_option backward.isDefEq.respectTransparency.types false in
/-- The first region: entered with every shared buffer at the valuation after the first host stretch, left at that valuation
    updated at the output array. Its arrays are split out of the shared buffers and put back; the generator register goes
    into the pipeline's invariant and comes out; nothing is owed; the kernel has no semaphore of its own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (fun b => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region, in the same way: entered at the valuation after the second host stretch, left at it updated at the
    result array. Its invariant starts as the plain one and ends by giving the plain one back: the running sums kept in the
    kernel's scratch are named between the points and forgotten at the end. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (V3 m (outsA m) c) ∗ R c)
  post c := iprop(StableHlo.held (c : Thread nD τ) (Pipeline.ucRefs τ sig) (V4' m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E3 m) c)
    unfold Pipeline.ΦA
    iintro ⟨Hp, -, Hr⟩
    isplitl [Hr]; · iexact Hr
    iexact Hp
  hout c := by
    refine BIBase.Entails.trans (hout1 (E3 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (fun b => V4' m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## What the launch hands the first item, and what the last item ends with -/

/-- The launch element of the library yields itself and nothing else. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- On every core the launch's generator register and its empty debt are what rides beside the buffers. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

theorem hE2 (c : Dev nD) : R (F := F) c ⊢ (iprop(∃ W, owes (c : Thread nD τ) (0 : CellTallies nD τ sig Unit) W) : sProp 𝕄) := by
  iintro ⟨-, HO⟩; iexact HO

/-! ## The frame -/

set_option backward.isDefEq.respectTransparency.types false in
/-- Every weakly fair execution from a memory with zero counters terminates without a fault, and every argument array ends
    as launched: no host operation writes one and no region's write-backs touch one. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_cond m emb₁ () 𝒱₀ L lv (fun _ _ => rfl) ρ (outs m) (pdats m) 0 (fun _ => (BI.emp : sProp 𝕄))
    (initOf (Pipeline.cells cfgs cellOf_inj) (Pipeline.launchToks cfgs cellOf_inj)) hu₀ (fun _ c => R c) (hE0 ρ) (fun c => hE2 c)
    (reg0 m) (fun _ => .rfl) (fun _ => .rfl)
    (reg1 m) (fun c => by rw [V3_outs]; exact .rfl) (fun c => by rw [V4_outs]; exact .rfl)

end Cert.KernelIdeal.Hand

end
-- ==== Proof.KI.RunVal.lean ====
/-
  The same run, keeping one more fact: the result array ends holding what the second region's write-back leaves,
  the classifier's output block.
-/
import proofs.«400679_j13889924235785_2_alg».proof.Proof.KI.Run
import proofs.«400679_j13889924235785_2_alg».proof.Proof.KI.RunCond

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- The last valuation at the result array is what the second region leaves there. -/
theorem V4_main_v32 (c : Dev nD) : V4 m (outs m) c main_v32 = X4 m c (Proc.devRef .tc main_v32) := by
  simp only [V4, Function.update_self, outs_four]

set_option backward.isDefEq.respectTransparency.types false in
/-- Every weakly fair execution terminates without a fault; the result array ends at the second region's output and every
    argument array as launched. -/
theorem run_val (ρ : Dev nD → PrngReg) : θ_run defs (onTc (τ := τ) (main (F := F))) ⟨m, fun _ => 0, ρ⟩ (fun r => ∀ c : Dev nD,
      r.2.mem ((c.tc : Thread nD τ).loc main_v32) = X4 m c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c).1.trans (V4_main_v32 m c), (h c).2⟩)
    (run_cond m emb₁ () 𝒱₀ L lv (fun _ _ => rfl) ρ (outs m) (pdats m) 0 (fun _ => (BI.emp : sProp 𝕄))
      (initOf (Pipeline.cells cfgs cellOf_inj) (Pipeline.launchToks cfgs cellOf_inj)) hu₀ (fun _ c => R c) (hE0 ρ) (fun c => hE2 c)
      (reg0 m) (fun _ => .rfl) (fun _ => .rfl)
      (reg1 m) (fun c => by rw [V3_outs]; exact .rfl) (fun c => by rw [V4_outs]; exact .rfl))

end Cert.KernelIdeal.Hand

end
-- ==== Proof.Val.Spec.lean ====
/-
  The network both programs compute, written once over the extended reals, row by row.

  A GIN layer sends the node features `h` and the neighbour sums `agg` to
  `relu (relu ((h + agg) · W_A + b_A) · W_B + b_B)`: every row is treated alone, so a layer is a function of
  ONE row (`mlpRow`). Sum pooling adds the rows of each graph; the classifier is one more linear map.
  Only `+`, `*`, `max` and finite sums occur: no law used below needs the entries to be finite.
-/
import Idealize.ShloMosaic.PureOps.Ideal
import Idealize.ShloMosaic.Lib.ValueIdx

noncomputable section

namespace Cert.Gin

open Idealize.ShloMosaic

/-- A linear map read at one output column: the row `z` against column `j` of `w`, plus the bias' entry. -/
def lin {K J : ℕ} (z : Fin K → EReal) (w : Fin K → Fin J → EReal) (b : Fin J → EReal) (j : Fin J) : EReal :=
  (∑ k : Fin K, z k * w k j) + b j

/-- The two-layer perceptron of a GIN layer on one row `z`: linear, rectifier, linear, rectifier. -/
def mlpRow (z : Fin 128 → EReal) (wA : Fin 128 → Fin 128 → EReal) (bA : Fin 128 → EReal)
    (wB : Fin 128 → Fin 128 → EReal) (bB : Fin 128 → EReal) : Fin 128 → EReal :=
  fun j => max (lin (fun k => max (lin z wA bA k) 0) wB bB j) 0

/-- A GIN layer on all rows: row `n` of `h + agg` through the perceptron. -/
def layer {N : ℕ} (h agg : Fin N → Fin 128 → EReal) (wA : Fin 128 → Fin 128 → EReal) (bA : Fin 128 → EReal)
    (wB : Fin 128 → Fin 128 → EReal) (bB : Fin 128 → EReal) : Fin N → Fin 128 → EReal :=
  fun n => mlpRow (fun k => h n k + agg n k) wA bA wB bB

/-- Sum pooling: entry `(g, d)` adds column `d` of the rows whose graph id, read as a signed integer, is `g`. -/
def pool {N : ℕ} (gid : Fin N → BitVec 32) (h : Fin N → Fin 128 → EReal) (g : Fin 64) (d : Fin 128) : EReal :=
  ∑ n ∈ Finset.univ.filter (fun n : Fin N => (gid n).toInt = (g.val : ℤ)), h n d

/-- The pooled sum taken tile by tile: `T` tiles of `R` rows each, every tile adding the rows of graph `g` it holds
    (a row counts once, with weight one, when its id is the 32-bit word of `g`). -/
def poolTiles {T R : ℕ} (gid : Fin T → Fin R → BitVec 32) (h : Fin T → Fin R → Fin 128 → EReal) (g : Fin 64) (d : Fin 128) : EReal :=
  ∑ t : Fin T, ∑ r : Fin R, (if gid t r = BitVec.ofNat 32 g.val then (1 : EReal) else 0) * h t r d

end Cert.Gin

end
-- ==== Proof.Val.PayMlp.lean ====
/-
  The two-layer perceptron of a GIN layer, as the idealized kernel computes it, read at one entry over the extended reals.

  Both kernels form, for a tile of 2000 rows, the sum of the node features and the neighbour sums, multiply by the first
  weight matrix, add the first bias (one row, repeated down the tile), take the rectifier, multiply by the second weight
  matrix, add the second bias and take the rectifier again. Over the extended reals the conversions between the two float
  widths are the identity, the accumulator the products are added into is zero, and a matrix product at entry
  `(r, j)` is the plain sum over `k` of the left operand at `(r, k)` times the right at `(k, j)`. Hence entry
  `(r, j)` of the result is `mlpRow` of row `r` of the summed input at column `j`.
-/
import proofs.«400679_j13889924235785_2_alg».proof.Proof.Gen.KernelIdeal.Skeleton
import proofs.«400679_j13889924235785_2_alg».proof.Proof.Val.Spec
import Idealize.ShloMosaic.Lib.ValueIdx
import Idealize.ShloMosaic.Lib.Pipeline.Value
import Idealize.ShloMosaic.Lib.ValueLayout
import Idealize.ShloMosaic.PureOps.Ideal.Laws

noncomputable section

namespace Cert.Gin.Pay

open Idealize.ShloMosaic Idealize.ShloMosaic.ValueIdx Cert.KernelIdeal Cert.KernelIdeal.Gen

/-! ## The matrix product's operand indices, axis by axis -/

/-- The left operand's row is the output's row. -/
theorem lhs_mm_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl

/-- The left operand's column is the contraction index. -/
theorem lhs_mm_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q

/-- The right operand's row is the contraction index. -/
theorem rhs_mm_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q

/-- The right operand's column is the output's column. -/
theorem rhs_mm_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-! ## The matrix product and the bias row at one entry -/

/-- A tile times a weight matrix, added into zero: entry `(r, j)` is the sum over `k` of `a (r, k) * b (k, j)`. -/
theorem mm_apply {φ₁ φ₂ : FTy} (a : FVec Ideal S2000x128 φ₁) (b : FVec Ideal S128x128 φ₂) (r : Fin 2000) (j : Fin 128) :
    matmul dot_S2000x128_S128x128_S2000x128_1_0_0_1_n_n none a b (constant (F := Ideal) S2000x128 .f32 0x00000000#32) (ix2 r j)
      = ∑ k : Fin 128, a (ix2 r k) * b (ix2 k j) := by
  refine (Ideal.matmul_constant_zero_apply dot_S2000x128_S128x128_S2000x128_1_0_0_1_n_n none a b (ix2 r j)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 r j) ((contrEquiv1 dot_S2000x128_S128x128_S2000x128_1_0_0_1_n_n 128 rfl rfl).symm k) = ix2 r k := funext fun x => Fin.ext (by
    match x with
    | ⟨0, _⟩ => exact lhs_mm_0 _ _
    | ⟨1, _⟩ => exact (lhs_mm_1 _ _).trans hk)
  have er : dot_S2000x128_S128x128_S2000x128_1_0_0_1_n_n.rhsIdx (ix2 r j) ((contrEquiv1 dot_S2000x128_S128x128_S2000x128_1_0_0_1_n_n 128 rfl rfl).symm k) = ix2 k j := funext fun x => Fin.ext (by
    match x with
    | ⟨0, _⟩ => exact (rhs_mm_0 _ _).trans hk
    | ⟨1, _⟩ => exact rhs_mm_1 _ _)
  rw [el, er]

/-- The bias, one row of 128 entries, repeated down the tile: entry `(r, j)` is the bias' entry `j`. -/
theorem bias_apply (v : Vec Ideal S1x128 .f32) (r : Fin 2000) (j : Fin 128) :
    broadcastTo S2000x128 (shapeCast S1x128 v shapeCasts_S1x128_S1x128) broadcasts_S1x128_S2000x128 (ix2 r j) = v (ix2 0 j) := by
  rw [shapeCast_self]
  exact broadcastTo_1b_ab_apply v broadcasts_S1x128_S2000x128 r j

/-! ## The payloads -/

/-- The first kernel's tile: entry `(r, j)` is the perceptron of row `r` of `v0 + v1`, at column `j`. -/
theorem k0_pay1_apply (v0 v1 : Vec Ideal S2000x128 .f32) (v5 v7 : Vec Ideal S128x128 .f32) (v10 v18 : Vec Ideal S1x128 .f32) (r : Fin 2000) (j : Fin 128) :
    k0_pay1 (F := Ideal) v0 v1 v5 v7 v10 v18 (ix2 r j) =
      Cert.Gin.mlpRow (fun k => v0 (ix2 r k) + v1 (ix2 r k)) (fun k j => v5 (ix2 k j)) (fun k => v10 (ix2 0 k)) (fun k j => v7 (ix2 k j)) (fun k => v18 (ix2 0 k)) j := by
  unfold k0_pay1
  simp only [truncf_apply, maximumf_apply, addf_apply, mm_apply, bias_apply, broadcast_apply, shapeCast_self,
    broadcastTo_1b_ab_apply, Ideal.ofBits_def, Ideal.ofBits_zero_f32]
  rfl

/-- The second kernel's tile: entry `(r, j)` is the perceptron of row `r` of `v3 + v6`, at column `j`
    (the first summand is stored at the narrow width; widening it changes nothing over the extended reals). -/
theorem k1_pay5_apply (v3 : Vec Ideal S2000x128 .bf16) (v6 : Vec Ideal S2000x128 .f32) (v10 v12 : Vec Ideal S128x128 .f32) (v15 v23 : Vec Ideal S1x128 .f32) (r : Fin 2000) (j : Fin 128) :
    k1_pay5 (F := Ideal) v3 v6 v10 v12 v15 v23 (ix2 r j) =
      Cert.Gin.mlpRow (fun k => v3 (ix2 r k) + v6 (ix2 r k)) (fun k j => v10 (ix2 k j)) (fun k => v15 (ix2 0 k)) (fun k j => v12 (ix2 k j)) (fun k => v23 (ix2 0 k)) j := by
  unfold k1_pay5
  simp only [truncf_apply, extf_apply, maximumf_apply, addf_apply, mm_apply, bias_apply, broadcast_apply, shapeCast_self,
    broadcastTo_1b_ab_apply, Ideal.ofBits_def, Ideal.ofBits_zero_f32]
  rfl

end Cert.Gin.Pay

end
-- ==== Proof.Val.K0Array.lean ====
/-
  The first layer's perceptron, from the row blocks the pipeline writes back to the whole array.

  The grid has 25 points. At point `t` the result's window is rows `2000 t … 2000 t + 1999` of the `[50000, 128]` array,
  the two summands' windows are the same rows of theirs, and the two weight matrices and the two bias rows are read
  whole at every point. If what point `t` writes back is the perceptron of the blocks read at `t`, then row `n` of the
  array after the 25 write-backs is the perceptron of row `n` of the sum of the two inputs: row `n` lies in the block of
  point `n / 2000` and of no other, and that block's row `n % 2000` is computed from row `n` of the inputs alone.
-/
import proofs.«400679_j13889924235785_2_alg».proof.Proof.Gen.KernelIdeal.Launch
import proofs.«400679_j13889924235785_2_alg».proof.Proof.Gen.KernelIdeal.Skeleton
import proofs.«400679_j13889924235785_2_alg».proof.Proof.Gen.KernelIdeal.Points
import proofs.«400679_j13889924235785_2_alg».proof.Proof.Val.Spec
import proofs.«400679_j13889924235785_2_alg».proof.Proof.Val.PayMlp
import Idealize.ShloMosaic.Lib.Pipeline.Value
import Idealize.ShloMosaic.Lib.ValueIdx

noncomputable section

namespace Cert.Gin.K0

open Idealize.ShloMosaic Idealize.ShloMosaic.ValueIdx Cert.KernelIdeal Cert.KernelIdeal.Gen Idealize.ShloMosaic.Pipeline
open Idealize.ShloMosaic.TcCoe

/-- Window `w`'s block at point `t`, read off the array the window is over. -/
def blk0 {c : Dev nD} (V : (b : Ref sig .tc) → Buf (Elt Ideal) ((c : Thread nD τ).loc b)) (w : Fin cfg0.W) (t : Fin cfg0.N) :
    ((cfg0.win w).xblock (cfg0.grid.coords t)).Idx → Elt Ideal (cfg0.win w).elt :=
  ((cfg0.win w).blk t).view.read (Elt Ideal) (V (Pipeline.arrRef spec0 w))

/-- The block index of every window at every point: the row-block windows (the two summands and the result) are at
    block `(t, 0)`, the weights and biases at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- What the result's array ends holding: row by row, the perceptron of the two inputs' sum. -/
abbrev G0 {c : Dev nD} (V : (b : Ref sig .tc) → Buf (Elt Ideal) ((c : Thread nD τ).loc b)) : S50000x128.Idx → EReal :=
  fun i => Cert.Gin.mlpRow (fun k => @HAdd.hAdd EReal EReal EReal _ (V main_arg0 (ix2 (i 0 : Fin 50000) k)) (V main_v13 (ix2 (i 0 : Fin 50000) k)))
    (fun k j => V main_arg3 (ix2 k j)) (fun k => V main_v14 (ix2 (0 : Fin 1) k))
    (fun k j => V main_arg5 (ix2 k j)) (fun k => V main_v15 (ix2 (0 : Fin 1) k)) (i 1 : Fin 128)

section
variable {c : Dev nD} (V : (b : Ref sig .tc) → Buf (Elt Ideal) ((c : Thread nD τ).loc b))

/-- A summand's block at point `t`, at row `r`: row `2000 t + r` of the array. -/
theorem rows0 (t : Fin cfg0.N) (r : Fin 2000) (k : Fin 128) (R : Fin 50000) (hR : R.val = 2000 * t.val + r.val) :
    (blk0 V 0 t : Vec Ideal S2000x128 .f32) (ix2 r k) = V main_arg0 (ix2 R k) := by
  obtain ⟨e00, e01, -⟩ := idx_facts t
  unfold blk0
  rw [View.read_apply]
  show V main_arg0 (((cfg0.win 0).blk t).view.emb (ix2 r k)) = V main_arg0 (ix2 R k)
  refine congrArg (V main_arg0) (funext fun a => Fin.ext ?_)
  match a with
  | ⟨0, _⟩ => show win0_0.index t (0 : Fin 2) * 2000 + 1 * r.val = R.val; omega
  | ⟨1, _⟩ => show win0_0.index t (1 : Fin 2) * 128 + 1 * k.val = k.val; omega

/-- The other summand's block likewise. -/
theorem rows1 (t : Fin cfg0.N) (r : Fin 2000) (k : Fin 128) (R : Fin 50000) (hR : R.val = 2000 * t.val + r.val) :
    (blk0 V 1 t : Vec Ideal S2000x128 .f32) (ix2 r k) = V main_v13 (ix2 R k) := by
  obtain ⟨-, -, e10, e11, -⟩ := idx_facts t
  unfold blk0
  rw [View.read_apply]
  show V main_v13 (((cfg0.win 1).blk t).view.emb (ix2 r k)) = V main_v13 (ix2 R k)
  refine congrArg (V main_v13) (funext fun a => Fin.ext ?_)
  match a with
  | ⟨0, _⟩ => show win0_1.index t (0 : Fin 2) * 2000 + 1 * r.val = R.val; omega
  | ⟨1, _⟩ => show win0_1.index t (1 : Fin 2) * 128 + 1 * k.val = k.val; omega

/-- The first weight matrix's block at any point is the whole matrix. -/
theorem whole2 (t : Fin cfg0.N) (k : Fin 128) (j : Fin 128) :
    (blk0 V 2 t : Vec Ideal S128x128 .f32) (ix2 k j) = V main_arg3 (ix2 k j) := by
  obtain ⟨-, -, -, -, e20, e21, -⟩ := idx_facts t
  unfold blk0
  rw [View.read_apply]
  show V main_arg3 (((cfg0.win 2).blk t).view.emb (ix2 k j)) = V main_arg3 (ix2 k j)
  refine congrArg (V main_arg3) (funext fun a => Fin.ext ?_)
  match a with
  | ⟨0, _⟩ => show win0_2.index t (0 : Fin 2) * 128 + 1 * k.val = k.val; omega
  | ⟨1, _⟩ => show win0_2.index t (1 : Fin 2) * 128 + 1 * j.val = j.val; omega

/-- The first bias row's block at any point is the whole row. -/
theorem whole3 (t : Fin cfg0.N) (u : Fin 1) (j : Fin 128) :
    (blk0 V 3 t : Vec Ideal S1x128 .f32) (ix2 u j) = V main_v14 (ix2 u j) := by
  obtain ⟨-, -, -, -, -, -, e30, e31, -⟩ := idx_facts t
  unfold blk0
  rw [View.read_apply]
  show V main_v14 (((cfg0.win 3).blk t).view.emb (ix2 u j)) = V main_v14 (ix2 u j)
  refine congrArg (V main_v14) (funext fun a => Fin.ext ?_)
  match a with
  | ⟨0, _⟩ => show win0_3.index t (0 : Fin 2) * 1 + 1 * u.val = u.val; omega
  | ⟨1, _⟩ => show win0_3.index t (1 : Fin 2) * 128 + 1 * j.val = j.val; omega

/-- The second weight matrix's block at any point is the whole matrix. -/
theorem whole4 (t : Fin cfg0.N) (k : Fin 128) (j : Fin 128) :
    (blk0 V 4 t : Vec Ideal S128x128 .f32) (ix2 k j) = V main_arg5 (ix2 k j) := by
  obtain ⟨-, -, -, -, -, -, -, -, e40, e41, -⟩ := idx_facts t
  unfold blk0
  rw [View.read_apply]
  show V main_arg5 (((cfg0.win 4).blk t).view.emb (ix2 k j)) = V main_arg5 (ix2 k j)
  refine congrArg (V main_arg5) (funext fun a => Fin.ext ?_)
  match a with
  | ⟨0, _⟩ => show win0_4.index t (0 : Fin 2) * 128 + 1 * k.val = k.val; omega
  | ⟨1, _⟩ => show win0_4.index t (1 : Fin 2) * 128 + 1 * j.val = j.val; omega

/-- The second bias row's block at any point is the whole row. -/
theorem whole5 (t : Fin cfg0.N) (u : Fin 1) (j : Fin 128) :
    (blk0 V 5 t : Vec Ideal S1x128 .f32) (ix2 u j) = V main_v15 (ix2 u j) := by
  obtain ⟨-, -, -, -, -, -, -, -, -, -, e50, e51, -⟩ := idx_facts t
  unfold blk0
  rw [View.read_apply]
  show V main_v15 (((cfg0.win 5).blk t).view.emb (ix2 u j)) = V main_v15 (ix2 u j)
  refine congrArg (V main_v15) (funext fun a => Fin.ext ?_)
  match a with
  | ⟨0, _⟩ => show win0_5.index t (0 : Fin 2) * 1 + 1 * u.val = u.val; omega
  | ⟨1, _⟩ => show win0_5.index t (1 : Fin 2) * 128 + 1 * j.val = j.val; omega

/-- The perceptron of the blocks at point `t`, at row `r` of the block, is the perceptron of row `2000 t + r` of the arrays. -/
theorem pay_at (t : Fin cfg0.N) (r : Fin 2000) (j : Fin 128) (R : Fin 50000) (hR : R.val = 2000 * t.val + r.val) :
    k0_pay1 (F := Ideal) (blk0 V 0 t) (blk0 V 1 t) (blk0 V 2 t) (blk0 V 4 t) (blk0 V 3 t) (blk0 V 5 t) (ix2 r j)
      = G0 V (ix2 R j) := by
  rw [Cert.Gin.Pay.k0_pay1_apply]
  simp only [rows0 V t r _ R hR, rows1 V t r _ R hR, whole2 V t, whole3 V t, whole4 V t, whole5 V t]

/-- What point `t` writes back is block `t` of `G0`. -/
theorem flushed_eq (dat : Dat τ (Elt Ideal) Unit ℕ (UR sig nD τ) ℕ cfg0 c)
    (hafter : ∀ t : Fin cfg0.N, dat.after 6 t = k0_pay1 (F := Ideal) (blk0 V 0 t) (blk0 V 1 t) (blk0 V 2 t) (blk0 V 4 t) (blk0 V 3 t) (blk0 V 5 t))
    (t : Fin cfg0.N) :
    dat.flushed 6 t = ((cfg0.win 6).blk t).view.read (Elt Ideal) (G0 V) := by
  show (cfg0.win 6).cut (grid0.coords t) (dat.after 6 t) = _
  rw [hafter]
  obtain ⟨-, -, -, -, -, -, -, -, -, -, -, -, e60, e61⟩ := idx_facts t
  have ht : t.val < 25 := lt_of_lt_of_eq t.isLt N_0
  refine funext fun (y : S2000x128.Idx) => ?_
  have hy0 : (y 0).val < 2000 := (y 0).isLt
  have hy1 : (y 1).val < 128 := (y 1).isLt
  have hemb : ((cfg0.win 6).blk t).view.emb y = ix2 (⟨2000 * t.val + (y 0).val, by omega⟩ : Fin 50000) (⟨(y 1).val, hy1⟩ : Fin 128) := by
    funext a; apply Fin.ext
    match a with
    | ⟨0, _⟩ => show win0_6.index t (0 : Fin 2) * 2000 + 1 * (y 0).val = 2000 * t.val + (y 0).val; omega
    | ⟨1, _⟩ => show win0_6.index t (1 : Fin 2) * 128 + 1 * (y 1).val = (y 1).val; omega
  rw [View.read_apply]
  refine (congrArg (k0_pay1 (F := Ideal) (blk0 V 0 t) (blk0 V 1 t) (blk0 V 2 t) (blk0 V 4 t) (blk0 V 3 t) (blk0 V 5 t))
    (eq_ix2 (n0 := 2000) (n1 := 128) ((cfg0.win 6).xinj (grid0.coords t) y))).trans ?_
  show _ = G0 V (((cfg0.win 6).blk t).view.emb y)
  rw [hemb]
  exact pay_at V t _ _ _ rfl

/-- An index of the array is in point `t`'s block iff each coordinate is in the block's range on its axis. -/
theorem mem_blk (t : Fin cfg0.N) (i : S50000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v16).slice (win0_6.rect t)).set ↔ _
  rw [View.set_slice_whole, Rect.mem_set_unit]
  exact Iff.rfl

/-- Every index of the array is in some point's block: row `n` in the block of point `n / 2000`. -/
theorem cover (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ : ∃ t : Fin cfg0.N, t.val = (i 0).val / 2000 :=
    ⟨⟨(i 0).val / 2000, lt_of_lt_of_eq (show (i 0).val / 2000 < 25 by omega) N_0.symm⟩, rfl⟩
  obtain ⟨-, -, -, -, -, -, -, -, -, -, -, -, e60, e61⟩ := idx_facts t
  refine ⟨t, flush0_6 t, ?_⟩
  rw [mem_blk]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 128 ≤ (i 1).val ∧ (i 1).val < win0_6.index t (1 : Fin 2) * 128 + 128; omega

end

/-- THE ARRAY after the region: row `n` is the perceptron of row `n` of the sum of the two inputs. -/
theorem region0_array {c : Dev nD} (V : (b : Ref sig .tc) → Buf (Elt Ideal) ((c : Thread nD τ).loc b))
    (dat : Dat τ (Elt Ideal) Unit ℕ (UR sig nD τ) ℕ cfg0 c)
    (hA : ∀ w, dat.A w = V (Pipeline.arrRef spec0 w))
    (hafter : ∀ t : Fin cfg0.N, dat.after 6 t = k0_pay1 (F := Ideal) (blk0 V 0 t) (blk0 V 1 t) (blk0 V 2 t) (blk0 V 4 t) (blk0 V 3 t) (blk0 V 5 t)) :
    dat.arrAt 6 cfg0.N = fun (i : S50000x128.Idx) => Cert.Gin.mlpRow
      (fun k => @HAdd.hAdd EReal EReal EReal _ (V main_arg0 (ix2 (i 0 : Fin 50000) k)) (V main_v13 (ix2 (i 0 : Fin 50000) k)))
      (fun k j => V main_arg3 (ix2 k j)) (fun k => V main_v14 (ix2 (0 : Fin 1) k))
      (fun k j => V main_arg5 (ix2 k j)) (fun k => V main_v15 (ix2 (0 : Fin 1) k)) (i 1 : Fin 128) :=
  dat.arrAt_eq_of_cover 6 (G0 V) (fun t _ => flushed_eq V dat hafter t) cover

/-- The same with the rows named by `layer`. -/
theorem region0_array_layer {c : Dev nD} (V : (b : Ref sig .tc) → Buf (Elt Ideal) ((c : Thread nD τ).loc b))
    (dat : Dat τ (Elt Ideal) Unit ℕ (UR sig nD τ) ℕ cfg0 c)
    (hA : ∀ w, dat.A w = V (Pipeline.arrRef spec0 w))
    (hafter : ∀ t : Fin cfg0.N, dat.after 6 t = k0_pay1 (F := Ideal) (blk0 V 0 t) (blk0 V 1 t) (blk0 V 2 t) (blk0 V 4 t) (blk0 V 3 t) (blk0 V 5 t)) :
    dat.arrAt 6 cfg0.N = fun (i : S50000x128.Idx) => Cert.Gin.layer (N := 50000)
      (fun n k => V main_arg0 (ix2 n k)) (fun n k => V main_v13 (ix2 n k))
      (fun k j => V main_arg3 (ix2 k j)) (fun k => V main_v14 (ix2 (0 : Fin 1) k))
      (fun k j => V main_arg5 (ix2 k j)) (fun k => V main_v15 (ix2 (0 : Fin 1) k)) (i 0 : Fin 50000) (i 1 : Fin 128) :=
  region0_array V dat hA hafter

end Cert.Gin.K0

end
-- ==== Proof.Val.PayPool.lean ====
/-
  The pooling and classifier payloads of the idealized kernel, read at one index over the extended reals.

  The zeroed accumulator is 0 everywhere; the one-hot block has entry (r, g) equal to 1 exactly when row r's graph
  id is the 32-bit word of g; the pooled accumulator's update adds, at (g, d), the sum over the tile's rows of the
  one-hot entry times the feature; the classifier is the linear map lin on row g of the pooled block.
-/
import proofs.«400679_j13889924235785_2_alg».proof.Proof.Gen.KernelIdeal.Skeleton
import proofs.«400679_j13889924235785_2_alg».proof.Proof.Val.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Gin.Pay

open Idealize.ShloMosaic Idealize.ShloMosaic.ValueIdx Cert.KernelIdeal Cert.KernelIdeal.Gen

/-! ## The zeroed accumulator -/

/-- The block the first grid step stores into the pooled accumulator is zero at every entry. -/
theorem k1_pay3_apply (g : Fin 64) (d : Fin 128) : k1_pay3 (F := Ideal) (ix2 g d) = 0 := by
  unfold k1_pay3
  simp only [shapeCast_self]
  exact Ideal.ofBits_zero_f32

/-! ## The one-hot block -/

/-- A one-bit word, widened to 32 bits and read as a signed integer, is the real 1 when the bit is set and 0 when not. -/
theorem sitofp_bit (b : BitVec 1) :
    (FloatOps.sitofp (F := Ideal) .f32 (b.setWidth 32) : EReal) = if b = 1#1 then (1 : EReal) else 0 := by
  show ((((b.setWidth 32).toInt : ℤ) : ℝ) : EReal) = _
  rcases BitVec.eq_zero_or_eq_one b with h | h
  · subst h; simp
  · subst h; simp

/-- The equality comparison of two words gives the set bit exactly when the words are equal. -/
theorem cmpi_eq_one_iff (a b : BitVec 32) : IntOp.cmpi .eq a b = 1#1 ↔ a = b := by
  have hb : ∀ c : Bool, BitVec.ofBool c = 1#1 ↔ c = true := fun c => by cases c <;> decide
  show BitVec.ofBool (a == b) = 1#1 ↔ a = b
  rw [hb, beq_iff_eq]

/-- Entry (r, g) of the one-hot block: 1 when row r's graph id is the word of g, else 0. -/
theorem k1_pay4_apply (v29 : Vec Ideal S2000x1 .i32) (r : Fin 2000) (g : Fin 64) :
    k1_pay4 (F := Ideal) v29 (ix2 r g) = if v29 (ix2 r 0) = BitVec.ofNat 32 g.val then (1 : EReal) else 0 := by
  unfold k1_pay4
  simp only [shapeCast_self]
  show FloatOps.sitofp (F := Ideal) .f32 ((IntOp.cmpi .eq (broadcastTo S2000x64 v29 broadcasts_S2000x1_S2000x64 (ix2 r g))
      (iota .tc S2000x64 32 [1] iota_S2000x64_d1_w32 (ix2 r g))).setWidth 32) = _
  rw [sitofp_bit, iota_single_apply,
    broadcastTo_apply v29 broadcasts_S2000x1_S2000x64 (ix2 r g) (ix2 r (0 : Fin 1)) (fun a => match a with
      | ⟨0, _⟩ => rfl
      | ⟨1, _⟩ => rfl)]
  exact if_congr (cmpi_eq_one_iff _ _) rfl rfl

/-! ## The pooled accumulator's update -/

/-- The pooling product contracts the row axis of both operands: the left operand's row is the contraction coordinate … -/
theorem lhs_pool_0 (i : S64x128.Idx) (q : dot_S2000x64_S2000x128_S64x128_0_0_1_1_n_n.contr.Idx) :
    (dot_S2000x64_S2000x128_S64x128_0_0_1_1_n_n.lhsIdx i q 0).val = (q ⟨0, by decide⟩).val :=
  dot_S2000x64_S2000x128_S64x128_0_0_1_1_n_n.lhsIdx_val_of_single rfl i q
/-- … its column the result's row … -/
theorem lhs_pool_1 (i : S64x128.Idx) (q : dot_S2000x64_S2000x128_S64x128_0_0_1_1_n_n.contr.Idx) :
    (dot_S2000x64_S2000x128_S64x128_0_0_1_1_n_n.lhsIdx i q 1).val = (i 0).val := by
  unfold DotDims.lhsIdx
  rw [dif_neg (show ¬(1 : Fin S2000x64.rank) ∈ dot_S2000x64_S2000x128_S64x128_0_0_1_1_n_n.lhsBatch by decide), dif_pos (show (1 : Fin S2000x64.rank) ∈ dot_S2000x64_S2000x128_S64x128_0_0_1_1_n_n.lhsNonContracting by decide)]
  rfl
/-- … the right operand's row the contraction coordinate … -/
theorem rhs_pool_0 (i : S64x128.Idx) (q : dot_S2000x64_S2000x128_S64x128_0_0_1_1_n_n.contr.Idx) :
    (dot_S2000x64_S2000x128_S64x128_0_0_1_1_n_n.rhsIdx i q 0).val = (q ⟨0, by decide⟩).val :=
  dot_S2000x64_S2000x128_S64x128_0_0_1_1_n_n.rhsIdx_val_of_single rfl i q
/-- … and its column the result's column. -/
theorem rhs_pool_1 (i : S64x128.Idx) (q : dot_S2000x64_S2000x128_S64x128_0_0_1_1_n_n.contr.Idx) :
    (dot_S2000x64_S2000x128_S64x128_0_0_1_1_n_n.rhsIdx i q 1).val = (i 1).val := by
  unfold DotDims.rhsIdx
  rw [dif_neg (show ¬(1 : Fin S2000x128.rank) ∈ dot_S2000x64_S2000x128_S64x128_0_0_1_1_n_n.rhsBatch by decide), dif_pos (show (1 : Fin S2000x128.rank) ∈ dot_S2000x64_S2000x128_S64x128_0_0_1_1_n_n.rhsNonContracting by decide)]
  rfl

/-- Entry (g, d) of the updated accumulator: the old entry plus the sum over the tile's rows r of the left block at (r, g)
    times the right block at (r, d). -/
theorem k1_pay1_apply (v36 : FVec Ideal S2000x64 .bf16) (v37 : FVec Ideal S2000x128 .bf16) (v39 : Vec Ideal S64x128 .f32) (g : Fin 64) (d : Fin 128) :
    k1_pay1 (F := Ideal) v36 v37 v39 (ix2 g d) = v39 (ix2 g d) + ∑ r : Fin 2000, v36 (ix2 r g) * v37 (ix2 r d) := by
  unfold k1_pay1
  simp only [shapeCast_self]
  refine (addf_apply _ _ _).trans ?_
  refine congrArg (v39 (ix2 g d) + ·) ?_
  simp only [matmul]
  rw [Ideal.matmul_constant_zero_apply, ← Equiv.sum_comp (contrEquiv1 dot_S2000x64_S2000x128_S64x128_0_0_1_1_n_n 2000 rfl rfl).symm]
  refine Finset.sum_congr rfl fun k _ => ?_
  have hk := contrEquiv1_symm_val dot_S2000x64_S2000x128_S64x128_0_0_1_1_n_n 2000 rfl rfl k
  have el : dot_S2000x64_S2000x128_S64x128_0_0_1_1_n_n.lhsIdx (ix2 g d) ((contrEquiv1 dot_S2000x64_S2000x128_S64x128_0_0_1_1_n_n 2000 rfl rfl).symm k) = ix2 k g := funext fun a => Fin.ext (by
    match a with
    | ⟨0, _⟩ => exact (lhs_pool_0 _ _).trans hk
    | ⟨1, _⟩ => exact lhs_pool_1 _ _)
  have er : dot_S2000x64_S2000x128_S64x128_0_0_1_1_n_n.rhsIdx (ix2 g d) ((contrEquiv1 dot_S2000x64_S2000x128_S64x128_0_0_1_1_n_n 2000 rfl rfl).symm k) = ix2 k d := funext fun a => Fin.ext (by
    match a with
    | ⟨0, _⟩ => exact (rhs_pool_0 _ _).trans hk
    | ⟨1, _⟩ => exact rhs_pool_1 _ _)
  rw [el, er]

/-! ## The classifier -/

/-- The classifier's product contracts the left operand's columns against the right operand's rows: the left operand's
    row is the result's row … -/
theorem lhs_cls_0 (i : S64x10.Idx) (q : dot_S64x128_S128x10_S64x10_1_0_0_1_n_n.contr.Idx) :
    (dot_S64x128_S128x10_S64x10_1_0_0_1_n_n.lhsIdx i q 0).val = (i 0).val := by
  unfold DotDims.lhsIdx
  rw [dif_neg (show ¬(0 : Fin S64x128.rank) ∈ dot_S64x128_S128x10_S64x10_1_0_0_1_n_n.lhsBatch by decide), dif_pos (show (0 : Fin S64x128.rank) ∈ dot_S64x128_S128x10_S64x10_1_0_0_1_n_n.lhsNonContracting by decide)]
  rfl
/-- … its column the contraction coordinate … -/
theorem lhs_cls_1 (i : S64x10.Idx) (q : dot_S64x128_S128x10_S64x10_1_0_0_1_n_n.contr.Idx) :
    (dot_S64x128_S128x10_S64x10_1_0_0_1_n_n.lhsIdx i q 1).val = (q ⟨0, by decide⟩).val :=
  dot_S64x128_S128x10_S64x10_1_0_0_1_n_n.lhsIdx_val_of_single rfl i q
/-- … the right operand's row the contraction coordinate … -/
theorem rhs_cls_0 (i : S64x10.Idx) (q : dot_S64x128_S128x10_S64x10_1_0_0_1_n_n.contr.Idx) :
    (dot_S64x128_S128x10_S64x10_1_0_0_1_n_n.rhsIdx i q 0).val = (q ⟨0, by decide⟩).val :=
  dot_S64x128_S128x10_S64x10_1_0_0_1_n_n.rhsIdx_val_of_single rfl i q
/-- … and its column the result's column. -/
theorem rhs_cls_1 (i : S64x10.Idx) (q : dot_S64x128_S128x10_S64x10_1_0_0_1_n_n.contr.Idx) :
    (dot_S64x128_S128x10_S64x10_1_0_0_1_n_n.rhsIdx i q 1).val = (i 1).val := by
  unfold DotDims.rhsIdx
  rw [dif_neg (show ¬(1 : Fin S128x10.rank) ∈ dot_S64x128_S128x10_S64x10_1_0_0_1_n_n.rhsBatch by decide), dif_pos (show (1 : Fin S128x10.rank) ∈ dot_S64x128_S128x10_S64x10_1_0_0_1_n_n.rhsNonContracting by decide)]
  rfl

/-- Entry (g, c) of the classifier's output: the linear map on row g of the pooled block, column c of the weights, plus
    the bias' entry c. -/
theorem k1_pay2_apply (v47 : Vec Ideal S64x128 .f32) (v49 : Vec Ideal S128x10 .f32) (v52 : Vec Ideal S1x10 .f32) (g : Fin 64) (c : Fin 10) :
    k1_pay2 (F := Ideal) v47 v49 v52 (ix2 g c) = Cert.Gin.lin (fun d => v47 (ix2 g d)) (fun d c => v49 (ix2 d c)) (fun c => v52 (ix2 0 c)) c := by
  unfold k1_pay2 Cert.Gin.lin
  simp only [shapeCast_self]
  refine (addf_apply _ _ _).trans ?_
  congr 1
  · simp only [matmul]
    rw [Ideal.matmul_constant_zero_apply, ← Equiv.sum_comp (contrEquiv1 dot_S64x128_S128x10_S64x10_1_0_0_1_n_n 128 rfl rfl).symm]
    refine Finset.sum_congr rfl fun k _ => ?_
    have hk := contrEquiv1_symm_val dot_S64x128_S128x10_S64x10_1_0_0_1_n_n 128 rfl rfl k
    have el : dot_S64x128_S128x10_S64x10_1_0_0_1_n_n.lhsIdx (ix2 g c) ((contrEquiv1 dot_S64x128_S128x10_S64x10_1_0_0_1_n_n 128 rfl rfl).symm k) = ix2 g k := funext fun a => Fin.ext (by
      match a with
      | ⟨0, _⟩ => exact lhs_cls_0 _ _
      | ⟨1, _⟩ => exact (lhs_cls_1 _ _).trans hk)
    have er : dot_S64x128_S128x10_S64x10_1_0_0_1_n_n.rhsIdx (ix2 g c) ((contrEquiv1 dot_S64x128_S128x10_S64x10_1_0_0_1_n_n 128 rfl rfl).symm k) = ix2 k c := funext fun a => Fin.ext (by
      match a with
      | ⟨0, _⟩ => exact (rhs_cls_0 _ _).trans hk
      | ⟨1, _⟩ => exact rhs_cls_1 _ _)
    rw [el, er]
    rfl
  · exact broadcastTo_1b_ab_apply v52 _ g c

end Cert.Gin.Pay

end
-- ==== Proof.Val.K1Array.lean ====
/-
  The second kernel over its 25 grid points, read against the arrays it is launched on.

  At point t the row windows hold rows 2000·t … 2000·t + 1999 of the node features, the neighbour sums and the graph ids;
  the weight and bias windows hold their whole arrays at every point. The running sums start, at point 0, at the first
  tile's pooled rows over zeros and gain one tile's pooled rows per point; after the last point they are the pooling,
  tile by tile, of the second layer's rows. The output array is written once, at the last point, with the classifier
  of the sums.
-/
import proofs.«400679_j13889924235785_2_alg».proof.Proof.Gen.KernelIdeal.Launch
import proofs.«400679_j13889924235785_2_alg».proof.Proof.Gen.KernelIdeal.Skeleton
import proofs.«400679_j13889924235785_2_alg».proof.Proof.Gen.KernelIdeal.Points
import proofs.«400679_j13889924235785_2_alg».proof.Proof.Val.Spec
import proofs.«400679_j13889924235785_2_alg».proof.Proof.Val.PayMlp
import proofs.«400679_j13889924235785_2_alg».proof.Proof.Val.PayPool
import Idealize.ShloMosaic.Lib.Pipeline.Value
import Idealize.ShloMosaic.Lib.ValueIdx

noncomputable section

namespace Cert.Gin.K1

open Idealize.ShloMosaic Idealize.ShloMosaic.ValueIdx Idealize.ShloMosaic.TcCoe Cert.KernelIdeal Cert.KernelIdeal.Gen Idealize.ShloMosaic.Pipeline

/-! ## The windows' blocks, read off the arrays -/

/-- The block of window w at point t, read off the arrays' contents V. -/
def blk1 {c : Dev nD} (V : (b : Ref sig .tc) → Buf (Elt Ideal) ((c : Thread nD τ).loc b)) (w : Fin cfg1.W) (t : Fin cfg1.N) :
    ((cfg1.win w).xblock (cfg1.grid.coords t)).Idx → Elt Ideal (cfg1.win w).elt :=
  ((cfg1.win w).blk t).view.read (Elt Ideal) (V (Pipeline.arrRef spec1 w))

/-- The block indices over the grid: the row windows' first index is the point, every other index is zero. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0 :=
  (by decide +kernel : ∀ t : Fin grid1.N, _)

/-- Row r of tile t is a row of the 50000-row arrays. -/
theorem row_lt (t : Fin cfg1.N) (r : Fin 2000) : 2000 * t.val + r.val < 50000 := by
  have ht : t.val < 25 := lt_of_lt_of_eq t.isLt N_1
  have hr := r.isLt
  omega

/-- The first layer's rows: entry (r, k) of the block at point t is entry (2000·t + r, k) of the array. -/
theorem blk1_0 {c : Dev nD} (V : (b : Ref sig .tc) → Buf (Elt Ideal) ((c : Thread nD τ).loc b)) (t : Fin cfg1.N) (r : Fin 2000) (k : Fin 128) :
    blk1 V 0 t (ix2 r k) = V main_v16 (ix2 (⟨2000 * t.val + r.val, row_lt t r⟩ : Fin 50000) k) := by
  show V main_v16 (((cfg1.win 0).blk t).view.emb (ix2 r k)) = V main_v16 (ix2 (⟨2000 * t.val + r.val, row_lt t r⟩ : Fin 50000) k)
  refine congrArg (V main_v16) (funext fun a => Fin.ext ?_)
  have h := idx_facts t
  match a with
  | ⟨0, _⟩ => show win1_0.index t (0 : Fin 2) * 2000 + 1 * r.val = 2000 * t.val + r.val; omega
  | ⟨1, _⟩ => show win1_0.index t (1 : Fin 2) * 128 + 1 * k.val = k.val; omega

/-- The neighbour sums: entry (r, k) of the block at point t is entry (2000·t + r, k) of the array. -/
theorem blk1_1 {c : Dev nD} (V : (b : Ref sig .tc) → Buf (Elt Ideal) ((c : Thread nD τ).loc b)) (t : Fin cfg1.N) (r : Fin 2000) (k : Fin 128) :
    blk1 V 1 t (ix2 r k) = V main_v27 (ix2 (⟨2000 * t.val + r.val, row_lt t r⟩ : Fin 50000) k) := by
  show V main_v27 (((cfg1.win 1).blk t).view.emb (ix2 r k)) = V main_v27 (ix2 (⟨2000 * t.val + r.val, row_lt t r⟩ : Fin 50000) k)
  refine congrArg (V main_v27) (funext fun a => Fin.ext ?_)
  have h := idx_facts t
  match a with
  | ⟨0, _⟩ => show win1_1.index t (0 : Fin 2) * 2000 + 1 * r.val = 2000 * t.val + r.val; omega
  | ⟨1, _⟩ => show win1_1.index t (1 : Fin 2) * 128 + 1 * k.val = k.val; omega

/-- The first weight matrix: the window is the whole array at every point. -/
theorem blk1_2 {c : Dev nD} (V : (b : Ref sig .tc) → Buf (Elt Ideal) ((c : Thread nD τ).loc b)) (t : Fin cfg1.N) (k : Fin 128) (j : Fin 128) :
    blk1 V 2 t (ix2 k j) = V main_arg7 (ix2 k j) := by
  show V main_arg7 (((cfg1.win 2).blk t).view.emb (ix2 k j)) = V main_arg7 (ix2 k j)
  refine congrArg (V main_arg7) (funext fun a => Fin.ext ?_)
  have h := idx_facts t
  match a with
  | ⟨0, _⟩ => show win1_2.index t (0 : Fin 2) * 128 + 1 * k.val = k.val; omega
  | ⟨1, _⟩ => show win1_2.index t (1 : Fin 2) * 128 + 1 * j.val = j.val; omega

/-- The first bias, one row: the window is the whole array at every point. -/
theorem blk1_3 {c : Dev nD} (V : (b : Ref sig .tc) → Buf (Elt Ideal) ((c : Thread nD τ).loc b)) (t : Fin cfg1.N) (j : Fin 128) :
    blk1 V 3 t (ix2 (0 : Fin 1) j) = V main_v29 (ix2 (0 : Fin 1) j) := by
  show V main_v29 (((cfg1.win 3).blk t).view.emb (ix2 (0 : Fin 1) j)) = V main_v29 (ix2 (0 : Fin 1) j)
  refine congrArg (V main_v29) (funext fun a => Fin.ext ?_)
  have h := idx_facts t
  match a with
  | ⟨0, _⟩ => show win1_3.index t (0 : Fin 2) * 1 + 1 * 0 = 0; omega
  | ⟨1, _⟩ => show win1_3.index t (1 : Fin 2) * 128 + 1 * j.val = j.val; omega

/-- The second weight matrix: the window is the whole array at every point. -/
theorem blk1_4 {c : Dev nD} (V : (b : Ref sig .tc) → Buf (Elt Ideal) ((c : Thread nD τ).loc b)) (t : Fin cfg1.N) (k : Fin 128) (j : Fin 128) :
    blk1 V 4 t (ix2 k j) = V main_arg9 (ix2 k j) := by
  show V main_arg9 (((cfg1.win 4).blk t).view.emb (ix2 k j)) = V main_arg9 (ix2 k j)
  refine congrArg (V main_arg9) (funext fun a => Fin.ext ?_)
  have h := idx_facts t
  match a with
  | ⟨0, _⟩ => show win1_4.index t (0 : Fin 2) * 128 + 1 * k.val = k.val; omega
  | ⟨1, _⟩ => show win1_4.index t (1 : Fin 2) * 128 + 1 * j.val = j.val; omega

/-- The second bias, one row: the window is the whole array at every point. -/
theorem blk1_5 {c : Dev nD} (V : (b : Ref sig .tc) → Buf (Elt Ideal) ((c : Thread nD τ).loc b)) (t : Fin cfg1.N) (j : Fin 128) :
    blk1 V 5 t (ix2 (0 : Fin 1) j) = V main_v30 (ix2 (0 : Fin 1) j) := by
  show V main_v30 (((cfg1.win 5).blk t).view.emb (ix2 (0 : Fin 1) j)) = V main_v30 (ix2 (0 : Fin 1) j)
  refine congrArg (V main_v30) (funext fun a => Fin.ext ?_)
  have h := idx_facts t
  match a with
  | ⟨0, _⟩ => show win1_5.index t (0 : Fin 2) * 1 + 1 * 0 = 0; omega
  | ⟨1, _⟩ => show win1_5.index t (1 : Fin 2) * 128 + 1 * j.val = j.val; omega

/-- The graph ids, one column: entry (r, 0) of the block at point t is entry (2000·t + r, 0) of the array. -/
theorem blk1_6 {c : Dev nD} (V : (b : Ref sig .tc) → Buf (Elt Ideal) ((c : Thread nD τ).loc b)) (t : Fin cfg1.N) (r : Fin 2000) :
    blk1 V 6 t (ix2 r (0 : Fin 1)) = V main_v28 (ix2 (⟨2000 * t.val + r.val, row_lt t r⟩ : Fin 50000) (0 : Fin 1)) := by
  show V main_v28 (((cfg1.win 6).blk t).view.emb (ix2 r (0 : Fin 1))) = V main_v28 (ix2 (⟨2000 * t.val + r.val, row_lt t r⟩ : Fin 50000) (0 : Fin 1))
  refine congrArg (V main_v28) (funext fun a => Fin.ext ?_)
  have h := idx_facts t
  match a with
  | ⟨0, _⟩ => show win1_6.index t (0 : Fin 2) * 2000 + 1 * r.val = 2000 * t.val + r.val; omega
  | ⟨1, _⟩ => show win1_6.index t (1 : Fin 2) * 1 + 1 * 0 = 0; omega

/-- The classifier's weights: the window is the whole array at every point. -/
theorem blk1_7 {c : Dev nD} (V : (b : Ref sig .tc) → Buf (Elt Ideal) ((c : Thread nD τ).loc b)) (t : Fin cfg1.N) (k : Fin 128) (j : Fin 10) :
    blk1 V 7 t (ix2 k j) = V main_arg11 (ix2 k j) := by
  show V main_arg11 (((cfg1.win 7).blk t).view.emb (ix2 k j)) = V main_arg11 (ix2 k j)
  refine congrArg (V main_arg11) (funext fun a => Fin.ext ?_)
  have h := idx_facts t
  match a with
  | ⟨0, _⟩ => show win1_7.index t (0 : Fin 2) * 128 + 1 * k.val = k.val; omega
  | ⟨1, _⟩ => show win1_7.index t (1 : Fin 2) * 10 + 1 * j.val = j.val; omega

/-- The classifier's bias, one row: the window is the whole array at every point. -/
theorem blk1_8 {c : Dev nD} (V : (b : Ref sig .tc) → Buf (Elt Ideal) ((c : Thread nD τ).loc b)) (t : Fin cfg1.N) (j : Fin 10) :
    blk1 V 8 t (ix2 (0 : Fin 1) j) = V main_v31 (ix2 (0 : Fin 1) j) := by
  show V main_v31 (((cfg1.win 8).blk t).view.emb (ix2 (0 : Fin 1) j)) = V main_v31 (ix2 (0 : Fin 1) j)
  refine congrArg (V main_v31) (funext fun a => Fin.ext ?_)
  have h := idx_facts t
  match a with
  | ⟨0, _⟩ => show win1_8.index t (0 : Fin 2) * 1 + 1 * 0 = 0; omega
  | ⟨1, _⟩ => show win1_8.index t (1 : Fin 2) * 10 + 1 * j.val = j.val; omega

/-! ## The classifier of the final sums -/

/-- The classifier of the final sums, entry by entry: the linear map on row g of the sums against the classifier's
    weights and bias as the arrays hold them. -/
theorem out_last {c : Dev nD} (V : (b : Ref sig .tc) → Buf (Elt Ideal) ((c : Thread nD τ).loc b)) (acc : Vec Ideal S64x128 .f32) (h24 : 24 < cfg1.N) (g : Fin 64) (j : Fin 10) :
    k1_pay2 (F := Ideal) acc (blk1 V 7 ⟨24, h24⟩) (blk1 V 8 ⟨24, h24⟩) (ix2 g j)
      = Cert.Gin.lin (fun d => acc (ix2 g d)) (fun d j => V main_arg11 (ix2 d j)) (fun j => V main_v31 (ix2 0 j)) j := by
  rw [Pay.k1_pay2_apply]
  simp only [blk1_7, blk1_8]

/-! ## The running sums -/

/-- One tile's pooled rows: the sum over the tile's rows r of the indicator that row 2000·t + r belongs to graph g
    times the second layer's row 2000·t + r at column d. -/
def tile {c : Dev nD} (V : (b : Ref sig .tc) → Buf (Elt Ideal) ((c : Thread nD τ).loc b)) (t : Fin cfg1.N) (g : Fin 64) (d : Fin 128) : EReal :=
  ∑ r : Fin 2000, (if V main_v28 (ix2 (⟨2000 * t.val + r.val, row_lt t r⟩ : Fin 50000) 0) = BitVec.ofNat 32 g.val then (1 : EReal) else 0)
    * Cert.Gin.mlpRow (fun k => HAdd.hAdd (α := EReal) (β := EReal) (γ := EReal) (V main_v16 (ix2 (⟨2000 * t.val + r.val, row_lt t r⟩ : Fin 50000) k)) (V main_v27 (ix2 (⟨2000 * t.val + r.val, row_lt t r⟩ : Fin 50000) k)))
        (fun k j => V main_arg7 (ix2 k j)) (fun k => V main_v29 (ix2 0 k)) (fun k j => V main_arg9 (ix2 k j)) (fun k => V main_v30 (ix2 0 k)) d

/-- One point's update of the sums: the entry gains the tile's pooled rows. -/
theorem step_apply {c : Dev nD} (V : (b : Ref sig .tc) → Buf (Elt Ideal) ((c : Thread nD τ).loc b)) (t : Fin cfg1.N) (acc : Vec Ideal S64x128 .f32) (g : Fin 64) (d : Fin 128) :
    k1_pay1 (F := Ideal) (k1_pay4 (blk1 V 6 t)) (k1_pay5 (blk1 V 0 t) (blk1 V 1 t) (blk1 V 2 t) (blk1 V 4 t) (blk1 V 3 t) (blk1 V 5 t)) acc (ix2 g d)
      = acc (ix2 g d) + tile V t g d := by
  rw [Pay.k1_pay1_apply]
  refine congrArg (acc (ix2 g d) + ·) (Finset.sum_congr rfl fun r _ => ?_)
  rw [Pay.k1_pay4_apply, Pay.k1_pay5_apply]
  simp only [blk1_0, blk1_1, blk1_2, blk1_3, blk1_4, blk1_5, blk1_6]

/-- After point n the sums are the pooled rows of the tiles 0 … n. -/
theorem fold_upto {c : Dev nD} (V : (b : Ref sig .tc) → Buf (Elt Ideal) ((c : Thread nD τ).loc b)) (s : (n : ℕ) → n < cfg1.N → Vec Ideal S64x128 .f32)
    (h0 : ∀ h : 0 < cfg1.N, s 0 h = k1_pay1 (F := Ideal) (k1_pay4 (blk1 V 6 ⟨0, h⟩)) (k1_pay5 (blk1 V 0 ⟨0, h⟩) (blk1 V 1 ⟨0, h⟩) (blk1 V 2 ⟨0, h⟩) (blk1 V 4 ⟨0, h⟩) (blk1 V 3 ⟨0, h⟩) (blk1 V 5 ⟨0, h⟩)) (k1_pay3 (F := Ideal)))
    (hs : ∀ n (hn : n + 1 < cfg1.N), s (n + 1) hn = k1_pay1 (F := Ideal) (k1_pay4 (blk1 V 6 ⟨n + 1, hn⟩)) (k1_pay5 (blk1 V 0 ⟨n + 1, hn⟩) (blk1 V 1 ⟨n + 1, hn⟩) (blk1 V 2 ⟨n + 1, hn⟩) (blk1 V 4 ⟨n + 1, hn⟩) (blk1 V 3 ⟨n + 1, hn⟩) (blk1 V 5 ⟨n + 1, hn⟩)) (s n (Nat.lt_of_succ_lt hn)))
    (g : Fin 64) (d : Fin 128) :
    ∀ (n : ℕ) (hn : n < cfg1.N), s n hn (ix2 g d) = ∑ t : Fin (n + 1), tile V ⟨t.val, lt_of_lt_of_le t.isLt hn⟩ g d
  | 0, hn => by
    rw [h0 hn, step_apply, Pay.k1_pay3_apply, zero_add, Fin.sum_univ_one]
    rfl
  | n + 1, hn => by
    rw [hs n hn, step_apply, Fin.sum_univ_castSucc, fold_upto V s h0 hs g d n (Nat.lt_of_succ_lt hn)]
    rfl

/-- The tile sums: any sequence that starts at the first tile over zeros and adds one tile per point is, at the last
    point, the pooling over all 25 tiles of the second layer's rows. -/
theorem scratch_fold {c : Dev nD} (V : (b : Ref sig .tc) → Buf (Elt Ideal) ((c : Thread nD τ).loc b)) (s : (n : ℕ) → n < cfg1.N → Vec Ideal S64x128 .f32)
    (h0 : ∀ h : 0 < cfg1.N, s 0 h = k1_pay1 (F := Ideal) (k1_pay4 (blk1 V 6 ⟨0, h⟩)) (k1_pay5 (blk1 V 0 ⟨0, h⟩) (blk1 V 1 ⟨0, h⟩) (blk1 V 2 ⟨0, h⟩) (blk1 V 4 ⟨0, h⟩) (blk1 V 3 ⟨0, h⟩) (blk1 V 5 ⟨0, h⟩)) (k1_pay3 (F := Ideal)))
    (hs : ∀ n (hn : n + 1 < cfg1.N), s (n + 1) hn = k1_pay1 (F := Ideal) (k1_pay4 (blk1 V 6 ⟨n + 1, hn⟩)) (k1_pay5 (blk1 V 0 ⟨n + 1, hn⟩) (blk1 V 1 ⟨n + 1, hn⟩) (blk1 V 2 ⟨n + 1, hn⟩) (blk1 V 4 ⟨n + 1, hn⟩) (blk1 V 3 ⟨n + 1, hn⟩) (blk1 V 5 ⟨n + 1, hn⟩)) (s n (Nat.lt_of_succ_lt hn)))
    (h24 : 24 < cfg1.N) (g : Fin 64) (d : Fin 128) :
    s 24 h24 (ix2 g d) = Cert.Gin.poolTiles (T := 25) (R := 2000)
      (fun t r => V main_v28 (ix2 (⟨2000 * t.val + r.val, by have := t.isLt; have := r.isLt; omega⟩ : Fin 50000) 0))
      (fun t r => Cert.Gin.mlpRow (fun k => HAdd.hAdd (α := EReal) (β := EReal) (γ := EReal) (V main_v16 (ix2 (⟨2000 * t.val + r.val, by have := t.isLt; have := r.isLt; omega⟩ : Fin 50000) k)) (V main_v27 (ix2 (⟨2000 * t.val + r.val, by have := t.isLt; have := r.isLt; omega⟩ : Fin 50000) k))) (fun k j => V main_arg7 (ix2 k j)) (fun k => V main_v29 (ix2 0 k)) (fun k j => V main_arg9 (ix2 k j)) (fun k => V main_v30 (ix2 0 k))) g d := by
  rw [fold_upto V s h0 hs g d 24 h24]
  rfl

/-! ## The output array -/

/-- Only the last point writes the output block back. -/
theorem last_of_flush (t : Fin cfg1.N) (hf : (cfg1.win 9).flush t = true) : t.val = 24 := by
  have h := (flush1_9 t).mp hf
  have ht : t.val < 25 := lt_of_lt_of_eq t.isLt N_1
  omega

/-- The output array after the run is what the last point leaves in the output block: no point before the last writes
    back, and the last point's block is the whole array. -/
theorem region1_array {c : Dev nD} (V : (b : Ref sig .tc) → Buf (Elt Ideal) ((c : Thread nD τ).loc b)) (dat : Dat τ (Elt Ideal) Unit ℕ (UR sig nD τ) ℕ cfg1 c)
    (_hA : ∀ w, dat.A w = V (Pipeline.arrRef spec1 w)) (h24 : 24 < cfg1.N) :
    dat.arrAt 9 cfg1.N = dat.after 9 ⟨24, h24⟩ := by
  refine dat.arrAt_eq_of_cover 9 (dat.after 9 ⟨24, h24⟩) (fun t hf => ?_)
    (fun (i : S64x10.Idx) => ⟨⟨24, h24⟩, (flush1_9 _).mpr rfl, ?_⟩)
  · obtain rfl : t = ⟨24, h24⟩ := Fin.ext (last_of_flush t hf)
    refine funext fun (y : S64x10.Idx) => ?_
    show dat.after 9 ⟨24, h24⟩ ((cfg1.win 9).xinj _ y) = dat.after 9 ⟨24, h24⟩ (((cfg1.win 9).blk ⟨24, h24⟩).view.emb y)
    refine congrArg (dat.after 9 ⟨24, h24⟩) (funext fun a => Fin.ext ?_)
    have h := idx_facts ⟨24, h24⟩
    match a with
    | ⟨0, _⟩ => show (y 0).val = win1_9.index ⟨24, h24⟩ (0 : Fin 2) * 64 + 1 * (y 0).val; omega
    | ⟨1, _⟩ => show (y 1).val = win1_9.index ⟨24, h24⟩ (1 : Fin 2) * 10 + 1 * (y 1).val; omega
  · show i ∈ ((View.whole main_v32).slice (win1_9.rect ⟨24, h24⟩)).set
    rw [View.set_slice_whole, Rect.mem_set_unit]
    show ∀ a : Fin 2, win1_9.index ⟨24, h24⟩ a * S64x10.size a ≤ (i a).val ∧ (i a).val < win1_9.index ⟨24, h24⟩ a * S64x10.size a + S64x10.size a
    intro a
    have h := idx_facts ⟨24, h24⟩
    match a with
    | ⟨0, _⟩ =>
      show win1_9.index ⟨24, h24⟩ (0 : Fin 2) * 64 ≤ (i 0).val ∧ (i 0).val < win1_9.index ⟨24, h24⟩ (0 : Fin 2) * 64 + 64
      have hi : (i 0).val < 64 := (i 0).isLt
      omega
    | ⟨1, _⟩ =>
      show win1_9.index ⟨24, h24⟩ (1 : Fin 2) * 10 ≤ (i 1).val ∧ (i 1).val < win1_9.index ⟨24, h24⟩ (1 : Fin 2) * 10 + 10
      have hi : (i 1).val < 10 := (i 1).isLt
      omega

end Cert.Gin.K1

end
-- ==== Proof.Val.Glue.lean ====
/-
  The host operations around the two kernel regions, read as the reference's own stages.

  Between the regions the program slices the edge list, normalises negative node indices, gathers the
  source rows and adds them into zeros at the destination rows, and reshapes the bias vectors and the
  graph ids into one-row or one-column matrices. The neighbour sums it leaves are the reference's
  neighbour sums of the same operands; a reshaped vector holds the vector's entries; an argument no
  operation writes still holds its launch contents.
-/
import proofs.«400679_j13889924235785_2_alg».proof.Proof.Gen.KernelIdeal.Regions
import proofs.«400679_j13889924235785_2_alg».proof.Proof.Gen.ReferenceIdeal.Read
import proofs.«400679_j13889924235785_2_alg».proof.Proof.Val.Spec
import Idealize.ShloMosaic.Lib.StableHlo.Run
import Idealize.ShloMosaic.Lib.Pipeline.Value
import Idealize.ShloMosaic.Lib.ValueLayout
import Idealize.ShloMosaic.Lib.ValueIdx

noncomputable section

namespace Cert.Gin.Glue

open Idealize.ShloMosaic Idealize.ShloMosaic.TcCoe Idealize.ShloMosaic.ValueIdx Idealize.SL.Sem
open Cert.KernelIdeal

variable (m : (ℓ : Loc nD τ sig) → Buf (Elt Ideal) ℓ) (outs : Gen.Outs (F := Ideal)) (c : Dev nD)

/-! ## The launch contents of the arguments -/

set_option quotPrecheck false

local notation "a0" => m ((c.tc : Thread nD τ).loc main_arg0)
local notation "a1" => m ((c.tc : Thread nD τ).loc main_arg1)
local notation "a2" => m ((c.tc : Thread nD τ).loc main_arg2)
local notation "a3" => m ((c.tc : Thread nD τ).loc main_arg3)
local notation "a4" => m ((c.tc : Thread nD τ).loc main_arg4)
local notation "a5" => m ((c.tc : Thread nD τ).loc main_arg5)
local notation "a6" => m ((c.tc : Thread nD τ).loc main_arg6)
local notation "a7" => m ((c.tc : Thread nD τ).loc main_arg7)
local notation "a8" => m ((c.tc : Thread nD τ).loc main_arg8)
local notation "a9" => m ((c.tc : Thread nD τ).loc main_arg9)
local notation "a10" => m ((c.tc : Thread nD τ).loc main_arg10)
local notation "a11" => m ((c.tc : Thread nD τ).loc main_arg11)
local notation "a12" => m ((c.tc : Thread nD τ).loc main_arg12)
set_option quotPrecheck true

/-! ## Buffers no host operation writes -/

/-- The node features are still the launch's after the first host stretch. -/
theorem V1_arg0 : Gen.V1 m c main_arg0 = a0 := (Gen.V1_of m c main_arg0 (by decide)).trans rfl
/-- So is the first layer's first weight matrix … -/
theorem V1_arg3 : Gen.V1 m c main_arg3 = a3 := (Gen.V1_of m c main_arg3 (by decide)).trans rfl
/-- … and its second. -/
theorem V1_arg5 : Gen.V1 m c main_arg5 = a5 := (Gen.V1_of m c main_arg5 (by decide)).trans rfl

/-- The second host stretch leaves what the first region wrote. -/
theorem V3_v16 : Gen.V3 m outs c main_v16 = outs 2 main_v16 c :=
  (Gen.V3_of m outs c main_v16 (by decide)).trans (Function.update_self _ _ _)

/-- The second layer's weight matrices and the classifier's are still the launch's before the second region. -/
theorem V3_arg7 : Gen.V3 m outs c main_arg7 = a7 :=
  (Gen.V3_of m outs c main_arg7 (by decide)).trans ((Gen.V2_of m outs c main_arg7 (by decide)).trans ((Gen.V1_of m c main_arg7 (by decide)).trans rfl))
theorem V3_arg9 : Gen.V3 m outs c main_arg9 = a9 :=
  (Gen.V3_of m outs c main_arg9 (by decide)).trans ((Gen.V2_of m outs c main_arg9 (by decide)).trans ((Gen.V1_of m c main_arg9 (by decide)).trans rfl))
theorem V3_arg11 : Gen.V3 m outs c main_arg11 = a11 :=
  (Gen.V3_of m outs c main_arg11 (by decide)).trans ((Gen.V2_of m outs c main_arg11 (by decide)).trans ((Gen.V1_of m c main_arg11 (by decide)).trans rfl))

/-! ## The reshaped vectors

A vector reshaped to one row (or one column) holds, at the entry in that row's column k (that column's row n),
the vector's entry k (n): both have the same row-major position. -/

/-- The first layer's first bias as one row. -/
theorem bias_v14 (k : Fin 128) : Gen.V1 m c main_v14 (ix2 0 k) = a4 (ix1 k) := by
  have e : (Gen.V1 m c main_v14 : S1x128.Idx → EReal) = shapeCast S1x128 a4 Gen.shapeCasts_S128_S1x128 := by
    dsimp only [Gen.V1]; after_results; rfl
  refine (congrFun e (ix2 0 k)).trans ?_
  exact shapeCast_apply _ _ (ix2 0 k) (ix1 k)
    (by rw [Shape.rowMajor_val_two, Shape.rowMajor_val_one]; show k.val = 0 * 128 + k.val; omega)

/-- The first layer's second bias as one row. -/
theorem bias_v15 (k : Fin 128) : Gen.V1 m c main_v15 (ix2 0 k) = a6 (ix1 k) := by
  have e : (Gen.V1 m c main_v15 : S1x128.Idx → EReal) = shapeCast S1x128 a6 Gen.shapeCasts_S128_S1x128 := by
    dsimp only [Gen.V1]; after_results; rfl
  refine (congrFun e (ix2 0 k)).trans ?_
  exact shapeCast_apply _ _ (ix2 0 k) (ix1 k)
    (by rw [Shape.rowMajor_val_two, Shape.rowMajor_val_one]; show k.val = 0 * 128 + k.val; omega)

/-- The graph ids as one column. -/
theorem gid_v28 (n : Fin 50000) : Gen.V3 m outs c main_v28 (ix2 n 0) = a2 (ix1 n) := by
  have h2 : Gen.V2 m outs c main_arg2 = a2 :=
    (Gen.V2_of m outs c main_arg2 (by decide)).trans ((Gen.V1_of m c main_arg2 (by decide)).trans rfl)
  have e : (Gen.V3 m outs c main_v28 : (⟨S50000x1, .i32⟩ : BufTy).Contents (Elt Ideal))
      = shapeCast S50000x1 a2 Gen.shapeCasts_S50000_S50000x1 := by
    dsimp only [Gen.V3]; after_results; rw [h2]; rfl
  refine (congrFun e (ix2 n 0)).trans ?_
  exact shapeCast_apply _ _ (ix2 n 0) (ix1 n)
    (by rw [Shape.rowMajor_val_two, Shape.rowMajor_val_one]; show n.val = n.val * 1 + 0; omega)

/-- The second layer's first bias as one row. -/
theorem bias_v29 (k : Fin 128) : Gen.V3 m outs c main_v29 (ix2 0 k) = a8 (ix1 k) := by
  have h2 : Gen.V2 m outs c main_arg8 = a8 :=
    (Gen.V2_of m outs c main_arg8 (by decide)).trans ((Gen.V1_of m c main_arg8 (by decide)).trans rfl)
  have e : (Gen.V3 m outs c main_v29 : S1x128.Idx → EReal) = shapeCast S1x128 a8 Gen.shapeCasts_S128_S1x128 := by
    dsimp only [Gen.V3]; after_results; rw [h2]; rfl
  refine (congrFun e (ix2 0 k)).trans ?_
  exact shapeCast_apply _ _ (ix2 0 k) (ix1 k)
    (by rw [Shape.rowMajor_val_two, Shape.rowMajor_val_one]; show k.val = 0 * 128 + k.val; omega)

/-- The second layer's second bias as one row. -/
theorem bias_v30 (k : Fin 128) : Gen.V3 m outs c main_v30 (ix2 0 k) = a10 (ix1 k) := by
  have h2 : Gen.V2 m outs c main_arg10 = a10 :=
    (Gen.V2_of m outs c main_arg10 (by decide)).trans ((Gen.V1_of m c main_arg10 (by decide)).trans rfl)
  have e : (Gen.V3 m outs c main_v30 : S1x128.Idx → EReal) = shapeCast S1x128 a10 Gen.shapeCasts_S128_S1x128 := by
    dsimp only [Gen.V3]; after_results; rw [h2]; rfl
  refine (congrFun e (ix2 0 k)).trans ?_
  exact shapeCast_apply _ _ (ix2 0 k) (ix1 k)
    (by rw [Shape.rowMajor_val_two, Shape.rowMajor_val_one]; show k.val = 0 * 128 + k.val; omega)

/-- The classifier's bias as one row. -/
theorem bias_v31 (j : Fin 10) : Gen.V3 m outs c main_v31 (ix2 0 j) = a12 (ix1 j) := by
  have h2 : Gen.V2 m outs c main_arg12 = a12 :=
    (Gen.V2_of m outs c main_arg12 (by decide)).trans ((Gen.V1_of m c main_arg12 (by decide)).trans rfl)
  have e : (Gen.V3 m outs c main_v31 : S1x10.Idx → EReal) = shapeCast S1x10 a12 Gen.shapeCasts_S10_S1x10 := by
    dsimp only [Gen.V3]; after_results; rw [h2]; rfl
  refine (congrFun e (ix2 0 j)).trans ?_
  exact shapeCast_apply _ _ (ix2 0 j) (ix1 j)
    (by rw [Shape.rowMajor_val_two, Shape.rowMajor_val_one]; show j.val = 0 * 10 + j.val; omega)

/-! ## The neighbour sums -/

/-- After the first host stretch the neighbour-sum buffer holds the reference's first neighbour sums of the
    launch's features and edge list: the same slices, index normalisation, gather and scatter-add. -/
theorem agg1_eq : Gen.V1 m c main_v13 = Cert.ReferenceIdeal.Read.val_main_v13 (F := Ideal) a0 a1 := by
  dsimp only [Gen.V1]
  after_results
  rfl

/-- The edge list's source row, as a vector, is the reference's when the second stretch reads it … -/
theorem V2_v1 : (Gen.V2 m outs c main_v1 : (⟨S800000, .i32⟩ : BufTy).Contents (Elt Ideal))
    = Cert.ReferenceIdeal.Read.val_main_v1 (F := Ideal) a1 := by
  refine (Gen.V2_of m outs c main_v1 (by decide)).trans ?_
  dsimp only [Gen.V1]; after_results; rfl

/-- … and so is its destination row. -/
theorem V2_v3 : (Gen.V2 m outs c main_v3 : (⟨S800000, .i32⟩ : BufTy).Contents (Elt Ideal))
    = Cert.ReferenceIdeal.Read.val_main_v3 (F := Ideal) a1 := by
  refine (Gen.V2_of m outs c main_v3 (by decide)).trans ?_
  dsimp only [Gen.V1]; after_results; rfl

/-- After the second host stretch the neighbour-sum buffer holds the reference's second neighbour sums, once
    the first region has left the reference's first-layer output: the gathered rows are widened, which
    changes no extended real, and the index arithmetic is the first stretch's, read from the same edge list. -/
theorem agg2_eq
    (h16 : (Gen.V3 m outs c main_v16 : S50000x128.Idx → EReal)
      = Cert.ReferenceIdeal.Read.val_main_v26 (F := Ideal) a0 a1 a3 a4 a5 a6) :
    Gen.V3 m outs c main_v27 = Cert.ReferenceIdeal.Read.val_main_v36 (F := Ideal) a0 a1 a3 a4 a5 a6 := by
  have h1 := V2_v1 m outs c
  have h3 := V2_v3 m outs c
  have h16' : (Gen.V2 m outs c main_v16 : S50000x128.Idx → EReal)
      = Cert.ReferenceIdeal.Read.val_main_v26 (F := Ideal) a0 a1 a3 a4 a5 a6 :=
    ((Gen.V3_of m outs c main_v16 (by decide)).symm).trans h16
  dsimp only [Gen.V3]
  generalize hW : Gen.V2 m outs c = W at h1 h3 h16' ⊢
  clear hW h16
  after_results
  rw [h1, h3, h16']
  rfl

end Cert.Gin.Glue

end
-- ==== Proof.Val.Ref.lean ====
/-
  The reference program, stage by stage, read at one index over the extended reals, in the words of the
  row-wise network: the first layer's output, the second layer's output and the classifier are each a
  perceptron row (or one linear map) of the stage before. The neighbour sums and the pooled sums are kept
  as the program's own stages; everything else is opened down to the arguments.
-/
import proofs.«400679_j13889924235785_2_alg».proof.Proof.Gen.ReferenceIdeal.Read
import proofs.«400679_j13889924235785_2_alg».proof.Proof.Val.Spec
import Idealize.ShloMosaic.Lib.ValueIdx
import Idealize.ShloMosaic.PureOps.Ideal
import Idealize.ShloMosaic.PureOps.Ideal.Laws

noncomputable section

namespace Cert.Gin.Ref

open Idealize.ShloMosaic Idealize.ShloMosaic.ValueIdx Cert.ReferenceIdeal Cert.ReferenceIdeal.Read

/-- The contents of a buffer of shape s and element type e over the extended reals. -/
abbrev C (s : Shape) (e : EltTy) := (⟨s, e⟩ : BufTy).Contents (Elt Ideal)

/-! ## Where each stage reads its operands

A matrix product at entry (n, j) reads row n of the left operand and column j of the right one; a bias
broadcast along the rows reads entry j of the vector. -/

section Index

theorem lidx15 (n : Fin 50000) (j k : Fin 128) : lidx_main_v15 (ix2 n j) k = ix2 n k :=
  funext fun a => match a with | ⟨0, _⟩ => rfl | ⟨1, _⟩ => rfl
theorem ridx15 (n : Fin 50000) (j k : Fin 128) : ridx_main_v15 (ix2 n j) k = ix2 k j :=
  funext fun a => match a with | ⟨0, _⟩ => rfl | ⟨1, _⟩ => rfl
theorem bidx17 (n : Fin 50000) (j : Fin 128) : idx_main_v16 (idx_main_v17 (ix2 n j)) = ix1 j :=
  funext fun a => match a with | ⟨0, _⟩ => rfl
theorem lidx21 (n : Fin 50000) (j k : Fin 128) : lidx_main_v21 (ix2 n j) k = ix2 n k :=
  funext fun a => match a with | ⟨0, _⟩ => rfl | ⟨1, _⟩ => rfl
theorem ridx21 (n : Fin 50000) (j k : Fin 128) : ridx_main_v21 (ix2 n j) k = ix2 k j :=
  funext fun a => match a with | ⟨0, _⟩ => rfl | ⟨1, _⟩ => rfl
theorem bidx23 (n : Fin 50000) (j : Fin 128) : idx_main_v22 (idx_main_v23 (ix2 n j)) = ix1 j :=
  funext fun a => match a with | ⟨0, _⟩ => rfl
theorem lidx38 (n : Fin 50000) (j k : Fin 128) : lidx_main_v38 (ix2 n j) k = ix2 n k :=
  funext fun a => match a with | ⟨0, _⟩ => rfl | ⟨1, _⟩ => rfl
theorem ridx38 (n : Fin 50000) (j k : Fin 128) : ridx_main_v38 (ix2 n j) k = ix2 k j :=
  funext fun a => match a with | ⟨0, _⟩ => rfl | ⟨1, _⟩ => rfl
theorem bidx40 (n : Fin 50000) (j : Fin 128) : idx_main_v39 (idx_main_v40 (ix2 n j)) = ix1 j :=
  funext fun a => match a with | ⟨0, _⟩ => rfl
theorem lidx44 (n : Fin 50000) (j k : Fin 128) : lidx_main_v44 (ix2 n j) k = ix2 n k :=
  funext fun a => match a with | ⟨0, _⟩ => rfl | ⟨1, _⟩ => rfl
theorem ridx44 (n : Fin 50000) (j k : Fin 128) : ridx_main_v44 (ix2 n j) k = ix2 k j :=
  funext fun a => match a with | ⟨0, _⟩ => rfl | ⟨1, _⟩ => rfl
theorem bidx46 (n : Fin 50000) (j : Fin 128) : idx_main_v45 (idx_main_v46 (ix2 n j)) = ix1 j :=
  funext fun a => match a with | ⟨0, _⟩ => rfl
theorem lidx53 (g : Fin 64) (c : Fin 10) (k : Fin 128) : lidx_main_v53 (ix2 g c) k = ix2 g k :=
  funext fun a => match a with | ⟨0, _⟩ => rfl | ⟨1, _⟩ => rfl
theorem ridx53 (g : Fin 64) (c : Fin 10) (k : Fin 128) : ridx_main_v53 (ix2 g c) k = ix2 k c :=
  funext fun a => match a with | ⟨0, _⟩ => rfl | ⟨1, _⟩ => rfl
theorem bidx55 (g : Fin 64) (c : Fin 10) : idx_main_v54 (idx_main_v55 (ix2 g c)) = ix1 c :=
  funext fun a => match a with | ⟨0, _⟩ => rfl

end Index

/-- first layer: row n of the reference's h1 (main_v26) -/
theorem h1_apply (x0 : C S50000x128 .f32) (x1 : C S2x800000 .i32) (x3 : C S128x128 .f32) (x4 : C S128 .f32)
    (x5 : C S128x128 .f32) (x6 : C S128 .f32) (n : Fin 50000) (j : Fin 128) :
    val_main_v26 (F := Ideal) x0 x1 x3 x4 x5 x6 (ix2 n j) =
      Cert.Gin.mlpRow (fun k => x0 (ix2 n k) + val_main_v13 (F := Ideal) x0 x1 (ix2 n k))
        (fun k j => x3 (ix2 k j)) (fun k => x4 (ix1 k)) (fun k j => x5 (ix2 k j)) (fun k => x6 (ix1 k)) j := by
  simp only [val_main_v26_apply, val_main_v25_apply, val_main_cst_2_apply, val_main_v24_apply, val_main_v23_apply,
    val_main_v22_apply, val_main_v21_apply, val_main_v20_apply, val_main_v19_apply, val_main_cst_1_apply,
    val_main_v18_apply, val_main_v17_apply, val_main_v16_apply, val_main_v15_apply, val_main_v14_apply]
  simp only [lidx21, ridx21, bidx23, lidx15, ridx15, bidx17]
  simp only [Ideal.addf_def, Ideal.maximumf_def, Ideal.ofBits_def, Ideal.ofBits_zero_f32]
  rfl

/-- second layer: row n of the reference's h2 (main_v49) -/
theorem h2_apply (x0 : C S50000x128 .f32) (x1 : C S2x800000 .i32) (x3 : C S128x128 .f32) (x4 : C S128 .f32)
    (x5 : C S128x128 .f32) (x6 : C S128 .f32) (x7 : C S128x128 .f32) (x8 : C S128 .f32) (x9 : C S128x128 .f32)
    (x10 : C S128 .f32) (n : Fin 50000) (j : Fin 128) :
    val_main_v49 (F := Ideal) x0 x1 x3 x4 x5 x6 x7 x8 x9 x10 (ix2 n j) =
      Cert.Gin.mlpRow (fun k => val_main_v26 (F := Ideal) x0 x1 x3 x4 x5 x6 (ix2 n k)
          + val_main_v36 (F := Ideal) x0 x1 x3 x4 x5 x6 (ix2 n k))
        (fun k j => x7 (ix2 k j)) (fun k => x8 (ix1 k)) (fun k j => x9 (ix2 k j)) (fun k => x10 (ix1 k)) j := by
  simp only [val_main_v49_apply, val_main_v48_apply, val_main_cst_7_apply, val_main_v47_apply, val_main_v46_apply,
    val_main_v45_apply, val_main_v44_apply, val_main_v43_apply, val_main_v42_apply, val_main_cst_6_apply,
    val_main_v41_apply, val_main_v40_apply, val_main_v39_apply, val_main_v38_apply, val_main_v37_apply]
  simp only [lidx44, ridx44, bidx46, lidx38, ridx38, bidx40]
  simp only [Ideal.addf_def, Ideal.maximumf_def, Ideal.ofBits_def, Ideal.ofBits_zero_f32]
  rfl

/-- the classifier on the pooled features (main_v56 over main_v52) -/
theorem out_apply (x0 : C S50000x128 .f32) (x1 : C S2x800000 .i32) (x2 : C S50000 .i32) (x3 : C S128x128 .f32)
    (x4 : C S128 .f32) (x5 : C S128x128 .f32) (x6 : C S128 .f32) (x7 : C S128x128 .f32) (x8 : C S128 .f32)
    (x9 : C S128x128 .f32) (x10 : C S128 .f32) (x11 : C S128x10 .f32) (x12 : C S10 .f32) (g : Fin 64) (c : Fin 10) :
    val_main_v56 (F := Ideal) x0 x1 x2 x3 x4 x5 x6 x7 x8 x9 x10 x11 x12 (ix2 g c) =
      Cert.Gin.lin (fun d => val_main_v52 (F := Ideal) x0 x1 x2 x3 x4 x5 x6 x7 x8 x9 x10 (ix2 g d))
        (fun d c => x11 (ix2 d c)) (fun c => x12 (ix1 c)) c := by
  simp only [val_main_v56_apply, val_main_v55_apply, val_main_v54_apply, val_main_v53_apply]
  simp only [lidx53, ridx53, bidx55]
  simp only [Ideal.addf_def]
  rfl

end Cert.Gin.Ref

end
-- ==== Proof.Val.PoolSum.lean ====
/-
  Sum pooling, two ways, is one sum.

  The reference pools by scattering rows into a zero table with addition: row `n` of the features lands on row
  `gid n` (read as a signed integer) of the table, column for column. The tiled program pools 25 tiles of 2000 rows,
  each row weighted by one when its id is the wanted graph's 32-bit word and by zero when it is not.
-/
import proofs.«400679_j13889924235785_2_alg».proof.Proof.Gen.ReferenceIdeal.Read
import proofs.«400679_j13889924235785_2_alg».proof.Proof.Val.Spec

noncomputable section

namespace Cert.Gin.Pool

open Idealize.ShloMosaic Idealize.ShloMosaic.ValueIdx
open Cert.ReferenceIdeal Cert.ReferenceIdeal.Read

/-- The contents of a buffer of shape `s` and element type `e`, over the extended reals. -/
abbrev C (s : Shape) (e : EltTy) := (⟨s, e⟩ : BufTy).Contents (Elt Ideal)

/-! ## Where the scatter puts an update -/

local notation "dS" => scatter_S64x128_S50000x1_S50000x128_1_0_0_1

theorem start1 (idx : IVec S50000x1 32) (n : Fin 50000) (k : Fin 128) :
    (dS).start (ix2 n k) idx (1 : Fin 2) = 0 := by
  unfold ScatterDims.start
  rw [dif_neg (by decide)]

theorem window0 (n : Fin 50000) (k : Fin 128) :
    (dS).window (ix2 n k) (0 : Fin 2) = 0 := by
  unfold ScatterDims.window
  rw [dif_neg (by decide)]

theorem window1 (n : Fin 50000) (k : Fin 128) :
    (dS).window (ix2 n k) (1 : Fin 2) = k.val := by
  unfold ScatterDims.window
  rw [dif_pos (by decide)]
  rfl

theorem start0 (idx : IVec S50000x1 32) (n : Fin 50000) (k : Fin 128) :
    (dS).start (ix2 n k) idx (0 : Fin 2) = (idx (ix2 n 0)).toInt := by
  unfold ScatterDims.start
  rw [dif_pos (by decide)]
  congr 2
  funext b
  match b with
  | ⟨0, _⟩ => rfl
  | ⟨1, _⟩ => rfl

/-- An update at row `n`, column `k` lands on entry `(g, c)` of the table exactly when row `n`'s id, read signed,
    is `g` and the column is the same: the start is `(id, 0)`, the window coordinate `(0, k)`. -/
theorem resultIdx_iff (idx : IVec S50000x1 32) (n : Fin 50000) (k : Fin 128) (g : Fin 64) (c : Fin 128) :
    (dS).resultIdx? (ix2 n k) idx = some (ix2 g c) ↔ (idx (ix2 n 0)).toInt = (g.val : ℤ) ∧ k = c := by
  have s0 := start0 idx n k
  have s1 := start1 idx n k
  have w0 := window0 n k
  have w1 := window1 n k
  have hg := g.isLt
  have hc := c.isLt
  have hk := k.isLt
  unfold ScatterDims.resultIdx?
  constructor
  · intro h
    split at h
    · rename_i hb
      have h' := Option.some.inj h
      have v0 : ((dS).start (ix2 n k) idx (0 : Fin 2) + ((dS).window (ix2 n k) (0 : Fin 2) : ℕ)).toNat = g.val :=
        congrArg Fin.val (congrFun h' (0 : Fin 2))
      have v1 : ((dS).start (ix2 n k) idx (1 : Fin 2) + ((dS).window (ix2 n k) (1 : Fin 2) : ℕ)).toNat = c.val :=
        congrArg Fin.val (congrFun h' (1 : Fin 2))
      have b0 := (hb (0 : Fin 2)).1
      rw [s0, w0] at v0 b0
      rw [s1, w1] at v1
      refine ⟨by omega, Fin.ext (by omega)⟩
    · exact absurd h (by simp)
  · rintro ⟨h0, rfl⟩
    have hb : ∀ a : Fin 2, 0 ≤ (dS).start (ix2 n k) idx a + ((dS).window (ix2 n k) a : ℕ) ∧
        (dS).start (ix2 n k) idx a + ((dS).window (ix2 n k) a : ℕ) < S64x128.size a := by
      refine Fin.forall_fin_two.2 ⟨?_, ?_⟩
      · rw [s0, w0, h0]; show _ ∧ _ < ((64 : ℕ) : ℤ); omega
      · rw [s1, w1]; show _ ∧ _ < ((128 : ℕ) : ℤ); omega
    rw [dif_pos hb]
    refine congrArg some (funext fun a => ?_)
    revert a
    refine Fin.forall_fin_two.2 ⟨Fin.ext ?_, Fin.ext ?_⟩
    · show ((dS).start (ix2 n k) idx (0 : Fin 2) + ((dS).window (ix2 n k) (0 : Fin 2) : ℕ)).toNat = g.val
      rw [s0, w0, h0]; omega
    · show ((dS).start (ix2 n k) idx (1 : Fin 2) + ((dS).window (ix2 n k) (1 : Fin 2) : ℕ)).toNat = k.val
      rw [s1, w1]; omega

/-! ## The 32-bit word of a small number -/

/-- A 32-bit word reads, signed, as `g < 64` exactly when it is the word of `g`. -/
theorem toInt_eq_iff (w : BitVec 32) (g : Fin 64) : w.toInt = (g.val : ℤ) ↔ w = BitVec.ofNat 32 g.val := by
  have hg := g.isLt
  have hw := w.isLt
  rw [BitVec.toInt_eq_toNat_cond, ← BitVec.toNat_inj, BitVec.toNat_ofNat]
  constructor
  · intro h; split at h <;> omega
  · intro h; split <;> omega

/-! ## The tiles cover the rows once -/

/-- Tile `t`, row `r` of the tile, is row `2000 t + r`: a bijection of `25 × 2000` with the `50000` rows. -/
def tileEquiv : Fin 25 × Fin 2000 ≃ Fin 50000 where
  toFun p := ⟨2000 * p.1.val + p.2.val, by have := p.1.isLt; have := p.2.isLt; omega⟩
  invFun n := (⟨n.val / 2000, by have := n.isLt; omega⟩, ⟨n.val % 2000, by omega⟩)
  left_inv p := by
    have := p.1.isLt; have := p.2.isLt
    refine Prod.ext (Fin.ext ?_) (Fin.ext ?_)
    · show (2000 * p.1.val + p.2.val) / 2000 = p.1.val; omega
    · show (2000 * p.1.val + p.2.val) % 2000 = p.2.val; omega
  right_inv n := by
    refine Fin.ext ?_
    show 2000 * (n.val / 2000) + n.val % 2000 = n.val; omega

/-- pooling tile by tile (25 tiles of 2000 rows, a one-hot weight per row) is pooling over all 50000 rows -/
theorem poolTiles_eq_pool (gid : Fin 50000 → BitVec 32) (h : Fin 50000 → Fin 128 → EReal) (g : Fin 64) (d : Fin 128) :
    Cert.Gin.poolTiles (T := 25) (R := 2000) (fun t r => gid ⟨2000 * t.val + r.val, by have := t.isLt; have := r.isLt; omega⟩)
      (fun t r => h ⟨2000 * t.val + r.val, by have := t.isLt; have := r.isLt; omega⟩) g d = Cert.Gin.pool gid h g d := by
  unfold Cert.Gin.poolTiles Cert.Gin.pool
  rw [Finset.sum_filter,
    ← Equiv.sum_comp tileEquiv (fun n => if (gid n).toInt = (g.val : ℤ) then h n d else 0),
    Fintype.sum_prod_type]
  refine Finset.sum_congr rfl fun t _ => Finset.sum_congr rfl fun r _ => ?_
  show (if gid (tileEquiv (t, r)) = BitVec.ofNat 32 g.val then (1 : EReal) else 0) * h (tileEquiv (t, r)) d =
    if (gid (tileEquiv (t, r))).toInt = (g.val : ℤ) then h (tileEquiv (t, r)) d else 0
  by_cases hw : gid (tileEquiv (t, r)) = BitVec.ofNat 32 g.val
  · rw [if_pos hw, if_pos ((toInt_eq_iff _ g).2 hw), one_mul]
  · rw [if_neg hw, if_neg (fun e => hw ((toInt_eq_iff _ g).1 e)), zero_mul]

/-! ## The reference's pooling -/

/-- The scattered sum at entry `(g, c)`: over all updates `(n, k)` that land there, which are the rows `n` of graph
    `g` at column `k = c`. -/
theorem scatter_sum (idx : IVec S50000x1 32) (y : S50000x128.Idx → EReal) (g : Fin 64) (c : Fin 128) :
    (∑ j ∈ Finset.univ.filter (fun j : S50000x128.Idx => (dS).resultIdx? j idx = some (ix2 g c)), y j) =
      ∑ n ∈ Finset.univ.filter (fun n : Fin 50000 => (idx (ix2 n 0)).toInt = (g.val : ℤ)), y (ix2 n c) := by
  rw [Finset.sum_filter, Finset.sum_filter, sum_idx2]
  refine Finset.sum_congr rfl fun n _ => ?_
  simp only [resultIdx_iff]
  by_cases hn : (idx (ix2 n 0)).toInt = (g.val : ℤ)
  · simp only [hn, true_and, if_true]
    exact Finset.sum_ite_eq' Finset.univ c (fun k => y (ix2 n k)) |>.trans (by simp)
  · simp only [hn, false_and, if_false]
    exact Finset.sum_const_zero

/-- the reference's pooled features (main_v52) are the sum pooling of its second layer (main_v49) by the graph ids -/
theorem pool_apply (x0 : C S50000x128 .f32) (x1 : C S2x800000 .i32) (x2 : C S50000 .i32) (x3 : C S128x128 .f32) (x4 : C S128 .f32) (x5 : C S128x128 .f32) (x6 : C S128 .f32) (x7 : C S128x128 .f32) (x8 : C S128 .f32) (x9 : C S128x128 .f32) (x10 : C S128 .f32) (g : Fin 64) (d : Fin 128) :
    val_main_v52 (F := Ideal) x0 x1 x2 x3 x4 x5 x6 x7 x8 x9 x10 (ix2 g d) =
      Cert.Gin.pool (fun n : Fin 50000 => x2 (ix1 n)) (fun n k => val_main_v49 (F := Ideal) x0 x1 x3 x4 x5 x6 x7 x8 x9 x10 (ix2 n k)) g d := by
  unfold val_main_v52 Cert.Gin.pool
  generalize val_main_v49 (F := Ideal) x0 x1 x3 x4 x5 x6 x7 x8 x9 x10 = y
  show val_main_v50 (F := Ideal) (ix2 g d) +
      ∑ j ∈ Finset.univ.filter (fun j : S50000x128.Idx => (dS).resultIdx? j (val_main_v51 (F := Ideal) x2) = some (ix2 g d)), y j = _
  have z : (FloatOps.ofBits (F := Ideal) .f32 0x00000000#32) = (0 : EReal) := Ideal.ofBits_zero_f32
  rw [val_main_v50_apply, val_main_cst_8_apply, z, zero_add, scatter_sum]
  refine Finset.sum_congr ?_ fun _ _ => rfl
  refine Finset.filter_congr fun n _ => ?_
  rw [val_main_v51_apply]
  have e : idx_main_v51 (ix2 n (0 : Fin 1)) = ix1 n := eq_ix1 _
  rw [e]

end Cert.Gin.Pool

end
-- ==== Proof.Val.KernelValue.lean ====
import proofs.«400679_j13889924235785_2_alg».proof.Proof.KI.Run
import proofs.«400679_j13889924235785_2_alg».proof.Proof.KI.R0
import proofs.«400679_j13889924235785_2_alg».proof.Proof.KI.R1
import proofs.«400679_j13889924235785_2_alg».proof.Proof.Val.K0Array
import proofs.«400679_j13889924235785_2_alg».proof.Proof.Val.K1Array
import proofs.«400679_j13889924235785_2_alg».proof.Proof.Val.Glue
import proofs.«400679_j13889924235785_2_alg».proof.Proof.Val.Ref
import proofs.«400679_j13889924235785_2_alg».proof.Proof.Val.PoolSum

/-!
  The tiled program's result is the reference's result.

  The tiled program computes the network in two passes over 25 tiles of 2000 rows. The first pass leaves, row by
  row, the first layer's perceptron of the features plus the neighbour sums. The second pass applies the second
  layer's perceptron to each tile, adds the tile's rows into 64 running sums by graph id, and at the last tile sends
  the sums through the classifier. Read over the extended reals, each of these is a stage of the reference: the
  first pass its first layer, the running sums after the last tile its pooled features, the classifier's output its
  result.
-/

noncomputable section

namespace Cert.Gin.KV

open Idealize.ShloMosaic Idealize.ShloMosaic.ValueIdx

/-- The contents of a buffer of shape `s` and element type `e`, over the extended reals. -/
abbrev C (s : Shape) (e : EltTy) := (⟨s, e⟩ : BufTy).Contents (Elt Ideal)

/-- Row `r` of tile `t` is row `2000 t + r` of the whole array. -/
abbrev row (t : Fin 25) (r : Fin 2000) : Fin 50000 :=
  ⟨2000 * t.val + r.val, by have := t.isLt; have := r.isLt; omega⟩

section Stages

open Cert.ReferenceIdeal Cert.ReferenceIdeal.Read

/-! ## The first pass is the reference's first layer -/

/-- An array that holds, row by row, the perceptron of `v0 + v13` under the weights `v3`, `v5` and the one-row
    biases `v14`, `v15` is the reference's first layer, once those operands are the reference's: the features, the
    neighbour sums of the features, the weight matrices, and the bias vectors laid out as rows. -/
theorem layer1_eq (x0 : C S50000x128 .f32) (x1 : C S2x800000 .i32) (x3 : C S128x128 .f32) (x4 : C S128 .f32)
    (x5 : C S128x128 .f32) (x6 : C S128 .f32)
    (v0 v13 : C S50000x128 .f32) (v3 v5 : C S128x128 .f32) (v14 v15 : C S1x128 .f32)
    (h0 : v0 = x0) (h13 : v13 = val_main_v13 (F := Ideal) x0 x1) (h3 : v3 = x3)
    (h14 : ∀ k : Fin 128, v14 (ix2 (0 : Fin 1) k) = x4 (ix1 k))
    (h5 : v5 = x5) (h15 : ∀ k : Fin 128, v15 (ix2 (0 : Fin 1) k) = x6 (ix1 k))
    (A : C S50000x128 .f32)
    (hA : A = fun i => Cert.Gin.mlpRow (fun k => v0 (ix2 (i 0 : Fin 50000) k) + v13 (ix2 (i 0 : Fin 50000) k))
      (fun k j => v3 (ix2 k j)) (fun k => v14 (ix2 (0 : Fin 1) k))
      (fun k j => v5 (ix2 k j)) (fun k => v15 (ix2 (0 : Fin 1) k)) (i 1 : Fin 128)) :
    A = val_main_v26 (F := Ideal) x0 x1 x3 x4 x5 x6 := by
  subst v0 v13 v3 v5 A
  funext i
  obtain ⟨n, j, rfl⟩ : ∃ (n : Fin 50000) (j : Fin 128), i = ix2 n j := ⟨i 0, i 1, eq_ix2 i⟩
  rw [Cert.Gin.Ref.h1_apply]
  show Cert.Gin.mlpRow _ _ (fun k => v14 (ix2 (0 : Fin 1) k)) _ (fun k => v15 (ix2 (0 : Fin 1) k)) j = _
  rw [show (fun k => v14 (ix2 (0 : Fin 1) k)) = fun k => x4 (ix1 k) from funext h14,
    show (fun k => v15 (ix2 (0 : Fin 1) k)) = fun k => x6 (ix1 k) from funext h15]

/-! ## The second pass is the reference's last stage -/

/-- A 64x10 array `R` that is the classifier (weights `v11`, one-row bias `v31`) of 64x128 sums `acc`, where `acc`
    pools tile by tile, by the one-column graph ids `v28`, the second layer's perceptron (weights `v7`, `v9`, one-row
    biases `v29`, `v30`) of `v16 + v27`, is the reference's result, once `v16` is the reference's first layer,
    `v27` its neighbour sums of that layer, and the other operands the reference's arguments laid out as said. -/
theorem classifier_eq (x0 : C S50000x128 .f32) (x1 : C S2x800000 .i32) (x2 : C S50000 .i32) (x3 : C S128x128 .f32)
    (x4 : C S128 .f32) (x5 : C S128x128 .f32) (x6 : C S128 .f32) (x7 : C S128x128 .f32) (x8 : C S128 .f32)
    (x9 : C S128x128 .f32) (x10 : C S128 .f32) (x11 : C S128x10 .f32) (x12 : C S10 .f32)
    (v16 v27 : C S50000x128 .f32) (v28 : C S50000x1 .i32) (v7 v9 : C S128x128 .f32) (v29 v30 : C S1x128 .f32)
    (v11 : C S128x10 .f32) (v31 : C S1x10 .f32)
    (h16 : v16 = val_main_v26 (F := Ideal) x0 x1 x3 x4 x5 x6)
    (h27 : v27 = val_main_v36 (F := Ideal) x0 x1 x3 x4 x5 x6)
    (h28 : ∀ n : Fin 50000, v28 (ix2 n (0 : Fin 1)) = x2 (ix1 n))
    (h7 : v7 = x7) (h29 : ∀ k : Fin 128, v29 (ix2 (0 : Fin 1) k) = x8 (ix1 k))
    (h9 : v9 = x9) (h30 : ∀ k : Fin 128, v30 (ix2 (0 : Fin 1) k) = x10 (ix1 k))
    (h11 : v11 = x11) (h31 : ∀ j : Fin 10, v31 (ix2 (0 : Fin 1) j) = x12 (ix1 j))
    (acc : C S64x128 .f32) (R : C S64x10 .f32)
    (hacc : ∀ (g : Fin 64) (d : Fin 128), acc (ix2 g d) =
      Cert.Gin.poolTiles (T := 25) (R := 2000) (fun t r => v28 (ix2 (row t r) (0 : Fin 1)))
        (fun t r => Cert.Gin.mlpRow (fun k => v16 (ix2 (row t r) k) + v27 (ix2 (row t r) k))
          (fun k j => v7 (ix2 k j)) (fun k => v29 (ix2 (0 : Fin 1) k))
          (fun k j => v9 (ix2 k j)) (fun k => v30 (ix2 (0 : Fin 1) k))) g d)
    (hR : ∀ (g : Fin 64) (j : Fin 10), R (ix2 g j) =
      Cert.Gin.lin (fun d => acc (ix2 g d)) (fun d j => v11 (ix2 d j)) (fun j => v31 (ix2 (0 : Fin 1) j)) j) :
    R = val_main_v56 (F := Ideal) x0 x1 x2 x3 x4 x5 x6 x7 x8 x9 x10 x11 x12 := by
  subst v16 v27 v7 v9 v11
  -- the second layer, row by row, is the reference's
  have e2 : (fun (n : Fin 50000) => Cert.Gin.mlpRow
        (fun k => val_main_v26 (F := Ideal) x0 x1 x3 x4 x5 x6 (ix2 n k) + val_main_v36 (F := Ideal) x0 x1 x3 x4 x5 x6 (ix2 n k))
        (fun k j => x7 (ix2 k j)) (fun k => v29 (ix2 (0 : Fin 1) k))
        (fun k j => x9 (ix2 k j)) (fun k => v30 (ix2 (0 : Fin 1) k)))
      = fun n k => val_main_v49 (F := Ideal) x0 x1 x3 x4 x5 x6 x7 x8 x9 x10 (ix2 n k) := by
    funext n k
    rw [Cert.Gin.Ref.h2_apply,
      show (fun k => v29 (ix2 (0 : Fin 1) k)) = fun k => x8 (ix1 k) from funext h29,
      show (fun k => v30 (ix2 (0 : Fin 1) k)) = fun k => x10 (ix1 k) from funext h30]
  -- the running sums after the last tile are the reference's pooled features
  have eacc : ∀ (g : Fin 64) (d : Fin 128),
      acc (ix2 g d) = val_main_v52 (F := Ideal) x0 x1 x2 x3 x4 x5 x6 x7 x8 x9 x10 (ix2 g d) := fun g d => by
    refine (hacc g d).trans ?_
    refine (Cert.Gin.Pool.poolTiles_eq_pool (fun n => v28 (ix2 n (0 : Fin 1)))
      (fun n => Cert.Gin.mlpRow
        (fun k => val_main_v26 (F := Ideal) x0 x1 x3 x4 x5 x6 (ix2 n k) + val_main_v36 (F := Ideal) x0 x1 x3 x4 x5 x6 (ix2 n k))
        (fun k j => x7 (ix2 k j)) (fun k => v29 (ix2 (0 : Fin 1) k))
        (fun k j => x9 (ix2 k j)) (fun k => v30 (ix2 (0 : Fin 1) k))) g d).trans ?_
    rw [Cert.Gin.Pool.pool_apply, e2,
      show (fun n : Fin 50000 => v28 (ix2 n (0 : Fin 1))) = fun n => x2 (ix1 n) from funext h28]
  funext i
  obtain ⟨g, j, rfl⟩ : ∃ (g : Fin 64) (j : Fin 10), i = ix2 g j := ⟨i 0, i 1, eq_ix2 i⟩
  rw [hR g j, Cert.Gin.Ref.out_apply,
    show (fun d => acc (ix2 g d)) = fun d => val_main_v52 (F := Ideal) x0 x1 x2 x3 x4 x5 x6 x7 x8 x9 x10 (ix2 g d) from funext (eacc g),
    show (fun j => v31 (ix2 (0 : Fin 1) j)) = fun j => x12 (ix1 j) from funext h31]

end Stages

/-! ## The run

The buffers at the two regions' entries are the launch memory carried through the host operations: `E1` before the
first region, `E3` before the second, with the first region's result array in between. -/

section Run

open Idealize.ShloMosaic.TcCoe Idealize.SL.Sem
open Cert.KernelIdeal Cert.KernelIdeal.Gen Cert.KernelIdeal.Hand

variable (m : (ℓ : Loc nD τ sig) → Buf (Elt Ideal) ℓ) (c : Dev nD)

set_option quotPrecheck false
local notation "a0" => m ((c.tc : Thread nD τ).loc main_arg0)
local notation "a1" => m ((c.tc : Thread nD τ).loc main_arg1)
local notation "a2" => m ((c.tc : Thread nD τ).loc main_arg2)
local notation "a3" => m ((c.tc : Thread nD τ).loc main_arg3)
local notation "a4" => m ((c.tc : Thread nD τ).loc main_arg4)
local notation "a5" => m ((c.tc : Thread nD τ).loc main_arg5)
local notation "a6" => m ((c.tc : Thread nD τ).loc main_arg6)
local notation "a7" => m ((c.tc : Thread nD τ).loc main_arg7)
local notation "a8" => m ((c.tc : Thread nD τ).loc main_arg8)
local notation "a9" => m ((c.tc : Thread nD τ).loc main_arg9)
local notation "a10" => m ((c.tc : Thread nD τ).loc main_arg10)
local notation "a11" => m ((c.tc : Thread nD τ).loc main_arg11)
local notation "a12" => m ((c.tc : Thread nD τ).loc main_arg12)
set_option quotPrecheck true

/-- There is a 25th point. -/
theorem lt24 : 24 < cfg1.N := lt_of_lt_of_eq (by decide : 24 < 25) (N_1).symm

/-- What the second region finds in the first region's result array is the reference's first layer: the array is
    what the 25 write-backs of the first region leave, each block the perceptron of the blocks read there, so row by
    row the perceptron of the features plus their neighbour sums. -/
theorem h16 : (E3 m c main_v16 : S50000x128.Idx → EReal)
    = Cert.ReferenceIdeal.Read.val_main_v26 (F := Ideal) a0 a1 a3 a4 a5 a6 := by
  refine layer1_eq a0 a1 a3 a4 a5 a6
    (E1 m c main_arg0) (E1 m c main_v13) (E1 m c main_arg3) (E1 m c main_arg5) (E1 m c main_v14) (E1 m c main_v15)
    (Cert.Gin.Glue.V1_arg0 m c) (Cert.Gin.Glue.agg1_eq m c) (Cert.Gin.Glue.V1_arg3 m c) (Cert.Gin.Glue.bias_v14 m c)
    (Cert.Gin.Glue.V1_arg5 m c) (Cert.Gin.Glue.bias_v15 m c) _ ?_
  refine (Cert.Gin.Glue.V3_v16 m (outsA m) c).trans ?_
  refine (X2_arr m c 6).trans ?_
  exact Cert.Gin.K0.region0_array (E1 m c) (dat0 (E1 m) c) (A_eq0 (E1 m) c)
    (fun t => (after0_6 (E1 m) c t).trans (out0_6_eq' _ _ _ _ _ _))

/-- THE PROGRAM'S RESULT ARRAY IS THE REFERENCE'S RESULT of the same arguments: after the second region the result
    array holds what the last point wrote back, the classifier of the running sums after the last tile; those sums
    pool, tile by tile, the second layer's perceptron of the first layer plus its neighbour sums. -/
theorem kernel_value : (X4 m c (Proc.devRef .tc main_v32) : S64x10.Idx → EReal)
    = Cert.ReferenceIdeal.Read.val_main_v56 (F := Ideal) a0 a1 a2 a3 a4 a5 a6 a7 a8 a9 a10 a11 a12 := by
  refine classifier_eq a0 a1 a2 a3 a4 a5 a6 a7 a8 a9 a10 a11 a12
    (E3 m c main_v16) (E3 m c main_v27) (E3 m c main_v28) (E3 m c main_arg7) (E3 m c main_arg9)
    (E3 m c main_v29) (E3 m c main_v30) (E3 m c main_arg11) (E3 m c main_v31)
    (h16 m c) (Cert.Gin.Glue.agg2_eq m (outsA m) c (h16 m c)) (Cert.Gin.Glue.gid_v28 m (outsA m) c)
    (Cert.Gin.Glue.V3_arg7 m (outsA m) c) (Cert.Gin.Glue.bias_v29 m (outsA m) c)
    (Cert.Gin.Glue.V3_arg9 m (outsA m) c) (Cert.Gin.Glue.bias_v30 m (outsA m) c)
    (Cert.Gin.Glue.V3_arg11 m (outsA m) c) (Cert.Gin.Glue.bias_v31 m (outsA m) c)
    (outsAt1 (E3 m) c 24 lt24).2 _ ?_ ?_
  · -- the running sums after the last tile
    exact fun g d => Cert.Gin.K1.scratch_fold (E3 m c) (fun n hn => (outsAt1 (E3 m) c n hn).2)
      (fun h => outsAt1_scratch_zero (E3 m) c h) (fun n hn => outsAt1_scratch_succ (E3 m) c n hn) lt24 g d
  · -- the result array is the last point's write-back, the classifier of those sums
    intro g j
    have e : X4 m c (Proc.devRef .tc main_v32)
        = k1_pay2 (F := Ideal) (outsAt1 (E3 m) c 24 lt24).2
            (Cert.Gin.K1.blk1 (E3 m c) 7 ⟨24, lt24⟩) (Cert.Gin.K1.blk1 (E3 m c) 8 ⟨24, lt24⟩) :=
      (X4_arr m c 9).trans ((Cert.Gin.K1.region1_array (E3 m c) (dat1 (E3 m) c) (A_eq1 (E3 m) c) lt24).trans
        ((after1_9 (E3 m) c ⟨24, lt24⟩).trans (outsAt1_out_last (E3 m) c lt24)))
    exact (congrFun e (ix2 g j)).trans (Cert.Gin.K1.out_last (E3 m c) _ lt24 g j)

end Run

end Cert.Gin.KV

end
-- ==== Proof.lean ====
/-
  The kernel and its reference compute one function on the extended reals: two GIN layers
  relu (relu ((h + agg) · W_A + b_A) · W_B + b_B), with agg the neighbour sums gathered and scattered on the host by both
  programs alike, then sum pooling by graph id and a linear classifier.

  The kernel program runs in four items. Its first kernel region applies layer one to 25 tiles of 2000 rows; since a layer
  treats every row alone, the 25 written blocks are the reference's layer on all 50000 rows. Its second region applies layer
  two to each tile and adds, into running sums it keeps between tiles, the product of the tile's one-hot graph-id matrix
  with the tile's rows; a one-hot weight is 0 or 1, and 0 · x = 0, 1 · x = x hold for every extended real, so after the
  last tile the sums are the pooled rows, whatever order the tiles came in (addition of extended reals is commutative and
  associative). The classifier is the same matrix product and bias on both sides. No step uses that the inputs are finite.
  Changes of float format are the identity on the extended reals, so the kernel's narrower storage of layer one is invisible.

  The frames: each program terminates without a fault and leaves its argument arrays as launched. For the two kernel
  programs this is the run of the four items (Proof/K/Run.lean at the word level, Proof/KI/Run.lean idealized); for the
  reference it is its run read back. The idealization changed nothing in the kernel's text, so `preserves` has no conjunct.
-/
import proofs.«400679_j13889924235785_2_alg».proof.Defs
import proofs.«400679_j13889924235785_2_alg».proof.Proof.Gen.Kernel
import proofs.«400679_j13889924235785_2_alg».proof.Proof.Gen.KernelIdeal
import proofs.«400679_j13889924235785_2_alg».proof.Proof.Gen.ReferenceIdeal
import proofs.«400679_j13889924235785_2_alg».proof.Proof.Gen.Pre_finite_inputs
import proofs.«400679_j13889924235785_2_alg».proof.Proof.K.Run
import proofs.«400679_j13889924235785_2_alg».proof.Proof.KI.RunVal
import proofs.«400679_j13889924235785_2_alg».proof.Proof.Val.KernelValue
import Idealize.ShloMosaic.Adequacy
import Idealize.ShloMosaic.Init

noncomputable section

namespace Cert.Proof

open Idealize.ShloMosaic Idealize.ShloMosaic.TcCoe Idealize.SL.Sem

/-- The word-level kernel program terminates, faults nowhere and keeps its arguments. -/
theorem frame_kernel : Cert.frame_Kernel := fun m ρ _ => Cert.Kernel.Hand.frame m ρ

/-- So does the idealized kernel program. -/
theorem frame_kernel_ideal : Cert.frame_KernelIdeal := fun m ρ _ => Cert.KernelIdeal.Hand.frame m ρ

/-- The reference is host operations only: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the same result: the kernel's result array is the
    reference's last stage of the kernel's arguments (`Cert.Gin.KV.kernel_value`), and the reference's result is that stage of
    its own arguments, which are the same. -/
theorem algebraic : Cert.algebraic_KernelIdeal_ReferenceIdeal := by
  intro m ρ m' ρ' _ hagree
  refine ⟨fun c => Cert.KernelIdeal.Hand.X4 m c (Proc.devRef .tc Cert.KernelIdeal.main_v32), Cert.KernelIdeal.Hand.run_val m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12⟩ := hagree c
  rw [Cert.ReferenceIdeal.Read.val_main_v56_eq, h0, h1, h2, h3, h4, h5, h6, h7, h8, h9, h10, h11, h12]
  exact (Cert.Gin.KV.kernel_value m c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
